-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x257 : Shape := ⟨2, ![131072, 257]⟩
abbrev S131072x128 : Shape := ⟨2, ![131072, 128]⟩
abbrev S131072 : Shape := ⟨1, ![131072]⟩
abbrev S80x257 : Shape := ⟨2, ![80, 257]⟩
abbrev S80 : Shape := ⟨1, ![80]⟩
abbrev S80x128 : Shape := ⟨2, ![80, 128]⟩
abbrev S640x32 : Shape := ⟨2, ![640, 32]⟩
abbrev S640 : Shape := ⟨1, ![640]⟩
abbrev S10x64 : Shape := ⟨2, ![10, 64]⟩
abbrev S10 : Shape := ⟨1, ![10]⟩
abbrev S_ : Shape := ⟨0, ![]⟩

class Facts : Prop where
  bcast_S_S131072x257 : S_.BroadcastsInDim S131072x257 (![] : Fin 0 → Fin S131072x257.rank)
  reducesTo_S131072x257_S_d0_1 : S131072x257.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S80x257 : S_.BroadcastsInDim S80x257 (![] : Fin 0 → Fin S80x257.rank)
  reducesTo_S80x257_S_d0_1 : S80x257.ReducesTo [0, 1] S_
  bcast_S_S80 : S_.BroadcastsInDim S80 (![] : Fin 0 → Fin S80.rank)
  reducesTo_S80_S_d0 : S80.ReducesTo [0] S_
  bcast_S_S80x128 : S_.BroadcastsInDim S80x128 (![] : Fin 0 → Fin S80x128.rank)
  reducesTo_S80x128_S_d0_1 : S80x128.ReducesTo [0, 1] S_
  bcast_S_S640x32 : S_.BroadcastsInDim S640x32 (![] : Fin 0 → Fin S640x32.rank)
  reducesTo_S640x32_S_d0_1 : S640x32.ReducesTo [0, 1] S_
  bcast_S_S640 : S_.BroadcastsInDim S640 (![] : Fin 0 → Fin S640.rank)
  reducesTo_S640_S_d0 : S640.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_
  bcast_S_S131072 : S_.BroadcastsInDim S131072 (![] : Fin 0 → Fin S131072.rank)
  reducesTo_S131072_S_d0 : S131072.ReducesTo [0] S_

variable [Facts]

def fn_part3 {F : FTy → Type} [FloatOps F] (main_v48 : IVec S_ 1) (main_v50 : IVec S131072 1) : IVec S_ 1 :=
  let main_c_19 : IVec S_ 1 := constantI S_ 1 1#1
  let main_v51 : IVec S_ 1 := (fun x v => Host.reduce IntOp.andi x v reducesTo_S131072_S_d0 h_S_) main_v50 main_c_19
  let main_v52 : IVec S_ 1 := andi main_v48 main_v51
  main_v52

def fn_part2 {F : FTy → Type} [FloatOps F] (main_arg2 : IVec S131072 32) (main_arg8 : FVec F S640 .f32) (main_arg9 : FVec F S10x64 .f32) (main_arg10 : FVec F S10 .f32) (main_v33 : IVec S_ 1) : IVec S_ 1 :=
  let main_v34 : FVec F S640 .f32 := Host.absf main_arg8
  let main_cst_12 : FVec F S_ .f32 := constant S_ .f32 0x7F800000#32
  let main_v35 : FVec F S640 .f32 := broadcastInDim S640 ![] bcast_S_S640 main_cst_12
  let main_v36 : IVec S640 1 := cmpf .olt main_v34 main_v35
  let main_c_13 : IVec S_ 1 := constantI S_ 1 1#1
  let main_v37 : IVec S_ 1 := (fun x v => Host.reduce IntOp.andi x v reducesTo_S640_S_d0 h_S_) main_v36 main_c_13
  let main_v38 : IVec S_ 1 := andi main_v33 main_v37
  let main_v39 : FVec F S10x64 .f32 := Host.absf main_arg9
  let main_cst_14 : FVec F S_ .f32 := constant S_ .f32 0x7F800000#32
  let main_v40 : FVec F S10x64 .f32 := broadcastInDim S10x64 ![] bcast_S_S10x64 main_cst_14
  let main_v41 : IVec S10x64 1 := cmpf .olt main_v39 main_v40
  let main_c_15 : IVec S_ 1 := constantI S_ 1 1#1
  let main_v42 : IVec S_ 1 := (fun x v => Host.reduce IntOp.andi x v reducesTo_S10x64_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_c_18 : IVec S_ 32 := constantI S_ 32 0#32
  let main_v49 : IVec S131072 32 := broadcastInDim S131072 ![] bcast_S_S131072 main_c_18
  let main_v50 : IVec S131072 1 := cmpi .sge main_arg2 main_v49
  fn_part3 (F := F) main_v48 main_v50

def fn_part1 {F : FTy → Type} [FloatOps F] (main_arg2 : IVec S131072 32) (main_arg5 : FVec F S80x128 .f32) (main_arg6 : FVec F S80 .f32) (main_arg7 : FVec F S640x32 .f32) (main_arg8 : FVec F S640 .f32) (main_arg9 : FVec F S10x64 .f32) (main_arg10 : FVec F S10 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80x128 .f32 := Host.absf main_arg5
  let main_cst_6 : FVec F S_ .f32 := constant S_ .f32 0x7F800000#32
  let main_v20 : FVec F S80x128 .f32 := broadcastInDim S80x128 ![] bcast_S_S80x128 main_cst_6
  let main_v21 : IVec S80x128 1 := cmpf .olt main_v19 main_v20
  let main_c_7 : IVec S_ 1 := constantI S_ 1 1#1
  let main_v22 : IVec S_ 1 := (fun x v => Host.reduce IntOp.andi x v reducesTo_S80x128_S_d0_1 h_S_) main_v21 main_c_7
  let main_v23 : IVec S_ 1 := andi main_v18 main_v22
  let main_v24 : FVec F S80 .f32 := Host.absf main_arg6
  let main_cst_8 : FVec F S_ .f32 := constant S_ .f32 0x7F800000#32
  let main_v25 : FVec F S80 .f32 := broadcastInDim S80 ![] bcast_S_S80 main_cst_8
  let main_v26 : IVec S80 1 := cmpf .olt main_v24 main_v25
  let main_c_9 : IVec S_ 1 := constantI S_ 1 1#1
  let main_v27 : IVec S_ 1 := (fun x v => Host.reduce IntOp.andi x v reducesTo_S80_S_d0 h_S_) main_v26 main_c_9
  let main_v28 : IVec S_ 1 := andi main_v23 main_v27
  let main_v29 : FVec F S640x32 .f32 := Host.absf main_arg7
  let main_cst_10 : FVec F S_ .f32 := constant S_ .f32 0x7F800000#32
  let main_v30 : FVec F S640x32 .f32 := broadcastInDim S640x32 ![] bcast_S_S640x32 main_cst_10
  let main_v31 : IVec S640x32 1 := cmpf .olt main_v29 main_v30
  let main_c_11 : IVec S_ 1 := constantI S_ 1 1#1
  let main_v32 : IVec S_ 1 := (fun x v => Host.reduce IntOp.andi x v reducesTo_S640x32_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S131072x257 .f32) (main_arg1 : FVec F S131072x128 .f32) (main_arg2 : IVec S131072 32) (main_arg3 : FVec F S80x257 .f32) (main_arg4 : FVec F S80 .f32) (main_arg5 : FVec F S80x128 .f32) (main_arg6 : FVec F S80 .f32) (main_arg7 : FVec F S640x32 .f32) (main_arg8 : FVec F S640 .f32) (main_arg9 : FVec F S10x64 .f32) (main_arg10 : FVec F S10 .f32) : IVec S_ 1 :=
  let main_v0 : FVec F S131072x257 .f32 := Host.absf main_arg0
  let main_cst : FVec F S_ .f32 := constant S_ .f32 0x7F800000#32
  let main_v1 : FVec F S131072x257 .f32 := broadcastInDim S131072x257 ![] bcast_S_S131072x257 main_cst
  let main_v2 : IVec S131072x257 1 := cmpf .olt main_v0 main_v1
  let main_c : IVec S_ 1 := constantI S_ 1 1#1
  let main_v3 : IVec S_ 1 := (fun x v => Host.reduce IntOp.andi x v reducesTo_S131072x257_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S80x257 .f32 := Host.absf main_arg3
  let main_cst_2 : FVec F S_ .f32 := constant S_ .f32 0x7F800000#32
  let main_v10 : FVec F S80x257 .f32 := broadcastInDim S80x257 ![] bcast_S_S80x257 main_cst_2
  let main_v11 : IVec S80x257 1 := cmpf .olt main_v9 main_v10
  let main_c_3 : IVec S_ 1 := constantI S_ 1 1#1
  let main_v12 : IVec S_ 1 := (fun x v => Host.reduce IntOp.andi x v reducesTo_S80x257_S_d0_1 h_S_) main_v11 main_c_3
  let main_v13 : IVec S_ 1 := andi main_v8 main_v12
  let main_v14 : FVec F S80 .f32 := Host.absf main_arg4
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg2 main_arg5 main_arg6 main_arg7 main_arg8 main_arg9 main_arg10 main_v13 main_v16
-- ==== Kernel.lean ====
abbrev S131072x257 : Shape := ⟨2, ![131072, 257]⟩
abbrev S131072x128 : Shape := ⟨2, ![131072, 128]⟩
abbrev S131072 : Shape := ⟨1, ![131072]⟩
abbrev S80x257 : Shape := ⟨2, ![80, 257]⟩
abbrev S80 : Shape := ⟨1, ![80]⟩
abbrev S80x128 : Shape := ⟨2, ![80, 128]⟩
abbrev S640x32 : Shape := ⟨2, ![640, 32]⟩
abbrev S640 : Shape := ⟨1, ![640]⟩
abbrev S10x64 : Shape := ⟨2, ![10, 64]⟩
abbrev S10 : Shape := ⟨1, ![10]⟩
abbrev S_ : Shape := ⟨0, ![]⟩
abbrev S131072x1 : Shape := ⟨2, ![131072, 1]⟩
abbrev S257x80 : Shape := ⟨2, ![257, 80]⟩
abbrev S1x80 : Shape := ⟨2, ![1, 80]⟩
abbrev S128x80 : Shape := ⟨2, ![128, 80]⟩
abbrev S32x640 : Shape := ⟨2, ![32, 640]⟩
abbrev S1x640 : Shape := ⟨2, ![1, 640]⟩
abbrev S64x10 : Shape := ⟨2, ![64, 10]⟩
abbrev S1x10 : Shape := ⟨2, ![1, 10]⟩
abbrev S2048x257 : Shape := ⟨2, ![2048, 257]⟩
abbrev S2048x128 : Shape := ⟨2, ![2048, 128]⟩
abbrev S2048x1 : Shape := ⟨2, ![2048, 1]⟩
abbrev S2048x80 : Shape := ⟨2, ![2048, 80]⟩
abbrev S2048x10 : Shape := ⟨2, ![2048, 10]⟩
abbrev S2048x8 : Shape := ⟨2, ![2048, 8]⟩
abbrev S2048x16 : Shape := ⟨2, ![2048, 16]⟩
abbrev S2048x32 : Shape := ⟨2, ![2048, 32]⟩
abbrev S2048x64 : Shape := ⟨2, ![2048, 64]⟩
abbrev S32x64 : Shape := ⟨2, ![32, 64]⟩
abbrev S1x64 : Shape := ⟨2, ![1, 64]⟩
abbrev S2048 : Shape := ⟨1, ![2048]⟩

abbrev nBuf : Space → Nat
  | .hbm => 103
  | .vmem => 16
  | .smem => 0
  | _ => 0

abbrev bufTy : (tb : Table) → Fin (tcTables nBuf tb) → BufTy
  | .hbm, ⟨0, _⟩ => ⟨S131072x257, .f32⟩
  | .hbm, ⟨1, _⟩ => ⟨S131072x128, .f32⟩
  | .hbm, ⟨2, _⟩ => ⟨S131072, .i32⟩
  | .hbm, ⟨3, _⟩ => ⟨S80x257, .f32⟩
  | .hbm, ⟨4, _⟩ => ⟨S80, .f32⟩
  | .hbm, ⟨5, _⟩ => ⟨S80x128, .f32⟩
  | .hbm, ⟨6, _⟩ => ⟨S80, .f32⟩
  | .hbm, ⟨7, _⟩ => ⟨S640x32, .f32⟩
  | .hbm, ⟨8, _⟩ => ⟨S640, .f32⟩
  | .hbm, ⟨9, _⟩ => ⟨S10x64, .f32⟩
  | .hbm, ⟨10, _⟩ => ⟨S10, .f32⟩
  | .hbm, ⟨11, _⟩ => ⟨S_, .i32⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S131072, .i32⟩
  | .hbm, ⟨20, _⟩ => ⟨S131072, .i32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072x1, .i32⟩
  | .hbm, ⟨38, _⟩ => ⟨S_, .f32⟩
  | .hbm, ⟨39, _⟩ => ⟨S80x257, .f32⟩
  | .hbm, ⟨40, _⟩ => ⟨S80x257, .f32⟩
  | .hbm, ⟨41, _⟩ => ⟨S80x257, .f32⟩
  | .hbm, ⟨42, _⟩ => ⟨S_, .f32⟩
  | .hbm, ⟨43, _⟩ => ⟨S80x257, .f32⟩
  | .hbm, ⟨44, _⟩ => ⟨S80x257, .f32⟩
  | .hbm, ⟨45, _⟩ => ⟨S257x80, .f32⟩
  | .hbm, ⟨46, _⟩ => ⟨S_, .f32⟩
  | .hbm, ⟨47, _⟩ => ⟨S80, .f32⟩
  | .hbm, ⟨48, _⟩ => ⟨S80, .f32⟩
  | .hbm, ⟨49, _⟩ => ⟨S80, .f32⟩
  | .hbm, ⟨50, _⟩ => ⟨S_, .f32⟩
  | .hbm, ⟨51, _⟩ => ⟨S80, .f32⟩
  | .hbm, ⟨52, _⟩ => ⟨S80, .f32⟩
  | .hbm, ⟨53, _⟩ => ⟨S1x80, .f32⟩
  | .hbm, ⟨54, _⟩ => ⟨S_, .f32⟩
  | .hbm, ⟨55, _⟩ => ⟨S80x128, .f32⟩
  | .hbm, ⟨56, _⟩ => ⟨S80x128, .f32⟩
  | .hbm, ⟨57, _⟩ => ⟨S80x128, .f32⟩
  | .hbm, ⟨58, _⟩ => ⟨S_, .f32⟩
  | .hbm, ⟨59, _⟩ => ⟨S80x128, .f32⟩
  | .hbm, ⟨60, _⟩ => ⟨S80x128, .f32⟩
  | .hbm, ⟨61, _⟩ => ⟨S128x80, .f32⟩
  | .hbm, ⟨62, _⟩ => ⟨S_, .f32⟩
  | .hbm, ⟨63, _⟩ => ⟨S80, .f32⟩
  | .hbm, ⟨64, _⟩ => ⟨S80, .f32⟩
  | .hbm, ⟨65, _⟩ => ⟨S80, .f32⟩
  | .hbm, ⟨66, _⟩ => ⟨S_, .f32⟩
  | .hbm, ⟨67, _⟩ => ⟨S80, .f32⟩
  | .hbm, ⟨68, _⟩ => ⟨S80, .f32⟩
  | .hbm, ⟨69, _⟩ => ⟨S1x80, .f32⟩
  | .hbm, ⟨70, _⟩ => ⟨S_, .f32⟩
  | .hbm, ⟨71, _⟩ => ⟨S640x32, .f32⟩
  | .hbm, ⟨72, _⟩ => ⟨S640x32, .f32⟩
  | .hbm, ⟨73, _⟩ => ⟨S640x32, .f32⟩
  | .hbm, ⟨74, _⟩ => ⟨S_, .f32⟩
  | .hbm, ⟨75, _⟩ => ⟨S640x32, .f32⟩
  | .hbm, ⟨76, _⟩ => ⟨S640x32, .f32⟩
  | .hbm, ⟨77, _⟩ => ⟨S32x640, .f32⟩
  | .hbm, ⟨78, _⟩ => ⟨S_, .f32⟩
  | .hbm, ⟨79, _⟩ => ⟨S640, .f32⟩
  | .hbm, ⟨80, _⟩ => ⟨S640, .f32⟩
  | .hbm, ⟨81, _⟩ => ⟨S640, .f32⟩
  | .hbm, ⟨82, _⟩ => ⟨S_, .f32⟩
  | .hbm, ⟨83, _⟩ => ⟨S640, .f32⟩
  | .hbm, ⟨84, _⟩ => ⟨S640, .f32⟩
  | .hbm, ⟨85, _⟩ => ⟨S1x640, .f32⟩
  | .hbm, ⟨86, _⟩ => ⟨S_, .f32⟩
  | .hbm, ⟨87, _⟩ => ⟨S10x64, .f32⟩
  | .hbm, ⟨88, _⟩ => ⟨S10x64, .f32⟩
  | .hbm, ⟨89, _⟩ => ⟨S10x64, .f32⟩
  | .hbm, ⟨90, _⟩ => ⟨S_, .f32⟩
  | .hbm, ⟨91, _⟩ => ⟨S10x64, .f32⟩
  | .hbm, ⟨92, _⟩ => ⟨S10x64, .f32⟩
  | .hbm, ⟨93, _⟩ => ⟨S64x10, .f32⟩
  | .hbm, ⟨94, _⟩ => ⟨S_, .f32⟩
  | .hbm, ⟨95, _⟩ => ⟨S10, .f32⟩
  | .hbm, ⟨96, _⟩ => ⟨S10, .f32⟩
  | .hbm, ⟨97, _⟩ => ⟨S10, .f32⟩
  | .hbm, ⟨98, _⟩ => ⟨S_, .f32⟩
  | .hbm, ⟨99, _⟩ => ⟨S10, .f32⟩
  | .hbm, ⟨100, _⟩ => ⟨S10, .f32⟩
  | .hbm, ⟨101, _⟩ => ⟨S1x10, .f32⟩
  | .hbm, ⟨102, _⟩ => ⟨S131072x1, .f32⟩
  | .local _ .vmem, ⟨0, _⟩ => ⟨S2048x257, .f32⟩
  | .local _ .vmem, ⟨1, _⟩ => ⟨S2048x257, .f32⟩
  | .local _ .vmem, ⟨2, _⟩ => ⟨S2048x128, .f32⟩
  | .local _ .vmem, ⟨3, _⟩ => ⟨S2048x128, .f32⟩
  | .local _ .vmem, ⟨4, _⟩ => ⟨S2048x1, .i32⟩
  | .local _ .vmem, ⟨5, _⟩ => ⟨S2048x1, .i32⟩
  | .local _ .vmem, ⟨6, _⟩ => ⟨S257x80, .f32⟩
  | .local _ .vmem, ⟨7, _⟩ => ⟨S1x80, .f32⟩
  | .local _ .vmem, ⟨8, _⟩ => ⟨S128x80, .f32⟩
  | .local _ .vmem, ⟨9, _⟩ => ⟨S1x80, .f32⟩
  | .local _ .vmem, ⟨10, _⟩ => ⟨S32x640, .f32⟩
  | .local _ .vmem, ⟨11, _⟩ => ⟨S1x640, .f32⟩
  | .local _ .vmem, ⟨12, _⟩ => ⟨S64x10, .f32⟩
  | .local _ .vmem, ⟨13, _⟩ => ⟨S1x10, .f32⟩
  | .local _ .vmem, ⟨14, _⟩ => ⟨S2048x1, .f32⟩
  | .local _ .vmem, ⟨15, _⟩ => ⟨S2048x1, .f32⟩
  | _, _ => ⟨S131072x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v0 : Ref sig .tc := ⟨.hbm, 28, rfl⟩
abbrev main_c_0 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v1 : Ref sig .tc := ⟨.hbm, 36, rfl⟩
abbrev main_v2 : Ref sig .tc := ⟨.hbm, 37, rfl⟩
abbrev main_cst : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_cst_2 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst_3 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_4 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst_5 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_6 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_7 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_8 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_9 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_10 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_11 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_12 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_cst_13 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_14 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_15 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_16 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S257x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S131072 : S_.BroadcastsInDim S131072 (![] : Fin 0 → Fin S131072.rank)
  shapeCasts_S131072_S131072x1 : S131072.ShapeCasts S131072x1
  bcast_S_S80x257 : S_.BroadcastsInDim S80x257 (![] : Fin 0 → Fin S80x257.rank)
  transposes_S80x257_S257x80_1_0 : S80x257.Transposes [1, 0] S257x80
  bcast_S_S80 : S_.BroadcastsInDim S80 (![] : Fin 0 → Fin S80.rank)
  shapeCasts_S80_S1x80 : S80.ShapeCasts S1x80
  bcast_S_S80x128 : S_.BroadcastsInDim S80x128 (![] : Fin 0 → Fin S80x128.rank)
  transposes_S80x128_S128x80_1_0 : S80x128.Transposes [1, 0] S128x80
  bcast_S_S640x32 : S_.BroadcastsInDim S640x32 (![] : Fin 0 → Fin S640x32.rank)
  transposes_S640x32_S32x640_1_0 : S640x32.Transposes [1, 0] S32x640
  bcast_S_S640 : S_.BroadcastsInDim S640 (![] : Fin 0 → Fin S640.rank)
  shapeCasts_S640_S1x640 : S640.ShapeCasts S1x640
  bcast_S_S10x64 : S_.BroadcastsInDim S10x64 (![] : Fin 0 → Fin S10x64.rank)
  transposes_S10x64_S64x10_1_0 : S10x64.Transposes [1, 0] S64x10
  bcast_S_S10 : S_.BroadcastsInDim S10 (![] : Fin 0 → Fin S10.rank)
  shapeCasts_S10_S1x10 : S10.ShapeCasts S1x10
  inb_S2048x257_S2048x257_0_0 : ∀ a, (![0, 0] : Fin 2 → Nat) a + S2048x257.size a ≤ S2048x257.size a
  h_S2048x257 : 0 < S2048x257.numel
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S257x80_S257x80_0_0 : ∀ a, (![0, 0] : Fin 2 → Nat) a + S257x80.size a ≤ S257x80.size a
  h_S257x80 : 0 < S257x80.numel
  shapeCasts_S257x80_S257x80 : S257x80.ShapeCasts S257x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  inb_S128x80_S128x80_0_0 : ∀ a, (![0, 0] : Fin 2 → Nat) a + S128x80.size a ≤ S128x80.size a
  h_S128x80 : 0 < S128x80.numel
  shapeCasts_S128x80_S128x80 : S128x80.ShapeCasts S128x80
  inb_S32x640_S32x640_0_0 : ∀ a, (![0, 0] : Fin 2 → Nat) a + S32x640.size a ≤ S32x640.size a
  h_S32x640 : 0 < S32x640.numel
  shapeCasts_S32x640_S32x640 : S32x640.ShapeCasts S32x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x80_S2048x80 : S1x80.Broadcasts S2048x80
  iota_S2048x10_d1_w32 : S2048x10.Iotas .tc 32 [1]
  broadcasts_S2048x1_S2048x10 : S2048x1.Broadcasts S2048x10
  natLt_1_32 : 1 < 32
  slices_S2048x10_o0_0_S2048x1 : S2048x10.Slices ![0, 0] S2048x1
  slices_S2048x80_o0_0_S2048x8 : S2048x80.Slices ![0, 0] S2048x8
  broadcasts_S2048x1_S2048x8 : S2048x1.Broadcasts S2048x8
  slices_S2048x10_o0_1_S2048x1 : S2048x10.Slices ![0, 1] S2048x1
  slices_S2048x80_o0_8_S2048x8 : S2048x80.Slices ![0, 8] S2048x8
  slices_S2048x10_o0_2_S2048x1 : S2048x10.Slices ![0, 2] S2048x1
  slices_S2048x80_o0_16_S2048x8 : S2048x80.Slices ![0, 16] S2048x8
  slices_S2048x10_o0_3_S2048x1 : S2048x10.Slices ![0, 3] S2048x1
  slices_S2048x80_o0_24_S2048x8 : S2048x80.Slices ![0, 24] S2048x8
  slices_S2048x10_o0_4_S2048x1 : S2048x10.Slices ![0, 4] S2048x1
  slices_S2048x80_o0_32_S2048x8 : S2048x80.Slices ![0, 32] S2048x8
  slices_S2048x10_o0_5_S2048x1 : S2048x10.Slices ![0, 5] S2048x1
  slices_S2048x80_o0_40_S2048x8 : S2048x80.Slices ![0, 40] S2048x8
  slices_S2048x10_o0_6_S2048x1 : S2048x10.Slices ![0, 6] S2048x1
  slices_S2048x80_o0_48_S2048x8 : S2048x80.Slices ![0, 48] S2048x8
  slices_S2048x10_o0_7_S2048x1 : S2048x10.Slices ![0, 7] S2048x1
  slices_S2048x80_o0_56_S2048x8 : S2048x80.Slices ![0, 56] S2048x8
  slices_S2048x10_o0_8_S2048x1 : S2048x10.Slices ![0, 8] S2048x1
  slices_S2048x80_o0_64_S2048x8 : S2048x80.Slices ![0, 64] S2048x8
  slices_S2048x10_o0_9_S2048x1 : S2048x10.Slices ![0, 9] S2048x1
  slices_S2048x80_o0_72_S2048x8 : S2048x80.Slices ![0, 72] S2048x8
  concatenates_S2048x8_S2048x8_S2048x16_d1 : Shape.Concatenates [S2048x8, S2048x8] S2048x16 1
  concatenates_S2048x16_S2048x16_S2048x32_d1 : Shape.Concatenates [S2048x16, S2048x16] S2048x32 1
  broadcasts_S2048x1_S2048x32 : S2048x1.Broadcasts S2048x32
  slices_S32x640_o0_0_S32x64 : S32x640.Slices ![0, 0] S32x64
  slices_S1x640_o0_0_S1x64 : S1x640.Slices ![0, 0] S1x64
  broadcasts_S2048x1_S2048x64 : S2048x1.Broadcasts S2048x64
  broadcasts_S1x64_S2048x64 : S1x64.Broadcasts S2048x64
  slices_S32x640_o0_64_S32x64 : S32x640.Slices ![0, 64] S32x64
  slices_S1x640_o0_64_S1x64 : S1x640.Slices ![0, 64] S1x64
  slices_S32x640_o0_128_S32x64 : S32x640.Slices ![0, 128] S32x64
  slices_S1x640_o0_128_S1x64 : S1x640.Slices ![0, 128] S1x64
  slices_S32x640_o0_192_S32x64 : S32x640.Slices ![0, 192] S32x64
  slices_S1x640_o0_192_S1x64 : S1x640.Slices ![0, 192] S1x64
  slices_S32x640_o0_256_S32x64 : S32x640.Slices ![0, 256] S32x64
  slices_S1x640_o0_256_S1x64 : S1x640.Slices ![0, 256] S1x64
  slices_S32x640_o0_320_S32x64 : S32x640.Slices ![0, 320] S32x64
  slices_S1x640_o0_320_S1x64 : S1x640.Slices ![0, 320] S1x64
  slices_S32x640_o0_384_S32x64 : S32x640.Slices ![0, 384] S32x64
  slices_S1x640_o0_384_S1x64 : S1x640.Slices ![0, 384] S1x64
  slices_S32x640_o0_448_S32x64 : S32x640.Slices ![0, 448] S32x64
  slices_S1x640_o0_448_S1x64 : S1x640.Slices ![0, 448] S1x64
  slices_S32x640_o0_512_S32x64 : S32x640.Slices ![0, 512] S32x64
  slices_S1x640_o0_512_S1x64 : S1x640.Slices ![0, 512] S1x64
  slices_S32x640_o0_576_S32x64 : S32x640.Slices ![0, 576] S32x64
  slices_S1x640_o0_576_S1x64 : S1x640.Slices ![0, 576] S1x64
  broadcasts_S1x10_S2048x10 : S1x10.Broadcasts S2048x10
  reduces_S2048x10_S2048 : S2048x10.Reduces [1] S2048
  shapeCasts_S2048_S2048x1 : S2048.ShapeCasts S2048x1
  dot_S2048x257_S257x80_S2048x80_1_0_0_1_n_n_wf : DotDims.WF S2048x257 S257x80 S2048x80 [1] [0] [0] [1] [] []
  dot_S2048x128_S128x80_S2048x80_1_0_0_1_n_n_wf : DotDims.WF S2048x128 S128x80 S2048x80 [1] [0] [0] [1] [] []
  dot_S2048x32_S32x64_S2048x64_1_0_0_1_n_n_wf : DotDims.WF S2048x32 S32x64 S2048x64 [1] [0] [0] [1] [] []
  dot_S2048x64_S64x10_S2048x10_1_0_0_1_n_n_wf : DotDims.WF S2048x64 S64x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x257.size a ≤ S131072x257.size a
  hwx0_0 : ∀ i : grid0.Coords, EltTy.bits .f32 = 32 ∨ (Rect.block (s := S131072x257) S2048x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .i32 = 32 ∨ (Rect.block (s := S131072x1) S2048x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S257x80.size a ≤ S257x80.size a
  hwx0_3 : ∀ i : grid0.Coords, EltTy.bits .f32 = 32 ∨ (Rect.block (s := S257x80) S257x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x80.size a ≤ S1x80.size a
  hwx0_4 : ∀ i : grid0.Coords, EltTy.bits .f32 = 32 ∨ (Rect.block (s := S1x80) S1x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x80.size a ≤ S128x80.size a
  hwx0_5 : ∀ i : grid0.Coords, EltTy.bits .f32 = 32 ∨ (Rect.block (s := S128x80) S128x80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x80.size a ≤ S1x80.size a
  hwx0_6 : ∀ i : grid0.Coords, EltTy.bits .f32 = 32 ∨ (Rect.block (s := S1x80) S1x80.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x640.size a ≤ S32x640.size a
  hwx0_7 : ∀ i : grid0.Coords, EltTy.bits .f32 = 32 ∨ (Rect.block (s := S32x640) S32x640.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x640.size a ≤ S1x640.size a
  hwx0_8 : ∀ i : grid0.Coords, EltTy.bits .f32 = 32 ∨ (Rect.block (s := S1x640) S1x640.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x10.size a ≤ S64x10.size a
  hwx0_9 : ∀ i : grid0.Coords, EltTy.bits .f32 = 32 ∨ (Rect.block (s := S64x10) S64x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S131072x1.size a
  hwx0_11 : ∀ i : grid0.Coords, EltTy.bits .f32 = 32 ∨ (Rect.block (s := S131072x1) S2048x1.size (cc0_transform_11 i) (hinb0_11 i)).WholeWords (EltTy.packing .f32)

variable [Facts₀]

def dot_S2048x257_S257x80_S2048x80_1_0_0_1_n_n : DotDims S2048x257 S257x80 S2048x80 where
  lhsContracting := [1]
  rhsContracting := [0]
  lhsNonContracting := [0]
  rhsNonContracting := [1]
  lhsBatch := []
  rhsBatch := []
  wf := dot_S2048x257_S257x80_S2048x80_1_0_0_1_n_n_wf
def dot_S2048x128_S128x80_S2048x80_1_0_0_1_n_n : DotDims S2048x128 S128x80 S2048x80 where
  lhsContracting := [1]
  rhsContracting := [0]
  lhsNonContracting := [0]
  rhsNonContracting := [1]
  lhsBatch := []
  rhsBatch := []
  wf := dot_S2048x128_S128x80_S2048x80_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x64_S64x10_S2048x10_1_0_0_1_n_n : DotDims S2048x64 S64x10 S2048x10 where
  lhsContracting := [1]
  rhsContracting := [0]
  lhsNonContracting := [0]
  rhsNonContracting := [1]
  lhsBatch := []
  rhsBatch := []
  wf := dot_S2048x64_S64x10_S2048x10_1_0_0_1_n_n_wf

abbrev win0_0 : Pipeline.Window sig grid0 :=
  Pipeline.Window.ofSpec (Memref.whole main_arg0) S2048x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S257x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S32x640.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x640.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S64x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v50) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v51) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x257 : Shape := ⟨2, ![131072, 257]⟩
abbrev S131072x128 : Shape := ⟨2, ![131072, 128]⟩
abbrev S131072 : Shape := ⟨1, ![131072]⟩
abbrev S80x257 : Shape := ⟨2, ![80, 257]⟩
abbrev S80 : Shape := ⟨1, ![80]⟩
abbrev S80x128 : Shape := ⟨2, ![80, 128]⟩
abbrev S640x32 : Shape := ⟨2, ![640, 32]⟩
abbrev S640 : Shape := ⟨1, ![640]⟩
abbrev S10x64 : Shape := ⟨2, ![10, 64]⟩
abbrev S10 : Shape := ⟨1, ![10]⟩
abbrev S_ : Shape := ⟨0, ![]⟩
abbrev S257x80 : Shape := ⟨2, ![257, 80]⟩
abbrev S131072x80 : Shape := ⟨2, ![131072, 80]⟩
abbrev S1x80 : Shape := ⟨2, ![1, 80]⟩
abbrev S131072x10x8 : Shape := ⟨3, ![131072, 10, 8]⟩
abbrev S131072x1 : Shape := ⟨2, ![131072, 1]⟩
abbrev S131072x2 : Shape := ⟨2, ![131072, 2]⟩
abbrev S131072x8 : Shape := ⟨2, ![131072, 8]⟩
abbrev S128x80 : Shape := ⟨2, ![128, 80]⟩
abbrev S131072x16 : Shape := ⟨2, ![131072, 16]⟩
abbrev S131072x32 : Shape := ⟨2, ![131072, 32]⟩
abbrev S32x640 : Shape := ⟨2, ![32, 640]⟩
abbrev S131072x640 : Shape := ⟨2, ![131072, 640]⟩
abbrev S1x640 : Shape := ⟨2, ![1, 640]⟩
abbrev S131072x10x64 : Shape := ⟨3, ![131072, 10, 64]⟩
abbrev S131072x64 : Shape := ⟨2, ![131072, 64]⟩
abbrev S64x10 : Shape := ⟨2, ![64, 10]⟩
abbrev S131072x10 : Shape := ⟨2, ![131072, 10]⟩
abbrev S1x10 : Shape := ⟨2, ![1, 10]⟩
abbrev S131072x10x1 : Shape := ⟨3, ![131072, 10, 1]⟩

abbrev nBuf : Space → Nat
  | .hbm => 247
  | .vmem => 0
  | .smem => 0
  | _ => 0

abbrev hbmTy0_0 (i : Nat) : BufTy := match i % 128 with
  | 0 => ⟨S131072x257, .f32⟩
  | 1 => ⟨S131072x128, .f32⟩
  | 2 => ⟨S131072, .i32⟩
  | 3 => ⟨S80x257, .f32⟩
  | 4 => ⟨S80, .f32⟩
  | 5 => ⟨S80x128, .f32⟩
  | 6 => ⟨S80, .f32⟩
  | 7 => ⟨S640x32, .f32⟩
  | 8 => ⟨S640, .f32⟩
  | 9 => ⟨S10x64, .f32⟩
  | 10 => ⟨S10, .f32⟩
  | 11 => ⟨S_, .i32⟩
  | 12 => ⟨S_, .i32⟩
  | 13 => ⟨S131072, .i32⟩
  | 14 => ⟨S131072, .i32⟩
  | 15 => ⟨S131072, .i32⟩
  | 16 => ⟨S_, .i32⟩
  | 17 => ⟨S131072, .i32⟩
  | 18 => ⟨S131072, .i1⟩
  | 19 => ⟨S131072, .i32⟩
  | 20 => ⟨S131072, .i32⟩
  | 21 => ⟨S_, .i32⟩
  | 22 => ⟨S131072, .i32⟩
  | 23 => ⟨S131072, .i1⟩
  | 24 => ⟨S131072, .i1⟩
  | 25 => ⟨S_, .i32⟩
  | 26 => ⟨S131072, .i32⟩
  | 27 => ⟨S131072, .i32⟩
  | 28 => ⟨S131072, .i32⟩
  | 29 => ⟨S131072, .i32⟩
  | 30 => ⟨S_, .f32⟩
  | 31 => ⟨S80x257, .f32⟩
  | 32 => ⟨S80x257, .f32⟩
  | 33 => ⟨S80x257, .f32⟩
  | 34 => ⟨S_, .f32⟩
  | 35 => ⟨S80x257, .f32⟩
  | 36 => ⟨S80x257, .f32⟩
  | 37 => ⟨S80x257, .f32⟩
  | 38 => ⟨S80x257, .f32⟩
  | 39 => ⟨S_, .f32⟩
  | 40 => ⟨S80, .f32⟩
  | 41 => ⟨S80, .f32⟩
  | 42 => ⟨S80, .f32⟩
  | 43 => ⟨S_, .f32⟩
  | 44 => ⟨S80, .f32⟩
  | 45 => ⟨S80, .f32⟩
  | 46 => ⟨S80, .f32⟩
  | 47 => ⟨S80, .f32⟩
  | 48 => ⟨S257x80, .f32⟩
  | 49 => ⟨S131072x80, .f32⟩
  | 50 => ⟨S1x80, .f32⟩
  | 51 => ⟨S131072x80, .f32⟩
  | 52 => ⟨S131072x80, .f32⟩
  | 53 => ⟨S131072x10x8, .f32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x1, .i32⟩
  | 70 => ⟨S131072x2, .i32⟩
  | 71 => ⟨S131072x8, .f32⟩
  | 72 => ⟨S_, .f32⟩
  | 73 => ⟨S80x128, .f32⟩
  | 74 => ⟨S80x128, .f32⟩
  | 75 => ⟨S80x128, .f32⟩
  | 76 => ⟨S_, .f32⟩
  | 77 => ⟨S80x128, .f32⟩
  | 78 => ⟨S80x128, .f32⟩
  | 79 => ⟨S80x128, .f32⟩
  | 80 => ⟨S80x128, .f32⟩
  | 81 => ⟨S_, .f32⟩
  | 82 => ⟨S80, .f32⟩
  | 83 => ⟨S80, .f32⟩
  | 84 => ⟨S80, .f32⟩
  | 85 => ⟨S_, .f32⟩
  | 86 => ⟨S80, .f32⟩
  | 87 => ⟨S80, .f32⟩
  | 88 => ⟨S80, .f32⟩
  | 89 => ⟨S80, .f32⟩
  | 90 => ⟨S128x80, .f32⟩
  | 91 => ⟨S131072x80, .f32⟩
  | 92 => ⟨S1x80, .f32⟩
  | 93 => ⟨S131072x80, .f32⟩
  | 94 => ⟨S131072x80, .f32⟩
  | 95 => ⟨S131072x10x8, .f32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S131072x1, .i32⟩
  | 111 => ⟨S131072x1, .i32⟩
  | 112 => ⟨S131072x2, .i32⟩
  | 113 => ⟨S131072x8, .f32⟩
  | 114 => ⟨S131072x16, .f32⟩
  | 115 => ⟨S131072x16, .f32⟩
  | 116 => ⟨S_, .f32⟩
  | 117 => ⟨S131072x16, .f32⟩
  | 118 => ⟨S131072x16, .f32⟩
  | 119 => ⟨S131072x32, .f32⟩
  | 120 => ⟨S_, .f32⟩
  | 121 => ⟨S_, .f32⟩
  | 122 => ⟨S_, .f32⟩
  | 123 => ⟨S131072x32, .f32⟩
  | 124 => ⟨S131072x32, .f32⟩
  | 125 => ⟨S_, .f32⟩
  | 126 => ⟨S131072x32, .f32⟩
  | 127 => ⟨S131072x32, .f32⟩
  | _ => ⟨S131072x257, .f32⟩

abbrev hbmTy0_1 (i : Nat) : BufTy := match i % 128 with
  | 0 => ⟨S_, .f32⟩
  | 1 => ⟨S131072x32, .f32⟩
  | 2 => ⟨S131072x32, .f32⟩
  | 3 => ⟨S131072x32, .f32⟩
  | 4 => ⟨S_, .f32⟩
  | 5 => ⟨S131072x32, .f32⟩
  | 6 => ⟨S131072x32, .f32⟩
  | 7 => ⟨S131072x32, .f32⟩
  | 8 => ⟨S131072x32, .f32⟩
  | 9 => ⟨S_, .f32⟩
  | 10 => ⟨S640x32, .f32⟩
  | 11 => ⟨S640x32, .f32⟩
  | 12 => ⟨S640x32, .f32⟩
  | 13 => ⟨S_, .f32⟩
  | 14 => ⟨S640x32, .f32⟩
  | 15 => ⟨S640x32, .f32⟩
  | 16 => ⟨S640x32, .f32⟩
  | 17 => ⟨S640x32, .f32⟩
  | 18 => ⟨S_, .f32⟩
  | 19 => ⟨S640, .f32⟩
  | 20 => ⟨S640, .f32⟩
  | 21 => ⟨S640, .f32⟩
  | 22 => ⟨S_, .f32⟩
  | 23 => ⟨S640, .f32⟩
  | 24 => ⟨S640, .f32⟩
  | 25 => ⟨S640, .f32⟩
  | 26 => ⟨S640, .f32⟩
  | 27 => ⟨S32x640, .f32⟩
  | 28 => ⟨S131072x640, .f32⟩
  | 29 => ⟨S1x640, .f32⟩
  | 30 => ⟨S131072x640, .f32⟩
  | 31 => ⟨S131072x640, .f32⟩
  | 32 => ⟨S131072x10x64, .f32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x1, .i32⟩
  | 49 => ⟨S131072x2, .i32⟩
  | 50 => ⟨S131072x64, .f32⟩
  | 51 => ⟨S_, .f32⟩
  | 52 => ⟨S_, .f32⟩
  | 53 => ⟨S_, .f32⟩
  | 54 => ⟨S131072x64, .f32⟩
  | 55 => ⟨S131072x64, .f32⟩
  | 56 => ⟨S_, .f32⟩
  | 57 => ⟨S131072x64, .f32⟩
  | 58 => ⟨S131072x64, .f32⟩
  | 59 => ⟨S_, .f32⟩
  | 60 => ⟨S131072x64, .f32⟩
  | 61 => ⟨S131072x64, .f32⟩
  | 62 => ⟨S131072x64, .f32⟩
  | 63 => ⟨S_, .f32⟩
  | 64 => ⟨S131072x64, .f32⟩
  | 65 => ⟨S131072x64, .f32⟩
  | 66 => ⟨S131072x64, .f32⟩
  | 67 => ⟨S131072x64, .f32⟩
  | 68 => ⟨S_, .f32⟩
  | 69 => ⟨S10x64, .f32⟩
  | 70 => ⟨S10x64, .f32⟩
  | 71 => ⟨S10x64, .f32⟩
  | 72 => ⟨S_, .f32⟩
  | 73 => ⟨S10x64, .f32⟩
  | 74 => ⟨S10x64, .f32⟩
  | 75 => ⟨S10x64, .f32⟩
  | 76 => ⟨S10x64, .f32⟩
  | 77 => ⟨S_, .f32⟩
  | 78 => ⟨S10, .f32⟩
  | 79 => ⟨S10, .f32⟩
  | 80 => ⟨S10, .f32⟩
  | 81 => ⟨S_, .f32⟩
  | 82 => ⟨S10, .f32⟩
  | 83 => ⟨S10, .f32⟩
  | 84 => ⟨S10, .f32⟩
  | 85 => ⟨S10, .f32⟩
  | 86 => ⟨S64x10, .f32⟩
  | 87 => ⟨S131072x10, .f32⟩
  | 88 => ⟨S1x10, .f32⟩
  | 89 => ⟨S131072x10, .f32⟩
  | 90 => ⟨S131072x10, .f32⟩
  | 91 => ⟨S131072x10x1, .f32⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S_, .i32⟩
  | 100 => ⟨S131072, .i32⟩
  | 101 => ⟨S131072, .i1⟩
  | 102 => ⟨S_, .i32⟩
  | 103 => ⟨S131072, .i32⟩
  | 104 => ⟨S131072, .i32⟩
  | 105 => ⟨S131072, .i32⟩
  | 106 => ⟨S131072x1, .i32⟩
  | 107 => ⟨S131072x1, .i32⟩
  | 108 => ⟨S131072x2, .i32⟩
  | 109 => ⟨S131072x1, .f32⟩
  | 110 => ⟨S_, .f32⟩
  | 111 => ⟨S131072x1, .f32⟩
  | 112 => ⟨S131072x1, .f32⟩
  | 113 => ⟨S131072x1, .f32⟩
  | 114 => ⟨S_, .f32⟩
  | 115 => ⟨S131072x1, .f32⟩
  | 116 => ⟨S131072x1, .f32⟩
  | 117 => ⟨S131072x1, .f32⟩
  | 118 => ⟨S131072x1, .f32⟩
  | _ => ⟨S131072x257, .f32⟩

abbrev hbmTy (i : Nat) : BufTy := match i / 128 with
  | 0 => hbmTy0_0 i
  | 1 => hbmTy0_1 i
  | _ => ⟨S131072x257, .f32⟩

abbrev bufTy : (tb : Table) → Fin (tcTables nBuf tb) → BufTy
  | .hbm, ⟨i, _⟩ => hbmTy i
  | _, _ => ⟨S131072x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_3 : Ref sig .tc := ⟨.hbm, 54, rfl⟩
abbrev main_v22 : Ref sig .tc := ⟨.hbm, 55, rfl⟩
abbrev main_v23 : Ref sig .tc := ⟨.hbm, 56, rfl⟩
abbrev main_c_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_5 : Ref sig .tc := ⟨.hbm, 61, rfl⟩
abbrev main_v27 : Ref sig .tc := ⟨.hbm, 62, rfl⟩
abbrev main_v28 : Ref sig .tc := ⟨.hbm, 63, rfl⟩
abbrev main_c_6 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_7 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_10 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_11 : Ref sig .tc := ⟨.hbm, 96, rfl⟩
abbrev main_v56 : Ref sig .tc := ⟨.hbm, 97, rfl⟩
abbrev main_v57 : Ref sig .tc := ⟨.hbm, 98, rfl⟩
abbrev main_c_12 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_13 : Ref sig .tc := ⟨.hbm, 103, rfl⟩
abbrev main_v61 : Ref sig .tc := ⟨.hbm, 104, rfl⟩
abbrev main_v62 : Ref sig .tc := ⟨.hbm, 105, rfl⟩
abbrev main_c_14 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_15 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_16 : Ref sig .tc := ⟨.hbm, 120, rfl⟩
abbrev main_cst_17 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v75 : Ref sig .tc := ⟨.hbm, 127, rfl⟩
abbrev main_cst_18 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_19 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_20 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_21 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_22 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_23 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_c_24 : Ref sig .tc := ⟨.hbm, 161, rfl⟩
abbrev main_v103 : Ref sig .tc := ⟨.hbm, 162, rfl⟩
abbrev main_v104 : Ref sig .tc := ⟨.hbm, 163, rfl⟩
abbrev main_c_25 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_c_26 : Ref sig .tc := ⟨.hbm, 168, rfl⟩
abbrev main_v108 : Ref sig .tc := ⟨.hbm, 169, rfl⟩
abbrev main_v109 : Ref sig .tc := ⟨.hbm, 170, rfl⟩
abbrev main_c_27 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_28 : Ref sig .tc := ⟨.hbm, 179, rfl⟩
abbrev main_cst_29 : Ref sig .tc := ⟨.hbm, 180, rfl⟩
abbrev main_call8_v0 : Ref sig .tc := ⟨.hbm, 181, rfl⟩
abbrev main_call8_v1 : Ref sig .tc := ⟨.hbm, 182, rfl⟩
abbrev main_call8_v2 : Ref sig .tc := ⟨.hbm, 183, rfl⟩
abbrev main_call8_v3 : Ref sig .tc := ⟨.hbm, 184, rfl⟩
abbrev main_call8_v4 : Ref sig .tc := ⟨.hbm, 185, rfl⟩
abbrev main_v117 : Ref sig .tc := ⟨.hbm, 186, rfl⟩
abbrev main_cst_30 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_cst_31 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_32 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_33 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_cst_34 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_35 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_c_36 : Ref sig .tc := ⟨.hbm, 220, rfl⟩
abbrev main_v145 : Ref sig .tc := ⟨.hbm, 221, rfl⟩
abbrev main_v146 : Ref sig .tc := ⟨.hbm, 222, rfl⟩
abbrev main_c_37 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_c_38 : Ref sig .tc := ⟨.hbm, 227, rfl⟩
abbrev main_v150 : Ref sig .tc := ⟨.hbm, 228, rfl⟩
abbrev main_v151 : Ref sig .tc := ⟨.hbm, 229, rfl⟩
abbrev main_c_39 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_40 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_cst_41 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S80x257 : S_.BroadcastsInDim S80x257 (![] : Fin 0 → Fin S80x257.rank)
  bcast_S_S80 : S_.BroadcastsInDim S80 (![] : Fin 0 → Fin S80.rank)
  transposes_S80x257_S257x80_1_0 : S80x257.Transposes [1, 0] S257x80
  bcast_S80_S1x80_1 : S80.BroadcastsInDim S1x80 (![1] : Fin 1 → Fin S1x80.rank)
  bcast_S1x80_S131072x80_0_1 : S1x80.BroadcastsInDim S131072x80 (![0, 1] : Fin 2 → Fin S131072x80.rank)
  shapeCasts_S131072x80_S131072x10x8 : S131072x80.ShapeCasts S131072x10x8
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S_S80x128 : S_.BroadcastsInDim S80x128 (![] : Fin 0 → Fin S80x128.rank)
  transposes_S80x128_S128x80_1_0 : S80x128.Transposes [1, 0] S128x80
  concatenates_S131072x8_S131072x8_S131072x16_d1 : Shape.Concatenates [S131072x8, S131072x8] S131072x16 1
  bcast_S_S131072x16 : S_.BroadcastsInDim S131072x16 (![] : Fin 0 → Fin S131072x16.rank)
  concatenates_S131072x16_S131072x16_S131072x32_d1 : Shape.Concatenates [S131072x16, S131072x16] S131072x32 1
  bcast_S_S131072x32 : S_.BroadcastsInDim S131072x32 (![] : Fin 0 → Fin S131072x32.rank)
  bcast_S_S640x32 : S_.BroadcastsInDim S640x32 (![] : Fin 0 → Fin S640x32.rank)
  bcast_S_S640 : S_.BroadcastsInDim S640 (![] : Fin 0 → Fin S640.rank)
  transposes_S640x32_S32x640_1_0 : S640x32.Transposes [1, 0] S32x640
  bcast_S640_S1x640_1 : S640.BroadcastsInDim S1x640 (![1] : Fin 1 → Fin S1x640.rank)
  bcast_S1x640_S131072x640_0_1 : S1x640.BroadcastsInDim S131072x640 (![0, 1] : Fin 2 → Fin S131072x640.rank)
  shapeCasts_S131072x640_S131072x10x64 : S131072x640.ShapeCasts S131072x10x64
  bcast_S_S131072x64 : S_.BroadcastsInDim S131072x64 (![] : Fin 0 → Fin S131072x64.rank)
  bcast_S_S10x64 : S_.BroadcastsInDim S10x64 (![] : Fin 0 → Fin S10x64.rank)
  bcast_S_S10 : S_.BroadcastsInDim S10 (![] : Fin 0 → Fin S10.rank)
  transposes_S10x64_S64x10_1_0 : S10x64.Transposes [1, 0] S64x10
  bcast_S10_S1x10_1 : S10.BroadcastsInDim S1x10 (![1] : Fin 1 → Fin S1x10.rank)
  bcast_S1x10_S131072x10_0_1 : S1x10.BroadcastsInDim S131072x10 (![0, 1] : Fin 2 → Fin S131072x10.rank)
  shapeCasts_S131072x10_S131072x10x1 : S131072x10.ShapeCasts S131072x10x1
  bcast_S_S131072x1 : S_.BroadcastsInDim S131072x1 (![] : Fin 0 → Fin S131072x1.rank)
  dot_S131072x257_S257x80_S131072x80_1_0_0_1_n_n_wf : DotDims.WF S131072x257 S257x80 S131072x80 [1] [0] [0] [1] [] []
  gather_S131072x10x8_S131072x2_S131072x8_1_01_n_n_01_1_118_wf : GatherDims.WF S131072x10x8 S131072x2 S131072x8 [1] [0, 1] [] [0, 1] [] 1 ![1, 1, 8]
  dot_S131072x128_S128x80_S131072x80_1_0_0_1_n_n_wf : DotDims.WF S131072x128 S128x80 S131072x80 [1] [0] [0] [1] [] []
  dot_S131072x32_S32x640_S131072x640_1_0_0_1_n_n_wf : DotDims.WF S131072x32 S32x640 S131072x640 [1] [0] [0] [1] [] []
  gather_S131072x10x64_S131072x2_S131072x64_1_01_n_n_01_1_1164_wf : GatherDims.WF S131072x10x64 S131072x2 S131072x64 [1] [0, 1] [] [0, 1] [] 1 ![1, 1, 64]
  dot_S131072x64_S64x10_S131072x10_1_0_0_1_n_n_wf : DotDims.WF S131072x64 S64x10 S131072x10 [1] [0] [0] [1] [] []
  gather_S131072x10x1_S131072x2_S131072x1_1_01_n_n_01_1_111_wf : GatherDims.WF S131072x10x1 S131072x2 S131072x1 [1] [0, 1] [] [0, 1] [] 1 ![1, 1, 1]

variable [Facts₀]

def dot_S131072x257_S257x80_S131072x80_1_0_0_1_n_n : DotDims S131072x257 S257x80 S131072x80 where
  lhsContracting := [1]
  rhsContracting := [0]
  lhsNonContracting := [0]
  rhsNonContracting := [1]
  lhsBatch := []
  rhsBatch := []
  wf := dot_S131072x257_S257x80_S131072x80_1_0_0_1_n_n_wf
def gather_S131072x10x8_S131072x2_S131072x8_1_01_n_n_01_1_118 : GatherDims S131072x10x8 S131072x2 S131072x8 where
  offsetDims := [1]
  collapsedSliceDims := [0, 1]
  operandBatchingDims := []
  startIndicesBatchingDims := []
  startIndexMap := [0, 1]
  indexVectorDim := 1
  sliceSizes := ![1, 1, 8]
  wf := gather_S131072x10x8_S131072x2_S131072x8_1_01_n_n_01_1_118_wf
def dot_S131072x128_S128x80_S131072x80_1_0_0_1_n_n : DotDims S131072x128 S128x80 S131072x80 where
  lhsContracting := [1]
  rhsContracting := [0]
  lhsNonContracting := [0]
  rhsNonContracting := [1]
  lhsBatch := []
  rhsBatch := []
  wf := dot_S131072x128_S128x80_S131072x80_1_0_0_1_n_n_wf
def dot_S131072x32_S32x640_S131072x640_1_0_0_1_n_n : DotDims S131072x32 S32x640 S131072x640 where
  lhsContracting := [1]
  rhsContracting := [0]
  lhsNonContracting := [0]
  rhsNonContracting := [1]
  lhsBatch := []
  rhsBatch := []
  wf := dot_S131072x32_S32x640_S131072x640_1_0_0_1_n_n_wf
def gather_S131072x10x64_S131072x2_S131072x64_1_01_n_n_01_1_1164 : GatherDims S131072x10x64 S131072x2 S131072x64 where
  offsetDims := [1]
  collapsedSliceDims := [0, 1]
  operandBatchingDims := []
  startIndicesBatchingDims := []
  startIndexMap := [0, 1]
  indexVectorDim := 1
  sliceSizes := ![1, 1, 64]
  wf := gather_S131072x10x64_S131072x2_S131072x64_1_01_n_n_01_1_1164_wf
def dot_S131072x64_S64x10_S131072x10_1_0_0_1_n_n : DotDims S131072x64 S64x10 S131072x10 where
  lhsContracting := [1]
  rhsContracting := [0]
  lhsNonContracting := [0]
  rhsNonContracting := [1]
  lhsBatch := []
  rhsBatch := []
  wf := dot_S131072x64_S64x10_S131072x10_1_0_0_1_n_n_wf
def gather_S131072x10x1_S131072x2_S131072x1_1_01_n_n_01_1_111 : GatherDims S131072x10x1 S131072x2 S131072x1 where
  offsetDims := [1]
  collapsedSliceDims := [0, 1]
  operandBatchingDims := []
  startIndicesBatchingDims := []
  startIndexMap := [0, 1]
  indexVectorDim := 1
  sliceSizes := ![1, 1, 1]
  wf := gather_S131072x10x1_S131072x2_S131072x1_1_01_n_n_01_1_111_wf

class Facts : Prop extends Facts₀ where

variable [Facts]
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.LibRealArr.lean ====
/-
  Arrays of extended reals every entry of which is a REAL number, and the closure of that property under the array
  operations of the two programs at the ideal reading: entrywise arithmetic, quotients by entrywise nonzero
  divisors, square roots of entrywise signed arguments, constants, re-indexings (every entry of the result is an
  entry of an operand), and the finite sums (reductions, matrix products, accumulating scatters). With the sign
  facts carried alongside (entrywise positive, nonnegative, nonzero), a whole computation on real inputs stays
  real, and its values can be moved into ℝ entry by entry.
-/
import Idealize.ShloMosaic.PureOps.Ideal
import Idealize.ShloMosaic.PureOps.Ideal.Laws
import Idealize.ShloMosaic.Lib.ValueIdx
import proofs.«405585_j71511205479094_3_alg».proof.Proof.LibERealArith

noncomputable section

namespace Cert.Val

open Idealize.ShloMosaic
open Cert.Lib.ERealArith
open scoped BigOperators

/-! ### Real scalars -/

/-- An extended real that is (the coercion of) a real number. -/
def IsReal (x : EReal) : Prop := ∃ r : ℝ, x = (r : EReal)

/-- An array of extended reals every entry of which is a real number. -/
def IsRealArr {S : Shape} (x : S.Idx → EReal) : Prop := ∀ i, ∃ r : ℝ, x i = (r : EReal)

/-- A coercion is real. -/
theorem isReal_coe (r : ℝ) : IsReal (r : EReal) := ⟨r, rfl⟩

/-- Zero is real. -/
theorem isReal_zero : IsReal 0 := ⟨0, zero_eq_coe⟩

/-- One is real. -/
theorem isReal_one : IsReal 1 := ⟨1, one_eq_coe⟩

/-- A real extended real is the coercion of its real part. -/
theorem IsReal.coe_toReal {x : EReal} (hx : IsReal x) : x = ((x.toReal : ℝ) : EReal) := by
  obtain ⟨r, rfl⟩ := hx
  rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, add_coe a b⟩

/-- The difference of two reals is real. -/
theorem IsReal.sub {x y : EReal} (hx : IsReal x) (hy : IsReal y) : IsReal (x - y) := by
  obtain ⟨a, rfl⟩ := hx; obtain ⟨b, rfl⟩ := hy; exact ⟨a - b, sub_coe a b⟩

/-- The product of two reals is real. -/
theorem IsReal.mul {x y : EReal} (hx : IsReal x) (hy : IsReal y) : IsReal (x * y) := by
  obtain ⟨a, rfl⟩ := hx; obtain ⟨b, rfl⟩ := hy; exact ⟨a * b, mul_coe a b⟩

/-- The negative of a real is real. -/
theorem IsReal.neg {x : EReal} (hx : IsReal x) : IsReal (-x) := by
  obtain ⟨a, rfl⟩ := hx; exact ⟨-a, neg_coe a⟩

/-- The maximum of two reals is real. -/
theorem IsReal.max {x y : EReal} (hx : IsReal x) (hy : IsReal y) : IsReal (max x y) := by
  obtain ⟨a, rfl⟩ := hx; obtain ⟨b, rfl⟩ := hy; exact ⟨Max.max a b, max_coe a b⟩

/-- A finite sum of reals is real. -/
theorem IsReal.sum {ι : Type*} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of a real by a nonzero real is real. -/
theorem IsReal.div {x y : EReal} (hx : IsReal x) (hy : ∃ r : ℝ, y = (r : EReal) ∧ r ≠ 0) : IsReal (Ideal.div x y) := by
  obtain ⟨a, rfl⟩ := hx; obtain ⟨b, rfl, hb⟩ := hy; exact ⟨a / b, div_coe hb a⟩

/-- The reciprocal square root of a positive real is a positive real. -/
theorem rsqrt_pos_real {x : EReal} (hx : ∃ r : ℝ, x = (r : EReal) ∧ 0 < r) :
    ∃ r : ℝ, Ideal.rsqrt x = (r : EReal) ∧ 0 < r := by
  obtain ⟨a, rfl, ha⟩ := hx
  exact ⟨(Real.sqrt a)⁻¹, rsqrt_coe ha, inv_pos.mpr (sqrt_pos' ha)⟩

/-- The square root of a nonnegative real is a nonnegative real. -/
theorem sqrt_nonneg_real {x : EReal} (hx : ∃ r : ℝ, x = (r : EReal) ∧ 0 ≤ r) :
    ∃ r : ℝ, Ideal.sqrt x = (r : EReal) ∧ 0 ≤ r := by
  obtain ⟨a, rfl, ha⟩ := hx
  exact ⟨Real.sqrt a, sqrt_coe ha, Real.sqrt_nonneg a⟩

/-- A positive real is a nonzero real. -/
theorem ne_zero_of_pos_real {x : EReal} (hx : ∃ r : ℝ, x = (r : EReal) ∧ 0 < r) : ∃ r : ℝ, x = (r : EReal) ∧ r ≠ 0 := by
  obtain ⟨a, h, ha⟩ := hx; exact ⟨a, h, ha.ne'⟩

/-- A positive real is a nonnegative real. -/
theorem nonneg_of_pos_real {x : EReal} (hx : ∃ r : ℝ, x = (r : EReal) ∧ 0 < r) : ∃ r : ℝ, x = (r : EReal) ∧ 0 ≤ r := by
  obtain ⟨a, h, ha⟩ := hx; exact ⟨a, h, ha.le⟩

/-- A real with a sign condition is real. -/
theorem isReal_of_pos_real {x : EReal} (hx : ∃ r : ℝ, x = (r : EReal) ∧ 0 < r) : IsReal x := by
  obtain ⟨a, h, _⟩ := hx; exact ⟨a, h⟩

/-- A nonnegative real is real. -/
theorem isReal_of_nonneg_real {x : EReal} (hx : ∃ r : ℝ, x = (r : EReal) ∧ 0 ≤ r) : IsReal x := by
  obtain ⟨a, h, _⟩ := hx; exact ⟨a, h⟩

/-- A nonzero real is real. -/
theorem isReal_of_ne_zero_real {x : EReal} (hx : ∃ r : ℝ, x = (r : EReal) ∧ r ≠ 0) : IsReal x := by
  obtain ⟨a, h, _⟩ := hx; exact ⟨a, h⟩

/-- The maximum of a real and a positive real is a positive real. -/
theorem max_pos_real_right {x c : EReal} (hx : IsReal x) (hc : ∃ r : ℝ, c = (r : EReal) ∧ 0 < r) :
    ∃ r : ℝ, max x c = (r : EReal) ∧ 0 < r := by
  obtain ⟨a, rfl⟩ := hx; obtain ⟨e, rfl, he⟩ := hc
  exact ⟨Max.max a e, max_coe a e, lt_of_lt_of_le he (le_max_right a e)⟩

/-- The maximum of a real and zero is a nonnegative real. -/
theorem max_zero_nonneg_real {x : EReal} (hx : IsReal x) : ∃ r : ℝ, max x 0 = (r : EReal) ∧ 0 ≤ r := by
  obtain ⟨a, rfl⟩ := hx
  exact ⟨Max.max a 0, by rw [zero_eq_coe, max_coe], le_max_right a 0⟩

/-- The sum of a nonnegative real and a positive real is a positive real. -/
theorem add_pos_real {x e : EReal} (hx : ∃ r : ℝ, x = (r : EReal) ∧ 0 ≤ r) (he : ∃ r : ℝ, e = (r : EReal) ∧ 0 < r) :
    ∃ r : ℝ, x + e = (r : EReal) ∧ 0 < r := by
  obtain ⟨a, rfl, ha⟩ := hx; obtain ⟨b, rfl, hb⟩ := he
  exact ⟨a + b, add_coe a b, add_pos_of_nonneg_of_pos ha hb⟩

/-- The product of a real with itself is a nonnegative real. -/
theorem mul_self_nonneg_real {x : EReal} (hx : IsReal x) : ∃ r : ℝ, x * x = (r : EReal) ∧ 0 ≤ r := by
  obtain ⟨a, rfl⟩ := hx; exact ⟨a * a, mul_coe a a, mul_self_nonneg a⟩

/-- A finite sum of nonnegative reals is a nonnegative real. -/
theorem sum_nonneg_real {ι : Type*} (s : Finset ι) (g : ι → EReal) (h : ∀ i ∈ s, ∃ r : ℝ, g i = (r : EReal) ∧ 0 ≤ r) :
    ∃ r : ℝ, (∑ i ∈ s, g i) = (r : EReal) ∧ 0 ≤ r := by
  classical
  induction s using Finset.induction_on with
  | empty => exact ⟨0, by simp, le_refl 0⟩
  | insert a s ha ih =>
    rw [Finset.sum_insert ha]
    obtain ⟨p, hp, hp0⟩ := h a (Finset.mem_insert_self a s)
    obtain ⟨q, hq, hq0⟩ := ih fun i hi => h i (Finset.mem_insert_of_mem hi)
    exact ⟨p + q, by rw [hp, hq, add_coe], add_nonneg hp0 hq0⟩

/-! ### The literals -/

/-- The literal 0.0 is real. -/
theorem isReal_ofBits_zero : IsReal (Ideal.ofBits .f32 0x00000000#32) := ⟨0, ofBits_zero⟩
/-- The literal 1.0 is a positive real. -/
theorem ofBits_one_pos : ∃ r : ℝ, Ideal.ofBits .f32 0x3F800000#32 = (r : EReal) ∧ 0 < r := ⟨1, ofBits_one, one_pos⟩
/-- The literal 100000.0 is a positive real. -/
theorem ofBits_100000_pos : ∃ r : ℝ, Ideal.ofBits .f32 0x47C35000#32 = (r : EReal) ∧ 0 < r :=
  ⟨100000, ofBits_100000, by norm_num⟩
/-- The literal 2000.0 is a positive real. -/
theorem ofBits_2000_pos : ∃ r : ℝ, Ideal.ofBits .f32 0x44FA0000#32 = (r : EReal) ∧ 0 < r := ⟨2000, ofBits_2000, by norm_num⟩
/-- The literal 5000.0 is a positive real. -/
theorem ofBits_5000_pos : ∃ r : ℝ, Ideal.ofBits .f32 0x459C4000#32 = (r : EReal) ∧ 0 < r := ⟨5000, ofBits_5000, by norm_num⟩
/-- The literal 3000.0 is a positive real. -/
theorem ofBits_3000_pos : ∃ r : ℝ, Ideal.ofBits .f32 0x453B8000#32 = (r : EReal) ∧ 0 < r := ⟨3000, ofBits_3000, by norm_num⟩
/-- The literal 1e-5 is a positive real. -/
theorem ofBits_eps5_pos : ∃ r : ℝ, Ideal.ofBits .f32 0x3727C5AC#32 = (r : EReal) ∧ 0 < r := ⟨eps5, ofBits_eps5, eps5_pos⟩
/-- The literal 1e-12 is a positive real. -/
theorem ofBits_eps12_pos : ∃ r : ℝ, Ideal.ofBits .f32 0x2B8CBCCC#32 = (r : EReal) ∧ 0 < r := ⟨eps12, ofBits_eps12, eps12_pos⟩

/-! ### Arrays: entrywise facts -/

section Arrays
variable {s t : Shape} {φ : FTy}

/-- A real array is entrywise the coercion of its real parts. -/
theorem IsRealArr.coe_toReal {x : s.Idx → EReal} (hx : IsRealArr x) (i : s.Idx) : x i = (((x i).toReal : ℝ) : EReal) :=
  IsReal.coe_toReal (hx i)

/-- The array of coercions of a real array is real. -/
theorem isRealArr_coe (f : s.Idx → ℝ) : IsRealArr (fun i => ((f i : ℝ) : EReal)) := fun i => ⟨f i, rfl⟩

/-- An array equal entrywise to coercions is real. -/
theorem isRealArr_of_eq {x : s.Idx → EReal} (f : s.Idx → ℝ) (h : ∀ i, x i = ((f i : ℝ) : EReal)) : IsRealArr x :=
  fun i => ⟨f i, h i⟩

/-- Entrywise positive reals are real. -/
theorem isRealArr_of_pos {x : s.Idx → EReal} (h : ∀ i, ∃ r : ℝ, x i = (r : EReal) ∧ 0 < r) : IsRealArr x :=
  fun i => isReal_of_pos_real (h i)

/-- Entrywise nonnegative reals are real. -/
theorem isRealArr_of_nonneg {x : s.Idx → EReal} (h : ∀ i, ∃ r : ℝ, x i = (r : EReal) ∧ 0 ≤ r) : IsRealArr x :=
  fun i => isReal_of_nonneg_real (h i)

/-- Entrywise positive reals are entrywise nonzero reals. -/
theorem ne_zero_of_pos_arr {x : s.Idx → EReal} (h : ∀ i, ∃ r : ℝ, x i = (r : EReal) ∧ 0 < r) :
    ∀ i, ∃ r : ℝ, x i = (r : EReal) ∧ r ≠ 0 := fun i => ne_zero_of_pos_real (h i)

/-! ### Entrywise arithmetic -/

/-- `addf` of real arrays is real. -/
theorem isRealArr_addf {x y : FVec Ideal s φ} (hx : IsRealArr x) (hy : IsRealArr y) : IsRealArr (addf x y) :=
  fun i => IsReal.add (hx i) (hy i)

/-- `subf` of real arrays is real. -/
theorem isRealArr_subf {x y : FVec Ideal s φ} (hx : IsRealArr x) (hy : IsRealArr y) : IsRealArr (subf x y) :=
  fun i => IsReal.sub (hx i) (hy i)

/-- `mulf` of real arrays is real. -/
theorem isRealArr_mulf {x y : FVec Ideal s φ} (hx : IsRealArr x) (hy : IsRealArr y) : IsRealArr (mulf x y) :=
  fun i => IsReal.mul (hx i) (hy i)

/-- `mulf` of a real array with itself (a square) is entrywise a nonnegative real. -/
theorem mulf_self_nonneg {x : FVec Ideal s φ} (hx : IsRealArr x) : ∀ i, ∃ r : ℝ, mulf x x i = (r : EReal) ∧ 0 ≤ r :=
  fun i => mul_self_nonneg_real (hx i)

/-- `maximumf` of real arrays is real. -/
theorem isRealArr_maximumf {x y : FVec Ideal s φ} (hx : IsRealArr x) (hy : IsRealArr y) : IsRealArr (maximumf x y) :=
  fun i => IsReal.max (hx i) (hy i)

/-- `maximumf` of a real array against an entrywise positive real array is entrywise a positive real. -/
theorem maximumf_pos_right {x c : FVec Ideal s φ} (hx : IsRealArr x) (hc : ∀ i, ∃ r : ℝ, c i = (r : EReal) ∧ 0 < r) :
    ∀ i, ∃ r : ℝ, maximumf x c i = (r : EReal) ∧ 0 < r := fun i => max_pos_real_right (hx i) (hc i)

/-- The kernel's `divf` of a real array by an entrywise nonzero real array is real. -/
theorem isRealArr_divf {x y : FVec Ideal s φ} (hx : IsRealArr x) (hy : ∀ i, ∃ r : ℝ, y i = (r : EReal) ∧ r ≠ 0) :
    IsRealArr (divf x y) := fun i => IsReal.div (hx i) (hy i)

/-- The host's quotient of a real array by an entrywise nonzero real array is real. -/
theorem isRealArr_hostDivf {x y : FVec Ideal s φ} (hx : IsRealArr x) (hy : ∀ i, ∃ r : ℝ, y i = (r : EReal) ∧ r ≠ 0) :
    IsRealArr (Host.divf x y) := fun i => IsReal.div (hx i) (hy i)

/-- The kernel's `divf` by the maximum of a real array with an entrywise positive real array is real. -/
theorem isRealArr_divf_max {x y c : FVec Ideal s φ} (hx : IsRealArr x) (hy : IsRealArr y)
    (hc : ∀ i, ∃ r : ℝ, c i = (r : EReal) ∧ 0 < r) : IsRealArr (divf x (maximumf y c)) :=
  isRealArr_divf hx (ne_zero_of_pos_arr (maximumf_pos_right hy hc))

/-- The host's quotient by the maximum of a real array with an entrywise positive real array is real. -/
theorem isRealArr_hostDivf_max {x y c : FVec Ideal s φ} (hx : IsRealArr x) (hy : IsRealArr y)
    (hc : ∀ i, ∃ r : ℝ, c i = (r : EReal) ∧ 0 < r) : IsRealArr (Host.divf x (maximumf y c)) :=
  isRealArr_hostDivf hx (ne_zero_of_pos_arr (maximumf_pos_right hy hc))

/-- The kernel's reciprocal square root of an entrywise positive real array is entrywise a positive real. -/
theorem rsqrt_pos_arr {x : FVec Ideal s φ} (hx : ∀ i, ∃ r : ℝ, x i = (r : EReal) ∧ 0 < r) :
    ∀ i, ∃ r : ℝ, rsqrt x i = (r : EReal) ∧ 0 < r := fun i => rsqrt_pos_real (hx i)

/-- The kernel's reciprocal square root of an entrywise positive real array is real. -/
theorem isRealArr_rsqrt {x : FVec Ideal s φ} (hx : ∀ i, ∃ r : ℝ, x i = (r : EReal) ∧ 0 < r) : IsRealArr (rsqrt x) :=
  isRealArr_of_pos (rsqrt_pos_arr hx)

/-- The host's reciprocal square root of an entrywise positive real array is entrywise a positive real. -/
theorem hostRsqrt_pos_arr {x : FVec Ideal s φ} (hx : ∀ i, ∃ r : ℝ, x i = (r : EReal) ∧ 0 < r) :
    ∀ i, ∃ r : ℝ, Host.rsqrt x i = (r : EReal) ∧ 0 < r := fun i => rsqrt_pos_real (hx i)

/-- The host's reciprocal square root of an entrywise positive real array is real. -/
theorem isRealArr_hostRsqrt {x : FVec Ideal s φ} (hx : ∀ i, ∃ r : ℝ, x i = (r : EReal) ∧ 0 < r) : IsRealArr (Host.rsqrt x) :=
  isRealArr_of_pos (hostRsqrt_pos_arr hx)

/-- The kernel's square root of an entrywise nonnegative real array is entrywise a nonnegative real. -/
theorem sqrt_nonneg_arr {x : FVec Ideal s φ} (hx : ∀ i, ∃ r : ℝ, x i = (r : EReal) ∧ 0 ≤ r) :
    ∀ i, ∃ r : ℝ, sqrt x i = (r : EReal) ∧ 0 ≤ r := fun i => sqrt_nonneg_real (hx i)

/-- The kernel's square root of an entrywise nonnegative real array is real. -/
theorem isRealArr_sqrt {x : FVec Ideal s φ} (hx : ∀ i, ∃ r : ℝ, x i = (r : EReal) ∧ 0 ≤ r) : IsRealArr (sqrt x) :=
  isRealArr_of_nonneg (sqrt_nonneg_arr hx)

/-- The host's square root of an entrywise nonnegative real array is entrywise a nonnegative real. -/
theorem hostSqrt_nonneg_arr {x : FVec Ideal s φ} (hx : ∀ i, ∃ r : ℝ, x i = (r : EReal) ∧ 0 ≤ r) :
    ∀ i, ∃ r : ℝ, Host.sqrt x i = (r : EReal) ∧ 0 ≤ r := fun i => sqrt_nonneg_real (hx i)

/-- The host's square root of an entrywise nonnegative real array is real. -/
theorem isRealArr_hostSqrt {x : FVec Ideal s φ} (hx : ∀ i, ∃ r : ℝ, x i = (r : EReal) ∧ 0 ≤ r) : IsRealArr (Host.sqrt x) :=
  isRealArr_of_nonneg (hostSqrt_nonneg_arr hx)

/-- A change of format is the identity: `truncf` of a real array is real. -/
theorem isRealArr_truncf {ψ : FTy} {a : FVec Ideal s φ} (h : ψ.bits < φ.bits) (ha : IsRealArr a) :
    IsRealArr (truncf ψ a h : FVec Ideal s ψ) := fun i => ha i

/-- A change of format is the identity: `extf` of a real array is real. -/
theorem isRealArr_extf {ψ : FTy} {a : FVec Ideal s φ} (h : φ.bits < ψ.bits) (ha : IsRealArr a) :
    IsRealArr (extf ψ a h : FVec Ideal s ψ) := fun i => ha i

/-- A signed integer array read as floats is real. -/
theorem isRealArr_sitofp {w : Nat} (x : IVec s w) : IsRealArr (sitofp (F := Ideal) φ x) :=
  fun i => ⟨((x i).toInt : ℝ), rfl⟩

/-- Where every condition bit is set, `select` is its first branch. -/
theorem select_of_one {α : Type} {c : IVec s 1} (a b : s.Idx → α) (hc : ∀ i, c i = 1#1) : select c a b = a := by
  funext i
  show Scalar.select (c i) (a i) (b i) = a i
  rw [hc i]; exact if_pos rfl

/-- `select` between two real arrays is real. -/
theorem isRealArr_select {c : IVec s 1} {a b : s.Idx → EReal} (ha : IsRealArr a) (hb : IsRealArr b) :
    IsRealArr (select c a b) := by
  intro i
  show ∃ r : ℝ, Scalar.select (c i) (a i) (b i) = (r : EReal)
  unfold Scalar.select
  split
  · exact ha i
  · exact hb i

/-- "Greater than" between entries that are reals in that order sets the bit. -/
theorem cmpf_ogt_one {a b : FVec Ideal s φ} {ra rb : ℝ} (i : s.Idx) (ha : a i = (ra : EReal)) (hb : b i = (rb : EReal))
    (h : rb < ra) : cmpf .ogt a b i = 1#1 := by
  show Ideal.cmp .ogt (a i) (b i) = 1#1
  rw [ha, hb]; exact cmp_ogt_coe_of_lt h

/-! ### Constants and broadcasts -/

/-- A broadcast scalar that is real is a real array. -/
theorem isRealArr_broadcast {x : EReal} (hx : IsReal x) : IsRealArr (broadcast t x) := fun _ => hx

/-- A broadcast positive real is entrywise a positive real. -/
theorem broadcast_pos {x : EReal} (hx : ∃ r : ℝ, x = (r : EReal) ∧ 0 < r) :
    ∀ i, ∃ r : ℝ, broadcast t x i = (r : EReal) ∧ 0 < r := fun _ => hx

/-- The constant array of 0.0 is real. -/
theorem isRealArr_constant_zero : IsRealArr (constant (F := Ideal) s .f32 0x00000000#32) := fun _ => isReal_ofBits_zero

/-- The constant array of 0.0 is entrywise the real zero. -/
theorem constant_zero_apply (i : s.Idx) : constant (F := Ideal) s .f32 0x00000000#32 i = ((0 : ℝ) : EReal) := ofBits_zero

/-- The constant array of 1.0 is entrywise a positive real. -/
theorem constant_one_pos : ∀ i, ∃ r : ℝ, constant (F := Ideal) s .f32 0x3F800000#32 i = (r : EReal) ∧ 0 < r :=
  fun _ => ofBits_one_pos

/-- The constant array of 100000.0 is entrywise a positive real. -/
theorem constant_100000_pos : ∀ i, ∃ r : ℝ, constant (F := Ideal) s .f32 0x47C35000#32 i = (r : EReal) ∧ 0 < r :=
  fun _ => ofBits_100000_pos

/-- The constant array of 2000.0 is entrywise a positive real. -/
theorem constant_2000_pos : ∀ i, ∃ r : ℝ, constant (F := Ideal) s .f32 0x44FA0000#32 i = (r : EReal) ∧ 0 < r :=
  fun _ => ofBits_2000_pos

/-- The constant array of 5000.0 is entrywise a positive real. -/
theorem constant_5000_pos : ∀ i, ∃ r : ℝ, constant (F := Ideal) s .f32 0x459C4000#32 i = (r : EReal) ∧ 0 < r :=
  fun _ => ofBits_5000_pos

/-- The constant array of 3000.0 is entrywise a positive real. -/
theorem constant_3000_pos : ∀ i, ∃ r : ℝ, constant (F := Ideal) s .f32 0x453B8000#32 i = (r : EReal) ∧ 0 < r :=
  fun _ => ofBits_3000_pos

/-- The constant array of 1e-5 is entrywise a positive real. -/
theorem constant_eps5_pos : ∀ i, ∃ r : ℝ, constant (F := Ideal) s .f32 0x3727C5AC#32 i = (r : EReal) ∧ 0 < r :=
  fun _ => ofBits_eps5_pos

/-- The constant array of 1e-12 is entrywise a positive real. -/
theorem constant_eps12_pos : ∀ i, ∃ r : ℝ, constant (F := Ideal) s .f32 0x2B8CBCCC#32 i = (r : EReal) ∧ 0 < r :=
  fun _ => ofBits_eps12_pos

/-- A constant array of a positive real literal is real. -/
theorem isRealArr_constant_of_pos {b : BitVec (FTy.f32).bits} (h : ∃ r : ℝ, Ideal.ofBits .f32 b = (r : EReal) ∧ 0 < r) :
    IsRealArr (constant (F := Ideal) s .f32 b) := fun _ => isReal_of_pos_real h

/-! ### Re-indexings: every entry of the result is an entry of an operand -/

/-- Reading a real array through any map of indices gives a real array. -/
theorem isRealArr_comp {x : s.Idx → EReal} (hx : IsRealArr x) (f : t.Idx → s.Idx) : IsRealArr (fun j => x (f j)) :=
  fun j => hx (f j)

/-- `broadcastInDim` of a real array is real. -/
theorem isRealArr_broadcastInDim {x : s.Idx → EReal} (dims : Fin s.rank → Fin t.rank) (h : s.BroadcastsInDim t dims)
    (hx : IsRealArr x) : IsRealArr (broadcastInDim t dims h x) := fun _ => hx _

/-- `broadcastInDim` of an entrywise positive real array is entrywise a positive real. -/
theorem broadcastInDim_pos {x : s.Idx → EReal} (dims : Fin s.rank → Fin t.rank) (h : s.BroadcastsInDim t dims)
    (hx : ∀ i, ∃ r : ℝ, x i = (r : EReal) ∧ 0 < r) : ∀ j, ∃ r : ℝ, broadcastInDim t dims h x j = (r : EReal) ∧ 0 < r :=
  fun _ => hx _

/-- `broadcastInDim` of an entrywise nonzero real array is entrywise a nonzero real. -/
theorem broadcastInDim_ne_zero {x : s.Idx → EReal} (dims : Fin s.rank → Fin t.rank) (h : s.BroadcastsInDim t dims)
    (hx : ∀ i, ∃ r : ℝ, x i = (r : EReal) ∧ r ≠ 0) : ∀ j, ∃ r : ℝ, broadcastInDim t dims h x j = (r : EReal) ∧ r ≠ 0 :=
  fun _ => hx _

/-- `broadcastTo` of a real array is real. -/
theorem isRealArr_broadcastTo {x : s.Idx → EReal} (h : s.Broadcasts t) (hx : IsRealArr x) : IsRealArr (broadcastTo t x h) :=
  fun _ => hx _

/-- `shapeCast` of a real array is real. -/
theorem isRealArr_shapeCast {x : s.Idx → EReal} (h : s.ShapeCasts t) (hx : IsRealArr x) : IsRealArr (shapeCast t x h) :=
  fun _ => hx _

/-- `extractStridedSlice` of a real array is real. -/
theorem isRealArr_extractStridedSlice {x : s.Idx → EReal} (off : Fin s.rank → Nat) (h : s.Slices off t) (hx : IsRealArr x) :
    IsRealArr (extractStridedSlice t off x h) := fun _ => hx _

/-- `transpose` of a real array is real. -/
theorem isRealArr_transpose {x : s.Idx → EReal} (perm : List (Fin s.rank)) (h : s.Transposes perm t) (hx : IsRealArr x) :
    IsRealArr (transpose t perm x h) := fun _ => hx _

/-- A gather from a real array is real: each result entry is an operand entry. -/
theorem isRealArr_gather {si : Shape} {w : Nat} (d : GatherDims s si t) {x : s.Idx → EReal} (idx : IVec si w) (hx : IsRealArr x) :
    IsRealArr (Host.gather d x idx) := fun _ => hx _

/-- A concatenation of real arrays is real. -/
theorem isRealArr_concatenate (a : Fin t.rank) (xs : List ((s : Shape) × (s.Idx → EReal)))
    (hc : Shape.Concatenates (xs.map (·.1)) t a) (h : ∀ p ∈ xs, IsRealArr p.2) : IsRealArr (concatenate t a xs hc) := by
  intro j
  unfold concatenate
  exact h _ (List.getElem_mem _) _

/-! ### Sums -/

/-- The host's sum of a real array from a real initial value is real. -/
theorem isRealArr_hostReduceAdd {axes : List (Fin s.rank)} {u : Shape} {x : FVec Ideal s φ} {init : u.Idx → Ideal φ}
    (h : s.ReducesTo axes t) (hu : 0 < u.numel) (hx : IsRealArr x) (hi : IsRealArr init) :
    IsRealArr (Host.reduceAdd x init h hu) := by
  intro j
  show IsReal (Ideal.hostReduceAdd h x (init (Shape.Idx.first hu)) j)
  unfold Ideal.hostReduceAdd
  exact IsReal.add (hi _) (IsReal.sum _ _ fun i _ => hx i)

/-- The host's sum of an entrywise nonnegative real array from a nonnegative real initial value is entrywise a nonnegative
    real. -/
theorem hostReduceAdd_nonneg {axes : List (Fin s.rank)} {u : Shape} {x : FVec Ideal s φ} {init : u.Idx → Ideal φ}
    (h : s.ReducesTo axes t) (hu : 0 < u.numel) (hx : ∀ i, ∃ r : ℝ, x i = (r : EReal) ∧ 0 ≤ r)
    (hi : ∀ i, ∃ r : ℝ, init i = (r : EReal) ∧ 0 ≤ r) :
    ∀ j, ∃ r : ℝ, Host.reduceAdd x init h hu j = (r : EReal) ∧ 0 ≤ r := by
  intro j
  show ∃ r : ℝ, Ideal.hostReduceAdd h x (init (Shape.Idx.first hu)) j = (r : EReal) ∧ 0 ≤ r
  unfold Ideal.hostReduceAdd
  obtain ⟨p, hp, hp0⟩ := hi (Shape.Idx.first hu)
  obtain ⟨q, hq, hq0⟩ := sum_nonneg_real (Finset.univ.filter (fun i => h.drop i = j)) x fun i _ => hx i
  exact ⟨p + q, by rw [hp, hq, add_coe], add_nonneg hp0 hq0⟩

/-- The kernel's sum (`vector.multi_reduction <add>`) of a real array is real. -/
theorem isRealArr_multiReduction_add {axes : List (Fin s.rank)} {src : FVec Ideal s φ} (acc : BitVec φ.bits)
    (h : s.Reduces axes t) (hφ : FKind.Formats φ) (hacc : acc = FKind.add.neutral φ hφ) (hx : IsRealArr src) :
    IsRealArr (multiReduction .add axes t src acc h hφ hacc) := by
  intro j
  show IsReal (Ideal.reduceAdd h src j)
  unfold Ideal.reduceAdd
  exact IsReal.sum _ _ fun i _ => hx i

/-- The kernel's matrix product of real operands onto a real accumulator is real. -/
theorem isRealArr_matmul {sl sr so : Shape} {φ₁ φ₂ : FTy} (d : DotDims sl sr so) (prec : Option ContractPrecision)
    {lhs : FVec Ideal sl φ₁} {rhs : FVec Ideal sr φ₂} {acc : FVec Ideal so .f32}
    (hl : IsRealArr lhs) (hr : IsRealArr rhs) (ha : IsRealArr acc) : IsRealArr (matmul d prec lhs rhs acc) := by
  intro j
  show IsReal (Ideal.matmul d lhs rhs acc j)
  unfold Ideal.matmul
  exact IsReal.add (ha j) (IsReal.sum _ _ fun k _ => IsReal.mul (hl _) (hr _))

/-- The host's matrix product of real operands is real. -/
theorem isRealArr_dotGeneral {sl sr so : Shape} {φ₁ φ₂ : FTy} (d : DotDims sl sr so) (prec : Option ContractPrecision)
    {lhs : FVec Ideal sl φ₁} {rhs : FVec Ideal sr φ₂} (hl : IsRealArr lhs) (hr : IsRealArr rhs) :
    IsRealArr (Host.dotGeneral d prec lhs rhs) := by
  intro j
  show IsReal (Ideal.matmul d lhs rhs (fun _ => 0) j)
  unfold Ideal.matmul
  exact IsReal.add isReal_zero (IsReal.sum _ _ fun k _ => IsReal.mul (hl _) (hr _))

/-- The host's accumulating scatter of real updates into a real operand is real. -/
theorem isRealArr_scatterAdd {si u : Shape} {w : Nat} (d : ScatterDims s si u) {x : FVec Ideal s φ} (idx : IVec si w)
    {upd : FVec Ideal u φ} (hx : IsRealArr x) (hu : IsRealArr upd) : IsRealArr (Host.scatterAdd d x idx upd) := by
  intro i
  show IsReal (Ideal.hostScatterAdd d x idx upd i)
  unfold Ideal.hostScatterAdd
  exact IsReal.add (hx i) (IsReal.sum _ _ fun j _ => hu j)

/-- The host's accumulating scatter of entrywise nonnegative real updates into an entrywise nonnegative real operand is
    entrywise a nonnegative real (a count of ones, for one). -/
theorem scatterAdd_nonneg {si u : Shape} {w : Nat} (d : ScatterDims s si u) {x : FVec Ideal s φ} (idx : IVec si w)
    {upd : FVec Ideal u φ} (hx : ∀ i, ∃ r : ℝ, x i = (r : EReal) ∧ 0 ≤ r) (hu : ∀ i, ∃ r : ℝ, upd i = (r : EReal) ∧ 0 ≤ r) :
    ∀ i, ∃ r : ℝ, Host.scatterAdd d x idx upd i = (r : EReal) ∧ 0 ≤ r := by
  intro i
  show ∃ r : ℝ, Ideal.hostScatterAdd d x idx upd i = (r : EReal) ∧ 0 ≤ r
  unfold Ideal.hostScatterAdd
  obtain ⟨p, hp, hp0⟩ := hx i
  obtain ⟨q, hq, hq0⟩ := sum_nonneg_real (Finset.univ.filter (fun j => d.resultIdx? j idx = some i)) upd fun j _ => hu j
  exact ⟨p + q, by rw [hp, hq, add_coe], add_nonneg hp0 hq0⟩

end Arrays

end Cert.Val

end
-- ==== Proof.PreFacts.lean ====
/-
  The precondition of the statement, decoded. The predicate is the conjunction of, for each floating-point argument x,
  "every entry of |x| is strictly below +∞", and of "every entry of the integer vector is at least 0". At the ideal
  reading an entry is an extended real, |x| is max x (-x), and the word 0x7F800000 is ⊤; an extended real whose
  absolute value is strictly below ⊤ is neither ⊤ nor ⊥, hence a real number. So the predicate holding says that every
  weight array is an array of real numbers and that every entry of the integer vector is nonnegative read signed.
-/
import proofs.«405585_j71511205479094_3_alg».proof.Pre_finite_inputs
import proofs.«405585_j71511205479094_3_alg».proof.Proof.LibRealArr
import Idealize.ShloMosaic.Lib.ReduceAll
import Idealize.ShloMosaic.Lib.ValueIdx

noncomputable section

namespace Cert.PreFacts

open Idealize.ShloMosaic Idealize.ShloMosaic.ValueIdx Cert.Val Cert.Pre_finite_inputs

/-- The scalar shape has one index. -/
instance subsingleton_scalar_idx : Subsingleton S_.Idx := ⟨fun a b => funext fun d => d.elim0⟩

/-- The word 0x7F800000 denotes +∞. -/
theorem ofBits_inf : Ideal.ofBits .f32 0x7F800000#32 = ⊤ := by simp [Ideal.ofBits, Ideal.ieee]

/-- An extended real whose absolute value max x (-x) is strictly below ⊤ is a real number: for x = ⊤ and for x = ⊥ the
    absolute value is ⊤ itself. -/
theorem isReal_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A conjunction of two one-bit arrays that is 1 at an index has both bits 1 there. -/
theorem andi_apply_eq_one {s : Shape} (x y : IVec s 1) (i : s.Idx) (h : andi x y i = 1#1) : x i = 1#1 ∧ y i = 1#1 :=
  IntOp.andi_eq_one.1 h

/-- "All entries of |x| are below +∞", reduced by conjunction to a scalar that is 1, says x is an array of reals. -/
theorem isRealArr_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) : IsRealArr x := by
  intro i
  have h1 := Host.reduce_andi_all _ _ hr hu ix0 e i
  have h2 : Ideal.cmp .olt (max (x i) (-(x i))) (Ideal.ofBits .f32 0x7F800000#32) = 1#1 := h1
  rw [ofBits_inf] at h2
  exact isReal_of_abs_lt_top (x i) h2

/-- "All entries of the integer vector are at least 0", reduced by conjunction to a scalar that is 1, says every entry is
    nonnegative read signed. -/
theorem nonneg_of_all {n : Nat} {axes : List (Fin (⟨1, ![n]⟩ : Shape).rank)} (x : IVec ⟨1, ![n]⟩ 32)
    (hb : S_.BroadcastsInDim ⟨1, ![n]⟩ (![] : Fin 0 → Fin (⟨1, ![n]⟩ : Shape).rank)) (hr : (⟨1, ![n]⟩ : Shape).ReducesTo axes S_)
    (hu : 0 < S_.numel)
    (e : Host.reduce IntOp.andi (cmpi .sge x (broadcastInDim ⟨1, ![n]⟩ ![] hb (constantI S_ 32 0#32))) (constantI S_ 1 1#1) hr hu ix0 = 1#1)
    (b : Fin n) : 0 ≤ (x (ix1 b)).toInt := by
  have h1 := Host.reduce_andi_all _ _ hr hu ix0 e (ix1 b)
  have h2 : IntOp.cmpi .sge (x (ix1 b)) 0#32 = 1#1 := h1
  have h3 := IntOp.cmpi_sge.1 h2
  rwa [show (0#32 : BitVec 32).toInt = 0 from by decide] at h3

/-- The precondition holding at the ideal reading: the eight weight arrays are arrays of real numbers, and every entry of
    the integer vector is nonnegative. -/
theorem of_pre [Facts] (a0 : FVec Ideal S131072x257 .f32) (a1 : FVec Ideal S131072x128 .f32) (a2 : IVec S131072 32)
    (a3 : FVec Ideal S80x257 .f32) (a4 : FVec Ideal S80 .f32) (a5 : FVec Ideal S80x128 .f32) (a6 : FVec Ideal S80 .f32)
    (a7 : FVec Ideal S640x32 .f32) (a8 : FVec Ideal S640 .f32) (a9 : FVec Ideal S10x64 .f32) (a10 : FVec Ideal S10 .f32)
    (h : fn (F := Ideal) a0 a1 a2 a3 a4 a5 a6 a7 a8 a9 a10 = fun _ => 1#1) :
    IsRealArr a3 ∧ IsRealArr a4 ∧ IsRealArr a5 ∧ IsRealArr a6 ∧ IsRealArr a7 ∧ IsRealArr a8 ∧ IsRealArr a9 ∧ IsRealArr a10
      ∧ ∀ b : Fin 131072, 0 ≤ (a2 (ix1 b)).toInt := by
  have h0 := congrFun h ix0
  dsimp only [fn, fn_part1, fn_part2, fn_part3] at h0
  obtain ⟨h48, h51⟩ := andi_apply_eq_one _ _ _ h0
  obtain ⟨h43, h47⟩ := andi_apply_eq_one _ _ _ h48
  obtain ⟨h38, h42⟩ := andi_apply_eq_one _ _ _ h43
  obtain ⟨h33, h37⟩ := andi_apply_eq_one _ _ _ h38
  obtain ⟨h28, h32⟩ := andi_apply_eq_one _ _ _ h33
  obtain ⟨h23, h27⟩ := andi_apply_eq_one _ _ _ h28
  obtain ⟨h18, h22⟩ := andi_apply_eq_one _ _ _ h23
  obtain ⟨h13, h17⟩ := andi_apply_eq_one _ _ _ h18
  obtain ⟨h8, h12⟩ := andi_apply_eq_one _ _ _ h13
  exact ⟨isRealArr_of_all a3 _ _ _ h12, isRealArr_of_all a4 _ _ _ h17, isRealArr_of_all a5 _ _ _ h22,
    isRealArr_of_all a6 _ _ _ h27, isRealArr_of_all a7 _ _ _ h32, isRealArr_of_all a8 _ _ _ h37,
    isRealArr_of_all a9 _ _ _ h42, isRealArr_of_all a10 _ _ _ h47, nonneg_of_all a2 _ _ _ h51⟩

end Cert.PreFacts

end
-- ==== Proof.Spec.lean ====
/-
  The network both programs evaluate, one sample at a time, as extended reals.

  A sample has a base feature row `xb` (257 entries), a piece-square row `xp` (128 entries) and a bucket `c` in 0..9.
  Every weight enters through its quantisation `qround s w = roundHalfEven (w · s) / s`.  Writing `lin x w b = (∑ k, x k · w k) + b`:

    l1 j   (j < 16)  = the bucket's 8 outputs of the base layer, then the bucket's 8 outputs of the piece-square layer
    cat k  (k < 32)  = (l1 k)² · (127/128) for k < 16, and l1 (k − 16) after that
    h1 k             = ⌊clip01 (cat k) · 127⌋ / 127
    l2 j   (j < 64)  = row 64·c + j of the second layer applied to h1
    h2 j             = ⌊clip01 (l2 j) · 127⌋ / 127
    l3               = row c of the output layer applied to h2
    out              = ⌊l3 · 600⌋ / 600

  The literals are kept as the words both programs print; none is evaluated here.
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx
open scoped BigOperators

/-- 64, the weight grid of the hidden layers. -/
abbrev c64 : EReal := Ideal.ofBits .f32 0x42800000#32
/-- 8128 = 64 · 127, the bias grid of the hidden layers. -/
abbrev c8128 : EReal := Ideal.ofBits .f32 0x45FE0000#32
/-- f32(600 · 16 / 127), the weight grid of the output layer. -/
abbrev c75 : EReal := Ideal.ofBits .f32 0x42972E5D#32
/-- 9600 = 600 · 16, the bias grid of the output layer. -/
abbrev c9600 : EReal := Ideal.ofBits .f32 0x46160000#32
/-- 127, the activation grid. -/
abbrev c127 : EReal := Ideal.ofBits .f32 0x42FE0000#32
/-- 600, the score grid. -/
abbrev c600 : EReal := Ideal.ofBits .f32 0x44160000#32
/-- 127/128, the factor on the squared activations. -/
abbrev cSq : EReal := Ideal.ofBits .f32 0x3F7E0000#32
abbrev c0 : EReal := Ideal.ofBits .f32 0x00000000#32
abbrev c1 : EReal := Ideal.ofBits .f32 0x3F800000#32

/-- A weight on the grid of step `1/s`: `w · s` rounded half to even, over `s`. -/
def qround (s w : EReal) : EReal := Ideal.div (Ideal.liftRound Ideal.roundHalfEven (w * s)) s

/-- A value clamped to `[0, 1]`. -/
def clip01 (x : EReal) : EReal := min c1 (max c0 x)

/-- A value on the grid of step `1/s`, rounded down. -/
def qfloor (s x : EReal) : EReal := Ideal.div (Ideal.liftRound Int.floor (x * s)) s

/-- One output of an affine layer: the inner product of the input with a weight row, plus the bias. -/
def lin {K : ℕ} (x w : Fin K → EReal) (b : EReal) : EReal := (∑ k, x k * w k) + b

/-- Output `j` of bucket `c` among 10 groups of 8. -/
def sel8 (c : Fin 10) (j : Fin 8) : Fin 80 := ⟨8 * c.val + j.val, by omega⟩
/-- Output `j` of bucket `c` among 10 groups of 64. -/
def sel64 (c : Fin 10) (j : Fin 64) : Fin 640 := ⟨64 * c.val + j.val, by omega⟩

section Row

/-- The 16 first-layer activations from the bucket's 8 base outputs `a` and 8 piece-square outputs `b`. -/
def l1of (a b : Fin 8 → EReal) (j : Fin 16) : EReal :=
  if h : j.val < 8 then a ⟨j.val, h⟩ else b ⟨j.val - 8, by omega⟩

/-- The 32 inputs of the second layer before clamping: the scaled squares of the 16 activations, then the activations. -/
def catOf (a b : Fin 8 → EReal) (k : Fin 32) : EReal :=
  if h : k.val < 16 then (l1of a b ⟨k.val, h⟩ * l1of a b ⟨k.val, h⟩) * cSq else l1of a b ⟨k.val - 16, by omega⟩

/-- The 32 inputs of the second layer: clamped to [0, 1] and rounded down to the grid of step 1/127. -/
def h1of (a b : Fin 8 → EReal) (k : Fin 32) : EReal := qfloor c127 (clip01 (catOf a b k))

/-- The bucket's 64 outputs of the second layer applied to `h`. -/
def l2of (h : Fin 32 → EReal) (W2 : Fin 640 → Fin 32 → EReal) (B2 : Fin 640 → EReal) (c : Fin 10) (j : Fin 64) : EReal :=
  lin h (W2 (sel64 c j)) (B2 (sel64 c j))

/-- The 64 inputs of the output layer: clamped and rounded down to the grid of step 1/127. -/
def h2of (l2 : Fin 64 → EReal) (j : Fin 64) : EReal := qfloor c127 (clip01 (l2 j))

/-- The bucket's output of the output layer applied to `h2`. -/
def l3of (h2 : Fin 64 → EReal) (Wo : Fin 10 → Fin 64 → EReal) (Bo : Fin 10 → EReal) (c : Fin 10) : EReal :=
  lin h2 (Wo c) (Bo c)

variable (xb : Fin 257 → EReal) (xp : Fin 128 → EReal) (c : Fin 10)
  (W1b : Fin 80 → Fin 257 → EReal) (B1b : Fin 80 → EReal) (W1p : Fin 80 → Fin 128 → EReal) (B1p : Fin 80 → EReal)
  (W2 : Fin 640 → Fin 32 → EReal) (B2 : Fin 640 → EReal) (Wo : Fin 10 → Fin 64 → EReal) (Bo : Fin 10 → EReal)

/-- The bucket's 8 base outputs. -/
def l1b (j : Fin 8) : EReal := lin xb (W1b (sel8 c j)) (B1b (sel8 c j))
/-- The bucket's 8 piece-square outputs. -/
def l1p (j : Fin 8) : EReal := lin xp (W1p (sel8 c j)) (B1p (sel8 c j))

/-- The sample's score. -/
def out : EReal :=
  qfloor c600 (l3of (h2of (l2of (h1of (l1b xb c W1b B1b) (l1p xp c W1p B1p)) W2 B2 c)) Wo Bo c)

end Row

/-! ## The whole batch, from the eleven argument arrays -/

abbrev SB257 : Shape := ⟨2, ![131072, 257]⟩
abbrev SB128 : Shape := ⟨2, ![131072, 128]⟩
abbrev SB : Shape := ⟨1, ![131072]⟩
abbrev SB1 : Shape := ⟨2, ![131072, 1]⟩
abbrev S80x257 : Shape := ⟨2, ![80, 257]⟩
abbrev S80 : Shape := ⟨1, ![80]⟩
abbrev S80x128 : Shape := ⟨2, ![80, 128]⟩
abbrev S640x32 : Shape := ⟨2, ![640, 32]⟩
abbrev S640 : Shape := ⟨1, ![640]⟩
abbrev S10x64 : Shape := ⟨2, ![10, 64]⟩
abbrev S10 : Shape := ⟨1, ![10]⟩

/-- The score of every sample: sample `b` reads row `b` of the two feature arrays, its bucket `bk b`, and the
    quantised weights. -/
def outArr (a0 : SB257.Idx → EReal) (a1 : SB128.Idx → EReal) (bk : Fin 131072 → Fin 10)
    (a3 : S80x257.Idx → EReal) (a4 : S80.Idx → EReal) (a5 : S80x128.Idx → EReal) (a6 : S80.Idx → EReal)
    (a7 : S640x32.Idx → EReal) (a8 : S640.Idx → EReal) (a9 : S10x64.Idx → EReal) (a10 : S10.Idx → EReal) :
    SB1.Idx → EReal := fun i =>
  out (fun k => a0 (ix2 (i 0) k)) (fun k => a1 (ix2 (i 0) k)) (bk (i 0))
    (fun n k => qround c64 (a3 (ix2 n k))) (fun n => qround c8128 (a4 (ix1 n)))
    (fun n k => qround c64 (a5 (ix2 n k))) (fun n => qround c8128 (a6 (ix1 n)))
    (fun n k => qround c64 (a7 (ix2 n k))) (fun n => qround c8128 (a8 (ix1 n)))
    (fun n k => qround c75 (a9 (ix2 n k))) (fun n => qround c9600 (a10 (ix1 n)))

end Cert.Spec

end
-- ==== Proof.Ints.lean ====
/-
  One 32-bit word of the bucket computation.

  Both programs compute, per sample, the floor quotient of the ply by 6 through the same chain of
  integer operations: the truncated quotient q, lowered by one exactly when the signs of the dividend and
  of 6 differ and the remainder is not zero.  One program then clamps the quotient to 0..9; the other
  wraps a negative quotient by adding 10 and reads the result as a start index capped at 9.  For a
  non-negative ply all of these are the bucket min (ply / 6) 9.
-/
import Idealize.ShloMosaic.PureOps.Vector
import Idealize.ShloMosaic.PureOps.ShapeOps
import Idealize.ShloMosaic.Lib.ValueIdx

namespace Cert.Ints

open Idealize.ShloMosaic

/-- The sign word of a scalar: 0, -1 or 1. -/
def sgn (x : BitVec 32) : BitVec 32 := if x = 0 then 0 else if x.msb then -1 else 1

/-- One word of ply // 6 as both programs print it. -/
def fdiv6 (x : BitVec 32) : BitVec 32 :=
  Scalar.select
    (IntOp.andi (IntOp.cmpi .ne (sgn x) (sgn 6#32)) (IntOp.cmpi .ne (IntOp.remsi .host x 6#32) 0#32))
    (IntOp.subi (IntOp.divsi .host x 6#32) 1#32)
    (IntOp.divsi .host x 6#32)

/-- One word of the kernel's clamp to 0..9. -/
def clip09 (q : BitVec 32) : BitVec 32 := IntOp.minsi 9#32 (IntOp.maxsi 0#32 q)

/-- One word of the reference's wrap of a negative index. -/
def wrap10 (q : BitVec 32) : BitVec 32 := Scalar.select (IntOp.cmpi .slt q 0#32) (IntOp.addi q 10#32) q

/-- The sample's bucket. -/
def bucket (x : BitVec 32) : Fin 10 := ⟨min (x.toInt / 6).toNat 9, by omega⟩

/-! ## The printed vector chains read at an index -/

theorem fdiv_apply {S : Shape} (hb : (⟨0, ![]⟩ : Shape).BroadcastsInDim S ![]) (x : IVec S 32) (i : S.Idx) :
    select (andi (cmpi .ne (signi x) (broadcastInDim S ![] hb (signi (constantI ⟨0, ![]⟩ 32 6#32))))
        (cmpi .ne (Host.remsi x (broadcastInDim S ![] hb (constantI ⟨0, ![]⟩ 32 6#32)))
          (broadcastInDim S ![] hb (constantI ⟨0, ![]⟩ 32 0#32))))
      (subi (Host.divsi x (broadcastInDim S ![] hb (constantI ⟨0, ![]⟩ 32 6#32)))
        (broadcastInDim S ![] hb (constantI ⟨0, ![]⟩ 32 1#32)))
      (Host.divsi x (broadcastInDim S ![] hb (constantI ⟨0, ![]⟩ 32 6#32))) i = fdiv6 (x i) := rfl

theorem clip_apply {S : Shape} (hb : (⟨0, ![]⟩ : Shape).BroadcastsInDim S ![]) (q : IVec S 32) (i : S.Idx) :
    minsi (broadcastInDim S ![] hb (constantI ⟨0, ![]⟩ 32 9#32))
      (maxsi (broadcastInDim S ![] hb (constantI ⟨0, ![]⟩ 32 0#32)) q) i = clip09 (q i) := rfl

theorem wrap_apply {S : Shape} (hb : (⟨0, ![]⟩ : Shape).BroadcastsInDim S ![]) (q : IVec S 32) (i : S.Idx) :
    select (cmpi .slt q (broadcastInDim S ![] hb (constantI ⟨0, ![]⟩ 32 0#32)))
      (addi q (broadcastInDim S ![] hb (constantI ⟨0, ![]⟩ 32 10#32))) q i = wrap10 (q i) := rfl

/-! ## The scalar facts, for a non-negative word -/

/-- Division by 6 meets neither corner of signed division. -/
theorem not_corner6 (x : BitVec 32) : ¬ IntOp.SDivCorner x 6#32 := by
  rintro (h | ⟨_, h⟩)
  · exact absurd h (by decide)
  · exact absurd h (by decide)

theorem toInt_six : (6#32 : BitVec 32).toInt = 6 := by decide

theorem msb_of_nonneg (x : BitVec 32) (hx : 0 ≤ x.toInt) : x.msb = false := by
  rw [BitVec.msb_eq_toInt]
  exact decide_eq_false (by omega)

/-- The truncated quotient of a non-negative word by 6 is the floor quotient. -/
theorem divsi6_toInt (x : BitVec 32) (hx : 0 ≤ x.toInt) :
    (IntOp.divsi .host x 6#32).toInt = x.toInt / 6 := by
  unfold IntOp.divsi
  rw [if_neg (not_corner6 x), BitVec.toInt_sdiv_of_ne_or_ne _ _ (Or.inr (by decide)), toInt_six,
    Int.tdiv_eq_ediv_of_nonneg hx]

/-- For a non-negative word the correction never fires: zero has remainder zero, and a positive word has the
    sign of 6. -/
theorem cond6 (x : BitVec 32) (hx : 0 ≤ x.toInt) :
    IntOp.andi (IntOp.cmpi .ne (sgn x) (sgn 6#32)) (IntOp.cmpi .ne (IntOp.remsi .host x 6#32) 0#32) = 0#1 := by
  by_cases h0 : x = 0
  · subst h0
    have hr : IntOp.remsi .host (0 : BitVec 32) 6#32 = 0#32 := by
      unfold IntOp.remsi
      rw [if_neg (not_corner6 0)]
      decide
    rw [hr]
    decide
  · have hs : sgn x = sgn 6#32 := by
      have h6 : sgn 6#32 = 1 := by decide
      rw [h6]
      unfold sgn
      rw [if_neg h0, msb_of_nonneg x hx]
      rfl
    rw [hs]
    have hc : IntOp.cmpi .ne (sgn 6#32) (sgn 6#32) = 0#1 := by decide
    rw [hc]
    exact BitVec.zero_and

theorem fdiv6_eq (x : BitVec 32) (hx : 0 ≤ x.toInt) : fdiv6 x = IntOp.divsi .host x 6#32 := by
  unfold fdiv6
  rw [cond6 x hx]
  exact if_neg (by decide)

theorem fdiv6_toInt (x : BitVec 32) (hx : 0 ≤ x.toInt) : (fdiv6 x).toInt = x.toInt / 6 := by
  rw [fdiv6_eq x hx, divsi6_toInt x hx]

/-- A word with non-negative signed value has that value as its unsigned one. -/
theorem toNat_of_nonneg (q : BitVec 32) (hq : 0 ≤ q.toInt) : (q.toNat : Int) = q.toInt := by
  have hlt := q.isLt
  rw [BitVec.toInt_eq_toNat_cond] at hq ⊢
  split at hq <;> split <;> omega

theorem clip09_of_nonneg (q : BitVec 32) (hq : 0 ≤ q.toInt) :
    clip09 q = BitVec.ofNat 32 (min q.toInt.toNat 9) := by
  have h0 : (0#32 : BitVec 32).toInt = 0 := by decide
  have h9 : (9#32 : BitVec 32).toInt = 9 := by decide
  have hmax : IntOp.maxsi 0#32 q = q := by
    unfold IntOp.maxsi
    rw [BitVec.slt_eq_decide, h0, decide_eq_false (by omega)]
    rfl
  unfold clip09
  rw [hmax]
  unfold IntOp.minsi
  rw [BitVec.slt_eq_decide, h9]
  by_cases hgt : 9 < q.toInt
  · rw [decide_eq_true hgt]
    have hm : min q.toInt.toNat 9 = 9 := by omega
    rw [hm]
    rfl
  · rw [decide_eq_false hgt]
    have hn := toNat_of_nonneg q hq
    have hm : min q.toInt.toNat 9 = q.toNat := by omega
    rw [hm]
    apply BitVec.eq_of_toNat_eq
    rw [BitVec.toNat_ofNat]
    have hlt := q.isLt
    show q.toNat = q.toNat % 2 ^ 32
    omega

theorem clip09_fdiv6 (x : BitVec 32) (hx : 0 ≤ x.toInt) : clip09 (fdiv6 x) = BitVec.ofNat 32 (bucket x).val := by
  have hq := fdiv6_toInt x hx
  rw [clip09_of_nonneg _ (by omega), hq]
  rfl

theorem wrap10_fdiv6 (x : BitVec 32) (hx : 0 ≤ x.toInt) : wrap10 (fdiv6 x) = fdiv6 x := by
  have hq := fdiv6_toInt x hx
  have h0 : (0#32 : BitVec 32).toInt = 0 := by decide
  have hc : IntOp.cmpi .slt (fdiv6 x) 0#32 = 0#1 := by
    show BitVec.ofBool ((fdiv6 x).slt 0#32) = 0#1
    rw [BitVec.slt_eq_decide, h0, decide_eq_false (by omega)]
    rfl
  unfold wrap10
  rw [hc]
  exact if_neg (by decide)

theorem start_fdiv6 (x : BitVec 32) (hx : 0 ≤ x.toInt) : min (fdiv6 x).toInt.toNat 9 = (bucket x).val := by
  rw [fdiv6_toInt x hx]
  rfl

/-- Two words below 10 are equal exactly when the numbers are. -/
theorem ofNat_eq_iff (a b : Fin 10) : BitVec.ofNat 32 a.val = BitVec.ofNat 32 b.val ↔ a = b := by
  constructor
  · intro h
    have h' := congrArg BitVec.toNat h
    rw [BitVec.toNat_ofNat, BitVec.toNat_ofNat] at h'
    have ha := a.isLt
    have hb := b.isLt
    apply Fin.ext
    omega
  · rintro rfl
    rfl

end Cert.Ints
-- ==== Proof.KBodyA.lean ====
import proofs.«405585_j71511205479094_3_alg».proof.Proof.Gen.KernelIdeal.Skeleton
import proofs.«405585_j71511205479094_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
namespace Cert.KBody
open Cert.KernelIdeal Cert.KernelIdeal.Gen Cert.Spec Idealize.ShloMosaic Idealize.ShloMosaic.ValueIdx

/-! ## The two dense first layers: a product of matrices read at an entry -/

private theorem lhsB_0 (j : S2048x80.Idx) (k : dot_S2048x257_S257x80_S2048x80_1_0_0_1_n_n.contr.Idx) :
    (dot_S2048x257_S257x80_S2048x80_1_0_0_1_n_n.lhsIdx j k 0).val = (j 0).val := by
  unfold DotDims.lhsIdx
  rw [dif_neg (show ¬(0 : Fin S2048x257.rank) ∈ dot_S2048x257_S257x80_S2048x80_1_0_0_1_n_n.lhsBatch by decide),
    dif_pos (show (0 : Fin S2048x257.rank) ∈ dot_S2048x257_S257x80_S2048x80_1_0_0_1_n_n.lhsNonContracting by decide)]
  rfl

private theorem lhsB_1 (j : S2048x80.Idx) (k : dot_S2048x257_S257x80_S2048x80_1_0_0_1_n_n.contr.Idx) :
    (dot_S2048x257_S257x80_S2048x80_1_0_0_1_n_n.lhsIdx j k 1).val = (k ⟨0, by decide⟩).val :=
  DotDims.lhsIdx_val_of_single _ (cl := 1) rfl j k

private theorem rhsB_0 (j : S2048x80.Idx) (k : dot_S2048x257_S257x80_S2048x80_1_0_0_1_n_n.contr.Idx) :
    (dot_S2048x257_S257x80_S2048x80_1_0_0_1_n_n.rhsIdx j k 0).val = (k ⟨0, by decide⟩).val :=
  DotDims.rhsIdx_val_of_single _ (cr := 0) rfl j k

private theorem rhsB_1 (j : S2048x80.Idx) (k : dot_S2048x257_S257x80_S2048x80_1_0_0_1_n_n.contr.Idx) :
    (dot_S2048x257_S257x80_S2048x80_1_0_0_1_n_n.rhsIdx j k 1).val = (j 1).val := by
  unfold DotDims.rhsIdx
  rw [dif_neg (show ¬(1 : Fin S257x80.rank) ∈ dot_S2048x257_S257x80_S2048x80_1_0_0_1_n_n.rhsBatch by decide),
    dif_pos (show (1 : Fin S257x80.rank) ∈ dot_S2048x257_S257x80_S2048x80_1_0_0_1_n_n.rhsNonContracting by decide)]
  rfl

/-- The base layer's product at (p, n) is the inner product of row p with column n. -/
private theorem matmulB_apply (A : FVec Ideal S2048x257 .f32) (B : FVec Ideal S257x80 .f32) (p : Fin 2048) (n : Fin 80) :
    matmul dot_S2048x257_S257x80_S2048x80_1_0_0_1_n_n (some .fp32) A B (constant (F := Ideal) S2048x80 .f32 0x00000000#32) (ix2 p n)
      = ∑ k : Fin 257, A (ix2 p k) * B (ix2 k n) := by
  show FloatOps.matmul _ _ A B _ _ = _
  rw [Ideal.matmul_constant_zero_apply,
    ← Equiv.sum_comp (contrEquiv1 dot_S2048x257_S257x80_S2048x80_1_0_0_1_n_n 257 rfl rfl).symm]
  refine Finset.sum_congr rfl fun c _ => ?_
  have hc := contrEquiv1_symm_val dot_S2048x257_S257x80_S2048x80_1_0_0_1_n_n 257 rfl rfl c
  have hl : dot_S2048x257_S257x80_S2048x80_1_0_0_1_n_n.lhsIdx (ix2 p n) ((contrEquiv1 _ 257 rfl rfl).symm c) = ix2 p c := by
    funext ax; apply Fin.ext
    match ax with
    | ⟨0, _⟩ => exact lhsB_0 _ _
    | ⟨1, _⟩ => exact (lhsB_1 _ _).trans hc
  have hr : dot_S2048x257_S257x80_S2048x80_1_0_0_1_n_n.rhsIdx (ix2 p n) ((contrEquiv1 _ 257 rfl rfl).symm c) = ix2 c n := by
    funext ax; apply Fin.ext
    match ax with
    | ⟨0, _⟩ => exact (rhsB_0 _ _).trans hc
    | ⟨1, _⟩ => exact rhsB_1 _ _
  rw [hl, hr]

/-- The dense base layer at (p, n): the inner product of row p with column n, plus the bias. -/
theorem dense_b (v0 : Vec Ideal S2048x257 .f32) (v4 : Vec Ideal S257x80 .f32) (v6 : Vec Ideal S1x80 .f32) (p : Fin 2048) (n : Fin 80) :
    k0_pay6 (F := Ideal) v0 v4 v6 (ix2 p n) = lin (fun k : Fin 257 => v0 (ix2 p k)) (fun k => v4 (ix2 k n)) (v6 (ix2 (0 : Fin 1) n)) := by
  unfold k0_pay6
  rw [shapeCast_self, shapeCast_self]
  refine (addf_apply _ _ _).trans ?_
  rw [matmulB_apply, broadcastTo_1b_ab_apply]
  rfl

private theorem lhsP_0 (j : S2048x80.Idx) (k : dot_S2048x128_S128x80_S2048x80_1_0_0_1_n_n.contr.Idx) :
    (dot_S2048x128_S128x80_S2048x80_1_0_0_1_n_n.lhsIdx j k 0).val = (j 0).val := by
  unfold DotDims.lhsIdx
  rw [dif_neg (show ¬(0 : Fin S2048x128.rank) ∈ dot_S2048x128_S128x80_S2048x80_1_0_0_1_n_n.lhsBatch by decide),
    dif_pos (show (0 : Fin S2048x128.rank) ∈ dot_S2048x128_S128x80_S2048x80_1_0_0_1_n_n.lhsNonContracting by decide)]
  rfl

private theorem lhsP_1 (j : S2048x80.Idx) (k : dot_S2048x128_S128x80_S2048x80_1_0_0_1_n_n.contr.Idx) :
    (dot_S2048x128_S128x80_S2048x80_1_0_0_1_n_n.lhsIdx j k 1).val = (k ⟨0, by decide⟩).val :=
  DotDims.lhsIdx_val_of_single _ (cl := 1) rfl j k

private theorem rhsP_0 (j : S2048x80.Idx) (k : dot_S2048x128_S128x80_S2048x80_1_0_0_1_n_n.contr.Idx) :
    (dot_S2048x128_S128x80_S2048x80_1_0_0_1_n_n.rhsIdx j k 0).val = (k ⟨0, by decide⟩).val :=
  DotDims.rhsIdx_val_of_single _ (cr := 0) rfl j k

private theorem rhsP_1 (j : S2048x80.Idx) (k : dot_S2048x128_S128x80_S2048x80_1_0_0_1_n_n.contr.Idx) :
    (dot_S2048x128_S128x80_S2048x80_1_0_0_1_n_n.rhsIdx j k 1).val = (j 1).val := by
  unfold DotDims.rhsIdx
  rw [dif_neg (show ¬(1 : Fin S128x80.rank) ∈ dot_S2048x128_S128x80_S2048x80_1_0_0_1_n_n.rhsBatch by decide),
    dif_pos (show (1 : Fin S128x80.rank) ∈ dot_S2048x128_S128x80_S2048x80_1_0_0_1_n_n.rhsNonContracting by decide)]
  rfl

/-- The piece-square layer's product at (p, n) is the inner product of row p with column n. -/
private theorem matmulP_apply (A : FVec Ideal S2048x128 .f32) (B : FVec Ideal S128x80 .f32) (p : Fin 2048) (n : Fin 80) :
    matmul dot_S2048x128_S128x80_S2048x80_1_0_0_1_n_n (some .fp32) A B (constant (F := Ideal) S2048x80 .f32 0x00000000#32) (ix2 p n)
      = ∑ k : Fin 128, A (ix2 p k) * B (ix2 k n) := by
  show FloatOps.matmul _ _ A B _ _ = _
  rw [Ideal.matmul_constant_zero_apply,
    ← Equiv.sum_comp (contrEquiv1 dot_S2048x128_S128x80_S2048x80_1_0_0_1_n_n 128 rfl rfl).symm]
  refine Finset.sum_congr rfl fun c _ => ?_
  have hc := contrEquiv1_symm_val dot_S2048x128_S128x80_S2048x80_1_0_0_1_n_n 128 rfl rfl c
  have hl : dot_S2048x128_S128x80_S2048x80_1_0_0_1_n_n.lhsIdx (ix2 p n) ((contrEquiv1 _ 128 rfl rfl).symm c) = ix2 p c := by
    funext ax; apply Fin.ext
    match ax with
    | ⟨0, _⟩ => exact lhsP_0 _ _
    | ⟨1, _⟩ => exact (lhsP_1 _ _).trans hc
  have hr : dot_S2048x128_S128x80_S2048x80_1_0_0_1_n_n.rhsIdx (ix2 p n) ((contrEquiv1 _ 128 rfl rfl).symm c) = ix2 c n := by
    funext ax; apply Fin.ext
    match ax with
    | ⟨0, _⟩ => exact (rhsP_0 _ _).trans hc
    | ⟨1, _⟩ => exact rhsP_1 _ _
  rw [hl, hr]

theorem dense_p (v1 : Vec Ideal S2048x128 .f32) (v8 : Vec Ideal S128x80 .f32) (v10 : Vec Ideal S1x80 .f32) (p : Fin 2048) (n : Fin 80) :
    k0_pay7 (F := Ideal) v1 v8 v10 (ix2 p n) = lin (fun k : Fin 128 => v1 (ix2 p k)) (fun k => v8 (ix2 k n)) (v10 (ix2 (0 : Fin 1) n)) := by
  unfold k0_pay7
  rw [shapeCast_self, shapeCast_self]
  refine (addf_apply _ _ _).trans ?_
  rw [matmulP_apply, broadcastTo_1b_ab_apply]
  rfl

/-! ## The one-hot row -/

/-- A column broadcast along the rows reads, at (p, c), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Comparing two bucket numbers as words and reading the bit as a number gives the indicator of their equality. -/
private theorem onehot_word (c' c : Fin 10) :
    (FloatOps.sitofp .f32 ((IntOp.cmpi .eq (BitVec.ofNat 32 c'.val) (BitVec.ofNat 32 c.val)).setWidth 32) : Ideal .f32)
      = if c' = c then (1 : EReal) else 0 := by
  by_cases h : c' = c
  · subst h
    rw [if_pos rfl]
    have e : IntOp.cmpi .eq (BitVec.ofNat 32 c'.val) (BitVec.ofNat 32 c'.val) = 1#1 := by simp [IntOp.cmpi]
    rw [e]
    show (((BitVec.setWidth 32 1#1).toInt : ℝ) : EReal) = 1
    have e1 : (BitVec.setWidth 32 1#1).toInt = 1 := by decide
    rw [e1]; simp
  · rw [if_neg h]
    have hne : BitVec.ofNat 32 c'.val ≠ BitVec.ofNat 32 c.val := by
      intro h2
      apply h
      have h3 := congrArg BitVec.toNat h2
      simp only [BitVec.toNat_ofNat] at h3
      apply Fin.ext
      have := c'.isLt; have := c.isLt
      omega
    have hb : (BitVec.ofNat 32 c'.val == BitVec.ofNat 32 c.val) = false := beq_eq_false_iff_ne.mpr hne
    have e : IntOp.cmpi .eq (BitVec.ofNat 32 c'.val) (BitVec.ofNat 32 c.val) = 0#1 := by
      show BitVec.ofBool (BitVec.ofNat 32 c'.val == BitVec.ofNat 32 c.val) = 0#1
      rw [hb]; rfl
    rw [e]
    show (((BitVec.setWidth 32 0#1).toInt : ℝ) : EReal) = 0
    have e0 : (BitVec.setWidth 32 0#1).toInt = 0 := by decide
    rw [e0]; simp

/-- Row p of the one-hot matrix: 1 in the column of the sample's bucket, 0 elsewhere. -/
theorem onehot_row (v2 : Vec Ideal S2048x1 .i32) (p : Fin 2048) (c : Fin 10) (hc : v2 (ix2 p (0 : Fin 1)) = BitVec.ofNat 32 c.val) (c' : Fin 10) :
    k0_pay8 (F := Ideal) v2 (ix2 p c') = if c' = c then (1 : EReal) else 0 := by
  unfold k0_pay8
  rw [shapeCast_self]
  refine (sitofp_apply _ _).trans ?_
  rw [extui_apply]
  show (FloatOps.sitofp .f32 ((IntOp.cmpi .eq (iota .tc S2048x10 32 [1] _ (ix2 p c')) (broadcastTo S2048x10 v2 _ (ix2 p c'))).setWidth 32) : Ideal .f32) = _
  rw [iota_single_apply, broadcastTo_a1_ab_apply, hc]
  exact onehot_word c' c

/-! ## The bucket's eight columns, selected by the one-hot row -/

private theorem slice10_lt {i : Nat} (h : S2048x10.Slices ![0, i] S2048x1) : i < 10 := by
  have h1 : i + 1 ≤ 10 := h.2 1
  omega

/-- One term of a selection: the running sum plus the one-hot entry times the slice's entry. -/
private theorem sel_step (acc : FVec Ideal S2048x8 .f32) (v30 : FVec Ideal S2048x10 .f32) (v : FVec Ideal S2048x80 .f32) (i o : Nat)
    (h1 : S2048x10.Slices ![0, i] S2048x1) (hb : S2048x1.Broadcasts S2048x8) (hs : S2048x80.Slices ![0, o] S2048x8)
    (p : Fin 2048) (j : Fin 8) :
    addf acc (mulf (broadcastTo S2048x8 (extractStridedSlice S2048x1 ![0, i] v30 h1) hb) (extractStridedSlice S2048x8 ![0, o] v hs)) (ix2 p j)
      = acc (ix2 p j) + v30 (ix2 p ⟨i, slice10_lt h1⟩)
          * v (ix2 p ⟨o + j.val, Nat.lt_of_lt_of_le (Nat.add_lt_add_left j.isLt o) (hs.2 1)⟩) := by
  refine (addf_apply _ _ _).trans ?_
  refine congrArg (acc (ix2 p j) + ·) ?_
  refine (mulf_apply _ _ _).trans ?_
  rw [broadcastTo_a1_ab_apply, slice2_axis1_eq o v hs p j,
    slice2_axis1_apply i v30 h1 p (0 : Fin 1) ⟨i, slice10_lt h1⟩ rfl]

/-- The first seven terms of the base layer's selection. -/
private theorem pay19_apply (v22 : FVec Ideal S2048x80 .f32) (v30 : FVec Ideal S2048x10 .f32) (p : Fin 2048) (j : Fin 8) :
    k0_pay19 (F := Ideal) v22 v30 k0_pay9 (ix2 p j)
      = 0 + v30 (ix2 p ⟨0, by omega⟩) * v22 (ix2 p ⟨0 + j.val, by omega⟩)
         + v30 (ix2 p ⟨1, by omega⟩) * v22 (ix2 p ⟨8 + j.val, by omega⟩)
         + v30 (ix2 p ⟨2, by omega⟩) * v22 (ix2 p ⟨16 + j.val, by omega⟩)
         + v30 (ix2 p ⟨3, by omega⟩) * v22 (ix2 p ⟨24 + j.val, by omega⟩)
         + v30 (ix2 p ⟨4, by omega⟩) * v22 (ix2 p ⟨32 + j.val, by omega⟩)
         + v30 (ix2 p ⟨5, by omega⟩) * v22 (ix2 p ⟨40 + j.val, by omega⟩)
         + v30 (ix2 p ⟨6, by omega⟩) * v22 (ix2 p ⟨48 + j.val, by omega⟩) := by
  unfold k0_pay19 k0_pay11 k0_pay12 k0_pay13 k0_pay14 k0_pay15 k0_pay16 k0_pay18 k0_pay9
  rw [sel_step, sel_step, sel_step, sel_step, sel_step, sel_step, sel_step, broadcast_apply]
  refine congrArg (· + _ + _ + _ + _ + _ + _ + _) ?_
  exact Ideal.ofBits_zero_f32

/-- The first six terms of the piece-square layer's selection. -/
private theorem pay17_apply (v25 : FVec Ideal S2048x80 .f32) (v30 : FVec Ideal S2048x10 .f32) (p : Fin 2048) (j : Fin 8) :
    k0_pay17 (F := Ideal) v25 v30 k0_pay10 (ix2 p j)
      = 0 + v30 (ix2 p ⟨0, by omega⟩) * v25 (ix2 p ⟨0 + j.val, by omega⟩)
         + v30 (ix2 p ⟨1, by omega⟩) * v25 (ix2 p ⟨8 + j.val, by omega⟩)
         + v30 (ix2 p ⟨2, by omega⟩) * v25 (ix2 p ⟨16 + j.val, by omega⟩)
         + v30 (ix2 p ⟨3, by omega⟩) * v25 (ix2 p ⟨24 + j.val, by omega⟩)
         + v30 (ix2 p ⟨4, by omega⟩) * v25 (ix2 p ⟨32 + j.val, by omega⟩)
         + v30 (ix2 p ⟨5, by omega⟩) * v25 (ix2 p ⟨40 + j.val, by omega⟩) := by
  unfold k0_pay17 k0_pay11 k0_pay12 k0_pay13 k0_pay14 k0_pay15 k0_pay16 k0_pay10
  rw [sel_step, sel_step, sel_step, sel_step, sel_step, sel_step, broadcast_apply]
  refine congrArg (· + _ + _ + _ + _ + _ + _) ?_
  exact Ideal.ofBits_zero_f32

/-- The base layer's selection at (p, j) is its column 8c + j. -/
private theorem selB_row (v22 : FVec Ideal S2048x80 .f32) (v30 : FVec Ideal S2048x10 .f32) (p : Fin 2048) (c : Fin 10)
    (hoh : ∀ c' : Fin 10, v30 (ix2 p c') = if c' = c then (1 : EReal) else 0) (j : Fin 8) :
    addf (addf (addf (k0_pay19 (F := Ideal) v22 v30 k0_pay9)
        (mulf (broadcastTo S2048x8 (extractStridedSlice S2048x1 ![0, 7] v30 slices_S2048x10_o0_7_S2048x1) broadcasts_S2048x1_S2048x8)
          (extractStridedSlice S2048x8 ![0, 56] v22 slices_S2048x80_o0_56_S2048x8)))
        (mulf (broadcastTo S2048x8 (extractStridedSlice S2048x1 ![0, 8] v30 slices_S2048x10_o0_8_S2048x1) broadcasts_S2048x1_S2048x8)
          (extractStridedSlice S2048x8 ![0, 64] v22 slices_S2048x80_o0_64_S2048x8)))
        (mulf (broadcastTo S2048x8 (extractStridedSlice S2048x1 ![0, 9] v30 slices_S2048x10_o0_9_S2048x1) broadcasts_S2048x1_S2048x8)
          (extractStridedSlice S2048x8 ![0, 72] v22 slices_S2048x80_o0_72_S2048x8)) (ix2 p j)
      = v22 (ix2 p (sel8 c j)) := by
  rw [sel_step, sel_step, sel_step, pay19_apply]
  simp only [hoh]
  fin_cases c <;> simp [sel8]

/-- The piece-square layer's selection at (p, j) is its column 8c + j. -/
private theorem selP_row (v25 : FVec Ideal S2048x80 .f32) (v30 : FVec Ideal S2048x10 .f32) (p : Fin 2048) (c : Fin 10)
    (hoh : ∀ c' : Fin 10, v30 (ix2 p c') = if c' = c then (1 : EReal) else 0) (j : Fin 8) :
    addf (addf (addf (addf (k0_pay17 (F := Ideal) v25 v30 k0_pay10)
        (mulf (broadcastTo S2048x8 (k0_pay18 v30) broadcasts_S2048x1_S2048x8) (k0_pay20 v25)))
        (mulf (broadcastTo S2048x8 (extractStridedSlice S2048x1 ![0, 7] v30 slices_S2048x10_o0_7_S2048x1) broadcasts_S2048x1_S2048x8)
          (extractStridedSlice S2048x8 ![0, 56] v25 slices_S2048x80_o0_56_S2048x8)))
        (mulf (broadcastTo S2048x8 (extractStridedSlice S2048x1 ![0, 8] v30 slices_S2048x10_o0_8_S2048x1) broadcasts_S2048x1_S2048x8)
          (extractStridedSlice S2048x8 ![0, 64] v25 slices_S2048x80_o0_64_S2048x8)))
        (mulf (broadcastTo S2048x8 (extractStridedSlice S2048x1 ![0, 9] v30 slices_S2048x10_o0_9_S2048x1) broadcasts_S2048x1_S2048x8)
          (extractStridedSlice S2048x8 ![0, 72] v25 slices_S2048x80_o0_72_S2048x8)) (ix2 p j)
      = v25 (ix2 p (sel8 c j)) := by
  unfold k0_pay18 k0_pay20
  rw [sel_step, sel_step, sel_step, sel_step, pay17_apply]
  simp only [hoh]
  fin_cases c <;> simp [sel8]

/-! ## Concatenating, squaring, clamping and flooring -/

/-- Two blocks of eight columns side by side read, at column j, the first below 8 and the second from 8 on. -/
private theorem cat16_apply (x y : FVec Ideal S2048x8 .f32) (h : Shape.Concatenates [S2048x8, S2048x8] S2048x16 1)
    (p : Fin 2048) (j : Fin 16) :
    concatenate S2048x16 1 [⟨S2048x8, x⟩, ⟨S2048x8, y⟩] h (ix2 p j)
      = l1of (fun i => x (ix2 p i)) (fun i => y (ix2 p i)) j := by
  unfold l1of
  split
  · next hj =>
    refine concatenate_pair_apply_left (1 : Fin S2048x16.rank) x y h (ix2 p j) rfl (ix2 p ⟨j.val, hj⟩) (fun b => ?_)
    match b with
    | ⟨0, _⟩ => rfl
    | ⟨1, _⟩ => rfl
  · next hj =>
    refine concatenate_pair_apply_right (1 : Fin S2048x16.rank) x y h (ix2 p j) rfl rfl (ix2 p ⟨j.val - 8, by omega⟩)
      (fun b hb => ?_) ?_
    · match b with
      | ⟨0, _⟩ => rfl
      | ⟨1, _⟩ => exact absurd rfl hb
    · show (j.val - 8) + 8 = j.val
      omega

/-- Two blocks of sixteen columns side by side read, at column k, the first below 16 and the second from 16 on. -/
private theorem cat32_apply (x y : FVec Ideal S2048x16 .f32) (h : Shape.Concatenates [S2048x16, S2048x16] S2048x32 1)
    (p : Fin 2048) (k : Fin 32) :
    concatenate S2048x32 1 [⟨S2048x16, x⟩, ⟨S2048x16, y⟩] h (ix2 p k)
      = if hk : k.val < 16 then x (ix2 p ⟨k.val, hk⟩) else y (ix2 p ⟨k.val - 16, by omega⟩) := by
  split
  · next hk =>
    refine concatenate_pair_apply_left (1 : Fin S2048x32.rank) x y h (ix2 p k) rfl (ix2 p ⟨k.val, hk⟩) (fun b => ?_)
    match b with
    | ⟨0, _⟩ => rfl
    | ⟨1, _⟩ => rfl
  · next hk =>
    refine concatenate_pair_apply_right (1 : Fin S2048x32.rank) x y h (ix2 p k) rfl rfl (ix2 p ⟨k.val - 16, by omega⟩)
      (fun b hb => ?_) ?_
    · match b with
      | ⟨0, _⟩ => rfl
      | ⟨1, _⟩ => exact absurd rfl hb
    · show (k.val - 16) + 16 = k.val
      omega

/-- Clamping to [0, 1] and flooring to the grid of step 1/127, at an entry. -/
private theorem quant32_apply (x : FVec Ideal S2048x32 .f32) (i : S2048x32.Idx) :
    divf (floor (mulf (minimumf (broadcast S2048x32 (Scalar.ofBits .f32 0x3F800000#32))
        (maximumf (broadcast S2048x32 (Scalar.ofBits .f32 0x00000000#32)) x))
        (broadcast S2048x32 (Scalar.ofBits .f32 0x42FE0000#32)))) (broadcast S2048x32 (Scalar.ofBits .f32 0x42FE0000#32)) i
      = qfloor c127 (clip01 (x i)) := rfl

/-- From the two selections a and b to the 32 second-layer inputs of row p. -/
private theorem tail_apply (a b : FVec Ideal S2048x8 .f32) (h16 : Shape.Concatenates [S2048x8, S2048x8] S2048x16 1)
    (h32 : Shape.Concatenates [S2048x16, S2048x16] S2048x32 1) (p : Fin 2048) (k : Fin 32) :
    divf (floor (mulf (minimumf (broadcast S2048x32 (Scalar.ofBits .f32 0x3F800000#32))
        (maximumf (broadcast S2048x32 (Scalar.ofBits .f32 0x00000000#32))
          (concatenate S2048x32 1
            [⟨S2048x16, mulf (mulf (concatenate S2048x16 1 [⟨S2048x8, a⟩, ⟨S2048x8, b⟩] h16)
                (concatenate S2048x16 1 [⟨S2048x8, a⟩, ⟨S2048x8, b⟩] h16)) (broadcast S2048x16 (Scalar.ofBits .f32 0x3F7E0000#32))⟩,
             ⟨S2048x16, concatenate S2048x16 1 [⟨S2048x8, a⟩, ⟨S2048x8, b⟩] h16⟩] h32)))
        (broadcast S2048x32 (Scalar.ofBits .f32 0x42FE0000#32)))) (broadcast S2048x32 (Scalar.ofBits .f32 0x42FE0000#32)) (ix2 p k)
      = h1of (fun j => a (ix2 p j)) (fun j => b (ix2 p j)) k := by
  refine (quant32_apply _ _).trans ?_
  unfold h1of
  refine congrArg (fun t => qfloor c127 (clip01 t)) ?_
  rw [cat32_apply]
  unfold catOf
  split
  · next hk =>
    refine (mulf_apply _ _ _).trans ?_
    rw [mulf_apply, cat16_apply, broadcast_apply]
    rfl
  · next hk =>
    exact cat16_apply a b h16 p _

/-- The 32 second-layer inputs of row p: the bucket's columns of the two dense layers, selected by the one-hot row, squared-and-scaled / kept, clamped, floored. -/
theorem h1_row (v22 v25 : FVec Ideal S2048x80 .f32) (v30 : FVec Ideal S2048x10 .f32) (p : Fin 2048) (c : Fin 10)
    (hoh : ∀ c' : Fin 10, v30 (ix2 p c') = if c' = c then (1 : EReal) else 0) (k : Fin 32) :
    k0_pay21 (F := Ideal) v22 v25 v30 (k0_pay17 v25 v30 k0_pay10) (k0_pay18 v30) (k0_pay19 v22 v30 k0_pay9) (k0_pay20 v25) (ix2 p k)
      = h1of (fun j => v22 (ix2 p (sel8 c j))) (fun j => v25 (ix2 p (sel8 c j))) k := by
  unfold k0_pay21
  refine (tail_apply _ _ _ _ p k).trans ?_
  exact congrArg₂ (fun a b => h1of a b k) (funext fun j => selB_row v22 v30 p c hoh j)
    (funext fun j => selP_row v25 v30 p c hoh j)

end Cert.KBody
end
-- ==== Proof.KBodyB.lean ====
import proofs.«405585_j71511205479094_3_alg».proof.Proof.Gen.KernelIdeal.Skeleton
import proofs.«405585_j71511205479094_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
namespace Cert.KBody
open Cert.KernelIdeal Cert.KernelIdeal.Gen Cert.Spec Idealize.ShloMosaic Idealize.ShloMosaic.ValueIdx
open scoped BigOperators

/-! ## Layout operations of the body read at a row and a column -/

/-- A column spread along 32 entries reads, at row `p`, the column's entry of that row. -/
private theorem bcol32 (w : FVec Ideal S2048x1 .f32) (p : Fin 2048) (k : Fin 32) :
    broadcastTo S2048x32 w broadcasts_S2048x1_S2048x32 (ix2 p k) = w (ix2 p (0 : Fin 1)) := by
  refine broadcastTo_apply w _ (ix2 p k) (ix2 p (0 : Fin 1)) fun ax => ?_
  match ax with
  | ⟨0, _⟩ => rfl
  | ⟨1, _⟩ => rfl

/-- A column spread along 64 entries reads, at row `p`, the column's entry of that row. -/
private theorem bcol64 (w : FVec Ideal S2048x1 .f32) (p : Fin 2048) (j : Fin 64) :
    broadcastTo S2048x64 w broadcasts_S2048x1_S2048x64 (ix2 p j) = w (ix2 p (0 : Fin 1)) := by
  refine broadcastTo_apply w _ (ix2 p j) (ix2 p (0 : Fin 1)) fun ax => ?_
  match ax with
  | ⟨0, _⟩ => rfl
  | ⟨1, _⟩ => rfl

/-- One row spread over the 2048 rows reads its own entry at every row. -/
private theorem brow64 (b : FVec Ideal S1x64 .f32) (p : Fin 2048) (j : Fin 64) :
    broadcastTo S2048x64 b broadcasts_S1x64_S2048x64 (ix2 p j) = b (ix2 (0 : Fin 1) j) :=
  broadcastTo_1b_ab_apply b _ p j

/-- Column `c'` of the one-hot matrix, cut out as a 2048 by 1 array, reads the matrix at `(p, c')`. -/
private theorem ohcol (v30 : FVec Ideal S2048x10 .f32) (o : Nat) (h : S2048x10.Slices ![0, o] S2048x1) (c' : Fin 10)
    (ho : o = c'.val) (p : Fin 2048) :
    extractStridedSlice S2048x1 ![0, o] v30 h (ix2 p (0 : Fin 1)) = v30 (ix2 p c') :=
  slice2_axis1_apply o v30 h p (0 : Fin 1) c' (by subst ho; rfl)

/-- The 64 columns of bucket `c'` cut out of the second layer's weights read the weights at column `64 c' + j`. -/
private theorem wslice (v13 : FVec Ideal S32x640 .f32) (o : Nat) (h : S32x640.Slices ![0, o] S32x64) (c' : Fin 10)
    (ho : o = 64 * c'.val) (k : Fin 32) (j : Fin 64) :
    extractStridedSlice S32x64 ![0, o] v13 h (ix2 k j) = v13 (ix2 k (sel64 c' j)) :=
  slice2_axis1_apply o v13 h k j (sel64 c' j) (by subst ho; rfl)

/-- The 64 entries of bucket `c'` cut out of the second layer's bias read the bias at `64 c' + j`. -/
private theorem bslice (v15 : FVec Ideal S1x640 .f32) (o : Nat) (h : S1x640.Slices ![0, o] S1x64) (c' : Fin 10)
    (ho : o = 64 * c'.val) (j : Fin 64) :
    extractStridedSlice S1x64 ![0, o] v15 h (ix2 (0 : Fin 1) j) = v15 (ix2 (0 : Fin 1) (sel64 c' j)) :=
  slice2_axis1_apply o v15 h (0 : Fin 1) j (sel64 c' j) (by subst ho; rfl)

/-! ## The 2048x32 by 32x64 product read at a row and a column -/

private theorem lhs_ax0 (p : Fin 2048) (j : Fin 64) (k : dot_S2048x32_S32x64_S2048x64_1_0_0_1_n_n.contr.Idx) :
    (dot_S2048x32_S32x64_S2048x64_1_0_0_1_n_n.lhsIdx (ix2 p j) k 0).val = p.val := rfl

private theorem lhs_ax1 (p : Fin 2048) (j : Fin 64) (k : dot_S2048x32_S32x64_S2048x64_1_0_0_1_n_n.contr.Idx) :
    (dot_S2048x32_S32x64_S2048x64_1_0_0_1_n_n.lhsIdx (ix2 p j) k 1).val = (k ⟨0, by decide⟩).val :=
  dot_S2048x32_S32x64_S2048x64_1_0_0_1_n_n.lhsIdx_val_of_single (cl := 1) rfl (ix2 p j) k

private theorem rhs_ax0 (p : Fin 2048) (j : Fin 64) (k : dot_S2048x32_S32x64_S2048x64_1_0_0_1_n_n.contr.Idx) :
    (dot_S2048x32_S32x64_S2048x64_1_0_0_1_n_n.rhsIdx (ix2 p j) k 0).val = (k ⟨0, by decide⟩).val :=
  dot_S2048x32_S32x64_S2048x64_1_0_0_1_n_n.rhsIdx_val_of_single (cr := 0) rfl (ix2 p j) k

private theorem rhs_ax1 (p : Fin 2048) (j : Fin 64) (k : dot_S2048x32_S32x64_S2048x64_1_0_0_1_n_n.contr.Idx) :
    (dot_S2048x32_S32x64_S2048x64_1_0_0_1_n_n.rhsIdx (ix2 p j) k 1).val = j.val := rfl

/-- Onto a zero accumulator the product at `(p, j)` is the sum over the 32 contracted entries. -/
private theorem mm_apply (A : FVec Ideal S2048x32 .f32) (B : FVec Ideal S32x64 .f32) (p : Fin 2048) (j : Fin 64) :
    matmul dot_S2048x32_S32x64_S2048x64_1_0_0_1_n_n (some .fp32) A B (constant (F := Ideal) S2048x64 .f32 0x00000000#32) (ix2 p j)
      = ∑ k : Fin 32, A (ix2 p k) * B (ix2 k j) := by
  show FloatOps.matmul dot_S2048x32_S32x64_S2048x64_1_0_0_1_n_n (some .fp32) A B (constant (F := Ideal) S2048x64 .f32 0x00000000#32) (ix2 p j) = _
  rw [Ideal.matmul_constant_zero_apply,
    ← Equiv.sum_comp (contrEquiv1 dot_S2048x32_S32x64_S2048x64_1_0_0_1_n_n 32 rfl rfl).symm]
  refine Finset.sum_congr rfl fun k _ => ?_
  have hk := contrEquiv1_symm_val dot_S2048x32_S32x64_S2048x64_1_0_0_1_n_n 32 rfl rfl k
  have hl : dot_S2048x32_S32x64_S2048x64_1_0_0_1_n_n.lhsIdx (ix2 p j)
      ((contrEquiv1 dot_S2048x32_S32x64_S2048x64_1_0_0_1_n_n 32 rfl rfl).symm k) = ix2 p k := by
    funext ax; apply Fin.ext
    match ax with
    | ⟨0, _⟩ => exact lhs_ax0 _ _ _
    | ⟨1, _⟩ => exact (lhs_ax1 _ _ _).trans hk
  have hr : dot_S2048x32_S32x64_S2048x64_1_0_0_1_n_n.rhsIdx (ix2 p j)
      ((contrEquiv1 dot_S2048x32_S32x64_S2048x64_1_0_0_1_n_n 32 rfl rfl).symm k) = ix2 k j := by
    funext ax; apply Fin.ext
    match ax with
    | ⟨0, _⟩ => exact (rhs_ax0 _ _ _).trans hk
    | ⟨1, _⟩ => exact rhs_ax1 _ _ _
  rw [hl, hr]

/-! ## The masked product and the masked bias at a row and a column -/

/-- The product of the row, each entry multiplied by the mask `w` of the row, with the 64 columns of bucket `c'`. -/
private theorem masked_mm (H : FVec Ideal S2048x32 .f32) (v13 : FVec Ideal S32x640 .f32) (w : FVec Ideal S2048x1 .f32)
    (o : Nat) (h : S32x640.Slices ![0, o] S32x64) (c' : Fin 10) (ho : o = 64 * c'.val) (p : Fin 2048) (j : Fin 64) :
    matmul dot_S2048x32_S32x64_S2048x64_1_0_0_1_n_n (some .fp32) (mulf H (broadcastTo S2048x32 w broadcasts_S2048x1_S2048x32))
        (extractStridedSlice S32x64 ![0, o] v13 h) (constant (F := Ideal) S2048x64 .f32 0x00000000#32) (ix2 p j)
      = ∑ k : Fin 32, (H (ix2 p k) * w (ix2 p (0 : Fin 1))) * v13 (ix2 k (sel64 c' j)) := by
  rw [mm_apply]
  refine Finset.sum_congr rfl fun k _ => ?_
  rw [mulf_apply, bcol32, wslice v13 o h c' ho]

/-- The bias of bucket `c'` multiplied by the mask `w` of the row. -/
private theorem masked_bias (v15 : FVec Ideal S1x640 .f32) (w : FVec Ideal S2048x1 .f32)
    (o : Nat) (h : S1x640.Slices ![0, o] S1x64) (c' : Fin 10) (ho : o = 64 * c'.val) (p : Fin 2048) (j : Fin 64) :
    mulf (broadcastTo S2048x64 w broadcasts_S2048x1_S2048x64)
        (broadcastTo S2048x64 (extractStridedSlice S1x64 ![0, o] v15 h) broadcasts_S1x64_S2048x64) (ix2 p j)
      = w (ix2 p (0 : Fin 1)) * v15 (ix2 (0 : Fin 1) (sel64 c' j)) := by
  rw [mulf_apply, bcol64, brow64, bslice v15 o h c' ho]

/-! ## The ten masked products and the ten masked biases, payload by payload -/

/-- The masked product of bucket `c'` at `(p, j)`: the row `H p`, every entry multiplied by the one-hot entry of
    bucket `c'`, times column `64 c' + j` of the weights. -/
private def mterm (H : FVec Ideal S2048x32 .f32) (v13 : FVec Ideal S32x640 .f32) (v30 : FVec Ideal S2048x10 .f32)
    (p : Fin 2048) (j : Fin 64) (c' : Fin 10) : EReal :=
  ∑ k : Fin 32, (H (ix2 p k) * v30 (ix2 p c')) * v13 (ix2 k (sel64 c' j))

/-- The masked bias of bucket `c'` at `(p, j)`: the one-hot entry of bucket `c'` times entry `64 c' + j` of the bias. -/
private def bterm (v15 : FVec Ideal S1x640 .f32) (v30 : FVec Ideal S2048x10 .f32)
    (p : Fin 2048) (j : Fin 64) (c' : Fin 10) : EReal :=
  v30 (ix2 p c') * v15 (ix2 (0 : Fin 1) (sel64 c' j))

/-- The first masked product, added to zero. -/
private theorem pay24_at (v13 : FVec Ideal S32x640 .f32) (v30 : FVec Ideal S2048x10 .f32)
    (v22 v25 : FVec Ideal S2048x80 .f32) (v86 : FVec Ideal S2048x8 .f32) (v87 : FVec Ideal S2048x1 .f32) (v91 v92 : FVec Ideal S2048x8 .f32)
    (p : Fin 2048) (j : Fin 64) :
    k0_pay24 (F := Ideal) v13 v22 v25 v30 v86 v87 v91 v92 (ix2 p j)
      = 0 + mterm (k0_pay21 (F := Ideal) v22 v25 v30 v86 v87 v91 v92) v13 v30 p j 0 := by
  unfold k0_pay24 k0_pay23
  simp only [addf_apply, broadcast_apply]
  rw [masked_mm _ v13 _ 0 _ (0 : Fin 10) rfl p j, ohcol v30 0 _ (0 : Fin 10) rfl p]
  exact congrArg (· + _) Ideal.ofBits_zero_f32

/-- The masked products of buckets 1 to 5, added to what came before. -/
private theorem pay31_at (v13 : FVec Ideal S32x640 .f32) (v30 : FVec Ideal S2048x10 .f32) (H : FVec Ideal S2048x32 .f32)
    (v144 : FVec Ideal S2048x64 .f32) (p : Fin 2048) (j : Fin 64) :
    k0_pay31 (F := Ideal) v13 v30 H v144 (ix2 p j)
      = v144 (ix2 p j) + mterm H v13 v30 p j 1 + mterm H v13 v30 p j 2 + mterm H v13 v30 p j 3 + mterm H v13 v30 p j 4
          + mterm H v13 v30 p j 5 := by
  unfold k0_pay31 k0_pay25 k0_pay26 k0_pay27 k0_pay28 k0_pay30
  simp only [addf_apply]
  rw [masked_mm _ v13 _ 64 _ (1 : Fin 10) rfl p j, masked_mm _ v13 _ 128 _ (2 : Fin 10) rfl p j,
    masked_mm _ v13 _ 192 _ (3 : Fin 10) rfl p j, masked_mm _ v13 _ 256 _ (4 : Fin 10) rfl p j,
    masked_mm _ v13 _ 320 _ (5 : Fin 10) rfl p j,
    ohcol v30 1 _ (1 : Fin 10) rfl p, ohcol v30 2 _ (2 : Fin 10) rfl p, ohcol v30 3 _ (3 : Fin 10) rfl p,
    ohcol v30 4 _ (4 : Fin 10) rfl p, ohcol v30 5 _ (5 : Fin 10) rfl p]
  rfl

/-- The masked biases of buckets 0 to 4, added to what came before. -/
private theorem pay29_at (v15 : FVec Ideal S1x640 .f32) (v30 : FVec Ideal S2048x10 .f32) (v138 : FVec Ideal S2048x64 .f32)
    (v139 : FVec Ideal S2048x1 .f32) (p : Fin 2048) (j : Fin 64) :
    k0_pay29 (F := Ideal) v15 v30 v138 v139 (ix2 p j)
      = v138 (ix2 p j) + v139 (ix2 p (0 : Fin 1)) * v15 (ix2 (0 : Fin 1) (sel64 0 j)) + bterm v15 v30 p j 1 + bterm v15 v30 p j 2
          + bterm v15 v30 p j 3 + bterm v15 v30 p j 4 := by
  unfold k0_pay29 k0_pay25 k0_pay26 k0_pay27 k0_pay28
  simp only [addf_apply]
  rw [masked_bias v15 _ 0 _ (0 : Fin 10) rfl p j, masked_bias v15 _ 64 _ (1 : Fin 10) rfl p j,
    masked_bias v15 _ 128 _ (2 : Fin 10) rfl p j, masked_bias v15 _ 192 _ (3 : Fin 10) rfl p j,
    masked_bias v15 _ 256 _ (4 : Fin 10) rfl p j,
    ohcol v30 1 _ (1 : Fin 10) rfl p, ohcol v30 2 _ (2 : Fin 10) rfl p, ohcol v30 3 _ (3 : Fin 10) rfl p,
    ohcol v30 4 _ (4 : Fin 10) rfl p]
  rfl

/-- The masked products of buckets 6 to 9 and the masked biases of buckets 5 to 9, added to what came before; the two
    totals added and clamped to [0, 1]. -/
private theorem pay32_at (v13 : FVec Ideal S32x640 .f32) (v15 : FVec Ideal S1x640 .f32) (v30 : FVec Ideal S2048x10 .f32)
    (H : FVec Ideal S2048x32 .f32) (v193 : FVec Ideal S2048x64 .f32) (v194 : FVec Ideal S2048x1 .f32) (v199 : FVec Ideal S2048x64 .f32)
    (p : Fin 2048) (j : Fin 64) :
    k0_pay32 (F := Ideal) v13 v15 v30 H v193 v194 v199 (ix2 p j)
      = clip01 ((v199 (ix2 p j) + mterm H v13 v30 p j 6 + mterm H v13 v30 p j 7 + mterm H v13 v30 p j 8 + mterm H v13 v30 p j 9)
          + (v193 (ix2 p j) + v194 (ix2 p (0 : Fin 1)) * v15 (ix2 (0 : Fin 1) (sel64 5 j)) + bterm v15 v30 p j 6 + bterm v15 v30 p j 7
              + bterm v15 v30 p j 8 + bterm v15 v30 p j 9)) := by
  unfold k0_pay32
  simp only [addf_apply, maximumf_apply, minimumf_apply, broadcast_apply]
  rw [masked_mm _ v13 _ 384 _ (6 : Fin 10) rfl p j, masked_mm _ v13 _ 448 _ (7 : Fin 10) rfl p j,
    masked_mm _ v13 _ 512 _ (8 : Fin 10) rfl p j, masked_mm _ v13 _ 576 _ (9 : Fin 10) rfl p j,
    masked_bias v15 _ 320 _ (5 : Fin 10) rfl p j, masked_bias v15 _ 384 _ (6 : Fin 10) rfl p j,
    masked_bias v15 _ 448 _ (7 : Fin 10) rfl p j, masked_bias v15 _ 512 _ (8 : Fin 10) rfl p j,
    masked_bias v15 _ 576 _ (9 : Fin 10) rfl p j,
    ohcol v30 6 _ (6 : Fin 10) rfl p, ohcol v30 7 _ (7 : Fin 10) rfl p, ohcol v30 8 _ (8 : Fin 10) rfl p,
    ohcol v30 9 _ (9 : Fin 10) rfl p]
  rfl

/-! ## The one-hot row selects the bucket's own product and bias -/

/-- Under a one-hot row the masked product of bucket `c'` is the row's product with column `64 c + j` when `c' = c`,
    and zero otherwise: `x * 1 = x`, and `x * 0 = 0`, `0 * y = 0` for every extended real. -/
private theorem mterm_oh (H : FVec Ideal S2048x32 .f32) (v13 : FVec Ideal S32x640 .f32) (v30 : FVec Ideal S2048x10 .f32)
    (p : Fin 2048) (c : Fin 10) (hoh : ∀ c' : Fin 10, v30 (ix2 p c') = if c' = c then (1 : EReal) else 0) (j : Fin 64) (c' : Fin 10) :
    mterm H v13 v30 p j c' = if c' = c then ∑ k : Fin 32, H (ix2 p k) * v13 (ix2 k (sel64 c j)) else 0 := by
  unfold mterm
  rw [hoh c']
  by_cases h : c' = c
  · subst h
    simp only [if_true, mul_one]
  · simp only [if_neg h, mul_zero, zero_mul, Finset.sum_const_zero]

/-- Under a one-hot row the masked bias of bucket `c'` is entry `64 c + j` of the bias when `c' = c`, and zero
    otherwise. -/
private theorem bterm_oh (v15 : FVec Ideal S1x640 .f32) (v30 : FVec Ideal S2048x10 .f32)
    (p : Fin 2048) (c : Fin 10) (hoh : ∀ c' : Fin 10, v30 (ix2 p c') = if c' = c then (1 : EReal) else 0) (j : Fin 64) (c' : Fin 10) :
    bterm v15 v30 p j c' = if c' = c then v15 (ix2 (0 : Fin 1) (sel64 c j)) else 0 := by
  unfold bterm
  rw [hoh c']
  by_cases h : c' = c
  · subst h
    simp only [if_true, one_mul]
  · simp only [if_neg h, zero_mul]

/-- Ten terms added up from zero, the term of bucket `c'` present only when `c' = c`: the term of bucket `c` is left. -/
private theorem oh_sum (c : Fin 10) (X : EReal) :
    0 + (if (0 : Fin 10) = c then X else 0) + (if (1 : Fin 10) = c then X else 0) + (if (2 : Fin 10) = c then X else 0)
      + (if (3 : Fin 10) = c then X else 0) + (if (4 : Fin 10) = c then X else 0) + (if (5 : Fin 10) = c then X else 0)
      + (if (6 : Fin 10) = c then X else 0) + (if (7 : Fin 10) = c then X else 0) + (if (8 : Fin 10) = c then X else 0)
      + (if (9 : Fin 10) = c then X else 0) = X := by
  fin_cases c <;> simp

/-- Row p of the clamped second layer: the ten bucket-masked products and the ten bucket-masked biases add up to the bucket's own 64 outputs of the second layer applied to the row of v136, then clamped to [0, 1]. -/
theorem l2clip_row (v13 : FVec Ideal S32x640 .f32) (v15 : FVec Ideal S1x640 .f32) (v30 : FVec Ideal S2048x10 .f32)
    (v22 v25 : FVec Ideal S2048x80 .f32) (v86 : FVec Ideal S2048x8 .f32) (v87 : FVec Ideal S2048x1 .f32) (v91 v92 : FVec Ideal S2048x8 .f32)
    (p : Fin 2048) (c : Fin 10) (hoh : ∀ c' : Fin 10, v30 (ix2 p c') = if c' = c then (1 : EReal) else 0) (j : Fin 64) :
    k0_pay32 (F := Ideal) v13 v15 v30 (k0_pay21 v22 v25 v30 v86 v87 v91 v92) (k0_pay29 v15 v30 k0_pay22 (k0_pay23 v30)) (k0_pay30 v30)
        (k0_pay31 v13 v30 (k0_pay21 v22 v25 v30 v86 v87 v91 v92) (k0_pay24 v13 v22 v25 v30 v86 v87 v91 v92)) (ix2 p j)
      = clip01 (lin (fun k : Fin 32 => k0_pay21 (F := Ideal) v22 v25 v30 v86 v87 v91 v92 (ix2 p k)) (fun k => v13 (ix2 k (sel64 c j))) (v15 (ix2 (0 : Fin 1) (sel64 c j)))) := by
  have h22 : k0_pay22 (F := Ideal) (ix2 p j) = 0 := Ideal.ofBits_zero_f32
  have h23 : k0_pay23 (F := Ideal) v30 (ix2 p (0 : Fin 1)) = v30 (ix2 p (0 : Fin 10)) := by
    unfold k0_pay23; exact ohcol v30 0 _ (0 : Fin 10) rfl p
  have h30 : k0_pay30 (F := Ideal) v30 (ix2 p (0 : Fin 1)) = v30 (ix2 p (5 : Fin 10)) := by
    unfold k0_pay30; exact ohcol v30 5 _ (5 : Fin 10) rfl p
  have hb0 : v30 (ix2 p (0 : Fin 10)) * v15 (ix2 (0 : Fin 1) (sel64 0 j)) = bterm v15 v30 p j 0 := rfl
  have hb5 : v30 (ix2 p (5 : Fin 10)) * v15 (ix2 (0 : Fin 1) (sel64 5 j)) = bterm v15 v30 p j 5 := rfl
  rw [pay32_at, pay31_at, pay24_at, pay29_at, h22, h23, h30, hb0, hb5]
  simp only [mterm_oh _ v13 v30 p c hoh j, bterm_oh v15 v30 p c hoh j]
  rw [oh_sum, oh_sum]
  rfl

end Cert.KBody
end
-- ==== Proof.KBodyC.lean ====
import proofs.«405585_j71511205479094_3_alg».proof.Proof.Gen.KernelIdeal.Skeleton
import proofs.«405585_j71511205479094_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
namespace Cert.KBody
open Cert.KernelIdeal Cert.KernelIdeal.Gen Cert.Spec Idealize.ShloMosaic Idealize.ShloMosaic.ValueIdx

/-! ## The weight blocks -/

/-- The four weight blocks pass through unchanged (a shape cast to the same shape). -/
theorem pay2_eq (v : Vec Ideal S32x640 .f32) : k0_pay2 (F := Ideal) v = v := by
  unfold k0_pay2
  exact shapeCast_self v _
theorem pay3_eq (v : Vec Ideal S1x640 .f32) : k0_pay3 (F := Ideal) v = v := by
  unfold k0_pay3
  exact shapeCast_self v _
theorem pay4_eq (v : Vec Ideal S64x10 .f32) : k0_pay4 (F := Ideal) v = v := by
  unfold k0_pay4
  exact shapeCast_self v _
theorem pay5_eq (v : Vec Ideal S1x10 .f32) : k0_pay5 (F := Ideal) v = v := by
  unfold k0_pay5
  exact shapeCast_self v _

/-! ## The output layer's product read at an entry -/

private theorem lhs_axis0 (i : S2048x10.Idx) (q : dot_S2048x64_S64x10_S2048x10_1_0_0_1_n_n.contr.Idx) :
    (dot_S2048x64_S64x10_S2048x10_1_0_0_1_n_n.lhsIdx i q 0).val = (i 0).val := by
  unfold DotDims.lhsIdx
  rw [dif_neg (show ¬(0 : Fin S2048x64.rank) ∈ dot_S2048x64_S64x10_S2048x10_1_0_0_1_n_n.lhsBatch by decide),
    dif_pos (show (0 : Fin S2048x64.rank) ∈ dot_S2048x64_S64x10_S2048x10_1_0_0_1_n_n.lhsNonContracting by decide)]
  rfl
private theorem lhs_axis1 (i : S2048x10.Idx) (q : dot_S2048x64_S64x10_S2048x10_1_0_0_1_n_n.contr.Idx) :
    (dot_S2048x64_S64x10_S2048x10_1_0_0_1_n_n.lhsIdx i q 1).val = (q ⟨0, by decide⟩).val :=
  dot_S2048x64_S64x10_S2048x10_1_0_0_1_n_n.lhsIdx_val_of_single rfl i q
private theorem rhs_axis0 (i : S2048x10.Idx) (q : dot_S2048x64_S64x10_S2048x10_1_0_0_1_n_n.contr.Idx) :
    (dot_S2048x64_S64x10_S2048x10_1_0_0_1_n_n.rhsIdx i q 0).val = (q ⟨0, by decide⟩).val :=
  dot_S2048x64_S64x10_S2048x10_1_0_0_1_n_n.rhsIdx_val_of_single rfl i q
private theorem rhs_axis1 (i : S2048x10.Idx) (q : dot_S2048x64_S64x10_S2048x10_1_0_0_1_n_n.contr.Idx) :
    (dot_S2048x64_S64x10_S2048x10_1_0_0_1_n_n.rhsIdx i q 1).val = (i 1).val := by
  unfold DotDims.rhsIdx
  rw [dif_neg (show ¬(1 : Fin S64x10.rank) ∈ dot_S2048x64_S64x10_S2048x10_1_0_0_1_n_n.rhsBatch by decide),
    dif_pos (show (1 : Fin S64x10.rank) ∈ dot_S2048x64_S64x10_S2048x10_1_0_0_1_n_n.rhsNonContracting by decide)]
  rfl

/-- The 2048x64 by 64x10 product into the zero block, at entry (p, c): the inner product of row p with column c. -/
private theorem matmul_entry (A : FVec Ideal S2048x64 .f32) (B : FVec Ideal S64x10 .f32) (p : Fin 2048) (c : Fin 10) :
    matmul dot_S2048x64_S64x10_S2048x10_1_0_0_1_n_n (some .fp32) A B (constant (F := Ideal) S2048x10 .f32 0x00000000#32) (ix2 p c)
      = ∑ k : Fin 64, A (ix2 p k) * B (ix2 k c) := by
  simp only [matmul]
  rw [Ideal.matmul_constant_zero_apply,
    ← Equiv.sum_comp (contrEquiv1 dot_S2048x64_S64x10_S2048x10_1_0_0_1_n_n 64 rfl rfl).symm]
  refine Finset.sum_congr rfl fun k _ => ?_
  have hk := contrEquiv1_symm_val dot_S2048x64_S64x10_S2048x10_1_0_0_1_n_n 64 rfl rfl k
  have el : dot_S2048x64_S64x10_S2048x10_1_0_0_1_n_n.lhsIdx (ix2 p c)
      ((contrEquiv1 dot_S2048x64_S64x10_S2048x10_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S2048x64_S64x10_S2048x10_1_0_0_1_n_n.rhsIdx (ix2 p c)
      ((contrEquiv1 dot_S2048x64_S64x10_S2048x10_1_0_0_1_n_n 64 rfl rfl).symm k) = ix2 k c := funext fun a => Fin.ext (by
    match a with
    | ⟨0, _⟩ => exact (rhs_axis0 _ _).trans hk
    | ⟨1, _⟩ => exact rhs_axis1 _ _)
  rw [el, er]

/-! ## The sum over the 10 columns and the cast to a column -/

/-- The sum over the 10 columns of a 2048x10 block, read at row p. -/
private theorem lane_sum (src : FVec Ideal S2048x10 .f32) (p : Fin 2048) :
    multiReduction (F := Ideal) .add [1] S2048 src 0x00000000#32 reduces_S2048x10_S2048 (.inl rfl) rfl (ix1 p)
      = ∑ k : Fin 10, src (ix2 p k) := by
  refine (Ideal.multiReduction_add_single src 0x00000000#32 reduces_S2048x10_S2048 (.inl rfl) rfl (ix1 p)).trans ?_
  refine Finset.sum_congr rfl fun k _ => congrArg src ?_
  funext a
  apply Fin.ext
  match a with
  | ⟨0, _⟩ => rfl
  | ⟨1, _⟩ => rfl

/-- A 2048-vector cast to a 2048x1 column reads, at (p, 0), the vector at p. -/
private theorem col_cast (x : FVec Ideal S2048 .f32) (h : S2048.ShapeCasts S2048x1) (p : Fin 2048) :
    shapeCast S2048x1 x h (ix2 p (0 : Fin 1)) = x (ix1 p) :=
  shapeCast_apply x h _ _ (by
    rw [Shape.rowMajor_val_two, Shape.rowMajor_val_one]
    show p.val = p.val * 1 + 0
    omega)

/-! ## Selecting one of 10 terms by a one-hot row -/

/-- A sum over the 10 buckets weighted by the indicator of bucket c is the term at c; exact on every extended real
    (0 * x = 0, 1 * x = x). -/
private theorem pick_bucket (c : Fin 10) (w t : Fin 10 → EReal) (hw : ∀ c' : Fin 10, w c' = if c' = c then (1 : EReal) else 0) :
    ∑ c' : Fin 10, w c' * t c' = t c := by
  rw [Finset.sum_eq_single c]
  · rw [hw c, if_pos rfl, one_mul]
  · intro b _ hb
    rw [hw b, if_neg hb, zero_mul]
  · intro h
    exact absurd (Finset.mem_univ c) h

/-! ## The output row -/

/-- Row p of the output: floor v253's row to the 1/127 grid, apply the bucket's row of the output layer (selected by the one-hot row through the sum over the 10 columns), floor to the 1/600 grid. -/
theorem out_row (v17 : FVec Ideal S64x10 .f32) (v19 : FVec Ideal S1x10 .f32) (v30 : FVec Ideal S2048x10 .f32) (v253 : FVec Ideal S2048x64 .f32)
    (p : Fin 2048) (c : Fin 10) (hoh : ∀ c' : Fin 10, v30 (ix2 p c') = if c' = c then (1 : EReal) else 0) :
    k0_pay1 (F := Ideal) v17 v19 v30 v253 (ix2 p (0 : Fin 1))
      = qfloor c600 (lin (fun k : Fin 64 => qfloor c127 (v253 (ix2 p k))) (fun k => v17 (ix2 k c)) (v19 (ix2 (0 : Fin 1) c))) := by
  unfold k0_pay1
  show Ideal.div (Ideal.liftRound Int.floor (shapeCast S2048x1 _ _ (ix2 p (0 : Fin 1)) * c600)) c600 = _
  unfold qfloor
  refine congrArg (fun t => Ideal.div (Ideal.liftRound Int.floor (t * c600)) c600) ?_
  refine (col_cast _ _ p).trans ?_
  refine (lane_sum _ p).trans ?_
  refine (Finset.sum_congr rfl fun k _ => ?_ : _ = ∑ k : Fin 10, v30 (ix2 p k) *
    ((∑ j : Fin 64, Ideal.div (Ideal.liftRound Int.floor (v253 (ix2 p j) * c127)) c127 * v17 (ix2 j k)) + v19 (ix2 (0 : Fin 1) k))).trans ?_
  · refine (mulf_apply _ _ _).trans ?_
    refine congrArg (v30 (ix2 p k) * ·) ?_
    refine (addf_apply _ _ _).trans ?_
    refine congrArg₂ (· + ·) ?_ ?_
    · refine (matmul_entry _ _ p k).trans ?_
      rfl
    · exact broadcastTo_1b_ab_apply v19 _ p k
  · exact pick_bucket c (fun k => v30 (ix2 p k)) _ hoh

end Cert.KBody
end
-- ==== Proof.KBody.lean ====
/-
  The kernel's result for one row of a block, from the rows of its eleven input blocks.

  The body's single store writes the value computed by the chain of its pure stages; read at row `p`, with the row's
  bucket word known, each stage is the matching stage of the network: the two dense first layers at the bucket's
  columns, the 32 clamped and floored second-layer inputs, the bucket's 64 clamped second-layer outputs, and the
  floored score.
-/
import proofs.«405585_j71511205479094_3_alg».proof.Proof.Gen.KernelIdeal.Frame
import proofs.«405585_j71511205479094_3_alg».proof.Proof.Spec
import proofs.«405585_j71511205479094_3_alg».proof.Proof.KBodyA
import proofs.«405585_j71511205479094_3_alg».proof.Proof.KBodyB
import proofs.«405585_j71511205479094_3_alg».proof.Proof.KBodyC
import Idealize.ShloMosaic.Lib.ValueIdx
import Idealize.ShloMosaic.Lib.Pipeline.Value

noncomputable section
namespace Cert.KBody
open Cert.KernelIdeal Cert.KernelIdeal.Gen Cert.Spec Idealize.ShloMosaic Idealize.ShloMosaic.ValueIdx

/-- The offsets of a whole-buffer access are all zero. -/
theorem offsets_zero : (![0, 0] : Fin 2 → Nat) = fun _ => 0 := funext fun a => by fin_cases a <;> rfl

/-- Row `p` of the block the body stores: the sample's score, computed from row `p` of the two feature blocks, the
    bucket word of row `p`, and the weight blocks (each stored transposed, or as a one-row bias). -/
theorem out0_row (x0 : Vec Ideal S2048x257 .f32) (x1 : Vec Ideal S2048x128 .f32) (x2 : Vec Ideal S2048x1 .i32) (x3 : Vec Ideal S257x80 .f32)
    (x4 : Vec Ideal S1x80 .f32) (x5 : Vec Ideal S128x80 .f32) (x6 : Vec Ideal S1x80 .f32) (x7 : Vec Ideal S32x640 .f32) (x8 : Vec Ideal S1x640 .f32)
    (x9 : Vec Ideal S64x10 .f32) (x10 : Vec Ideal S1x10 .f32) (p : Fin 2048) (c : Fin 10)
    (hc : x2 (ix2 p (0 : Fin 1)) = BitVec.ofNat 32 c.val) :
    out0_11 (F := Ideal) x0 x1 x2 x3 x4 x5 x6 x7 x8 x9 x10 (ix2 p (0 : Fin 1))
      = Spec.out (fun k => x0 (ix2 p k)) (fun k => x1 (ix2 p k)) c
          (fun n k => x3 (ix2 k n)) (fun n => x4 (ix2 (0 : Fin 1) n)) (fun n k => x5 (ix2 k n)) (fun n => x6 (ix2 (0 : Fin 1) n))
          (fun n k => x7 (ix2 k n)) (fun n => x8 (ix2 (0 : Fin 1) n)) (fun n k => x9 (ix2 k n)) (fun n => x10 (ix2 (0 : Fin 1) n)) := by
  have hoh : ∀ c' : Fin 10, k0_pay8 (F := Ideal) x2 (ix2 p c') = if c' = c then (1 : EReal) else 0 := onehot_row x2 p c hc
  unfold out0_11
  rw [View.canon_unit_zero offsets_zero]
  simp only [View.ld_unit_zero (S := S2048x257) offsets_zero, View.ld_unit_zero (S := S2048x128) offsets_zero,
    View.ld_unit_zero (S := S2048x1) offsets_zero, View.ld_unit_zero (S := S257x80) offsets_zero,
    View.ld_unit_zero (S := S1x80) offsets_zero, View.ld_unit_zero (S := S128x80) offsets_zero,
    View.ld_unit_zero (S := S32x640) offsets_zero, View.ld_unit_zero (S := S1x640) offsets_zero,
    View.ld_unit_zero (S := S64x10) offsets_zero, View.ld_unit_zero (S := S1x10) offsets_zero]
  rw [pay2_eq, pay3_eq, pay4_eq, pay5_eq]
  rw [out_row x9 x10 (k0_pay8 x2) _ p c hoh]
  simp only [l2clip_row x7 x8 (k0_pay8 x2) _ _ _ _ _ _ p c hoh]
  simp only [h1_row _ _ (k0_pay8 x2) p c hoh]
  simp only [dense_b, dense_p]
  rfl

end Cert.KBody

end
-- ==== Proof.KHost.lean ====
/-
  What the kernel program's host code leaves in the nine arrays its one region reads besides the two feature arrays,
  read at an index, as extended reals (and 32-bit words for the bucket column).

  Each weight array is the argument times its grid constant s, rounded half to even, divided by s, and then
  transposed; each bias array is the same quotient laid out as one row.  At an index this is the quantisation
  qround s w = roundHalfEven (w · s) / s of the argument's entry at the swapped index (for a bias, at the same
  position).  The grid constants are the words both programs print: none is evaluated.

  The bucket column is, per sample, the floor quotient of the ply by 6 through the printed chain of integer
  operations, clamped to 0..9, laid out as one column.
-/
import proofs.«405585_j71511205479094_3_alg».proof.Proof.Gen.KernelIdeal.Frame
import proofs.«405585_j71511205479094_3_alg».proof.Proof.Spec
import proofs.«405585_j71511205479094_3_alg».proof.Proof.Ints
import Idealize.ShloMosaic.Lib.StableHlo.Run
import Idealize.ShloMosaic.Lib.ValueIdx
import Idealize.ShloMosaic.Lib.Pipeline.Value
import Idealize.ShloMosaic.Lib.ValueLayout

noncomputable section

namespace Cert.KHost

open Cert.KernelIdeal Cert.KernelIdeal.Gen Idealize.ShloMosaic Idealize.ShloMosaic.ValueIdx Idealize.SL.Sem
open Idealize.ShloMosaic.TcCoe
open Cert.Spec hiding S80x257 S80 S80x128 S640x32 S640 S10x64 S10

variable (m : (ℓ : Loc nD τ sig) → Buf (Elt Ideal) ℓ)

/-- The array: the argument times the grid constant, rounded half to even, over the grid constant, transposed. -/
theorem V_w1b_term (c : Dev nD) : (V m c main_v8 : S257x80.Idx → EReal) =
    transpose S257x80 [1, 0] (Host.divf (Host.roundeven (mulf (m ((c : Thread nD τ).loc main_arg3) : S80x257.Idx → EReal)
      (broadcastInDim S80x257 ![] bcast_S_S80x257 (constant (F := Ideal) S_ .f32 0x42800000#32))))
      (broadcastInDim S80x257 ![] bcast_S_S80x257 (constant (F := Ideal) S_ .f32 0x42800000#32))) transposes_S80x257_S257x80_1_0 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The base layer's weights as the kernel reads them: quantised on the grid of step 1/64, transposed. -/
theorem V_w1b (c : Dev nD) (k : Fin 257) (n : Fin 80) : (V m c main_v8 : S257x80.Idx → EReal) (ix2 k n) = qround c64 ((m ((c : Thread nD τ).loc main_arg3) : S80x257.Idx → EReal) (ix2 n k)) := by
  rw [V_w1b_term]
  exact transpose_ix2_apply _ _ k n

/-- The array: the argument times the grid constant, rounded half to even, over the grid constant, transposed. -/
theorem V_w1p_term (c : Dev nD) : (V m c main_v20 : S128x80.Idx → EReal) =
    transpose S128x80 [1, 0] (Host.divf (Host.roundeven (mulf (m ((c : Thread nD τ).loc main_arg5) : S80x128.Idx → EReal)
      (broadcastInDim S80x128 ![] bcast_S_S80x128 (constant (F := Ideal) S_ .f32 0x42800000#32))))
      (broadcastInDim S80x128 ![] bcast_S_S80x128 (constant (F := Ideal) S_ .f32 0x42800000#32))) transposes_S80x128_S128x80_1_0 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The piece-square layer's weights as the kernel reads them: quantised on the grid of step 1/64, transposed. -/
theorem V_w1p (c : Dev nD) (k : Fin 128) (n : Fin 80) : (V m c main_v20 : S128x80.Idx → EReal) (ix2 k n) = qround c64 ((m ((c : Thread nD τ).loc main_arg5) : S80x128.Idx → EReal) (ix2 n k)) := by
  rw [V_w1p_term]
  exact transpose_ix2_apply _ _ k n

/-- The array: the argument times the grid constant, rounded half to even, over the grid constant, transposed. -/
theorem V_w2_term (c : Dev nD) : (V m c main_v32 : S32x640.Idx → EReal) =
    transpose S32x640 [1, 0] (Host.divf (Host.roundeven (mulf (m ((c : Thread nD τ).loc main_arg7) : S640x32.Idx → EReal)
      (broadcastInDim S640x32 ![] bcast_S_S640x32 (constant (F := Ideal) S_ .f32 0x42800000#32))))
      (broadcastInDim S640x32 ![] bcast_S_S640x32 (constant (F := Ideal) S_ .f32 0x42800000#32))) transposes_S640x32_S32x640_1_0 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The second layer's weights as the kernel reads them: quantised on the grid of step 1/64, transposed. -/
theorem V_w2 (c : Dev nD) (k : Fin 32) (n : Fin 640) : (V m c main_v32 : S32x640.Idx → EReal) (ix2 k n) = qround c64 ((m ((c : Thread nD τ).loc main_arg7) : S640x32.Idx → EReal) (ix2 n k)) := by
  rw [V_w2_term]
  exact transpose_ix2_apply _ _ k n

/-- The array: the argument times the grid constant, rounded half to even, over the grid constant, transposed. -/
theorem V_wo_term (c : Dev nD) : (V m c main_v44 : S64x10.Idx → EReal) =
    transpose S64x10 [1, 0] (Host.divf (Host.roundeven (mulf (m ((c : Thread nD τ).loc main_arg9) : S10x64.Idx → EReal)
      (broadcastInDim S10x64 ![] bcast_S_S10x64 (constant (F := Ideal) S_ .f32 0x42972E5D#32))))
      (broadcastInDim S10x64 ![] bcast_S_S10x64 (constant (F := Ideal) S_ .f32 0x42972E5D#32))) transposes_S10x64_S64x10_1_0 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The output layer's weights as the kernel reads them: quantised on the output grid, transposed. -/
theorem V_wo (c : Dev nD) (k : Fin 64) (n : Fin 10) : (V m c main_v44 : S64x10.Idx → EReal) (ix2 k n) = qround c75 ((m ((c : Thread nD τ).loc main_arg9) : S10x64.Idx → EReal) (ix2 n k)) := by
  rw [V_wo_term]
  exact transpose_ix2_apply _ _ k n

/-- The array: the argument times the grid constant, rounded half to even, over the grid constant, cast to one row. -/
theorem V_b1b_term (c : Dev nD) : (V m c main_v14 : S1x80.Idx → EReal) =
    shapeCast S1x80 (Host.divf (Host.roundeven (mulf (m ((c : Thread nD τ).loc main_arg4) : S80.Idx → EReal)
      (broadcastInDim S80 ![] bcast_S_S80 (constant (F := Ideal) S_ .f32 0x45FE0000#32))))
      (broadcastInDim S80 ![] bcast_S_S80 (constant (F := Ideal) S_ .f32 0x45FE0000#32))) shapeCasts_S80_S1x80 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The base layer's biases as the kernel reads them: quantised on the grid of step 1/8128, as one row. -/
theorem V_b1b (c : Dev nD) (n : Fin 80) : (V m c main_v14 : S1x80.Idx → EReal) (ix2 (0 : Fin 1) n) = qround c8128 ((m ((c : Thread nD τ).loc main_arg4) : S80.Idx → EReal) (ix1 n)) := by
  rw [V_b1b_term]
  exact shapeCast_a_1a_apply _ _ (0 : Fin 1) n

/-- The array: the argument times the grid constant, rounded half to even, over the grid constant, cast to one row. -/
theorem V_b1p_term (c : Dev nD) : (V m c main_v26 : S1x80.Idx → EReal) =
    shapeCast S1x80 (Host.divf (Host.roundeven (mulf (m ((c : Thread nD τ).loc main_arg6) : S80.Idx → EReal)
      (broadcastInDim S80 ![] bcast_S_S80 (constant (F := Ideal) S_ .f32 0x45FE0000#32))))
      (broadcastInDim S80 ![] bcast_S_S80 (constant (F := Ideal) S_ .f32 0x45FE0000#32))) shapeCasts_S80_S1x80 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The piece-square layer's biases as the kernel reads them: quantised on the grid of step 1/8128, as one row. -/
theorem V_b1p (c : Dev nD) (n : Fin 80) : (V m c main_v26 : S1x80.Idx → EReal) (ix2 (0 : Fin 1) n) = qround c8128 ((m ((c : Thread nD τ).loc main_arg6) : S80.Idx → EReal) (ix1 n)) := by
  rw [V_b1p_term]
  exact shapeCast_a_1a_apply _ _ (0 : Fin 1) n

/-- The array: the argument times the grid constant, rounded half to even, over the grid constant, cast to one row. -/
theorem V_b2_term (c : Dev nD) : (V m c main_v38 : S1x640.Idx → EReal) =
    shapeCast S1x640 (Host.divf (Host.roundeven (mulf (m ((c : Thread nD τ).loc main_arg8) : S640.Idx → EReal)
      (broadcastInDim S640 ![] bcast_S_S640 (constant (F := Ideal) S_ .f32 0x45FE0000#32))))
      (broadcastInDim S640 ![] bcast_S_S640 (constant (F := Ideal) S_ .f32 0x45FE0000#32))) shapeCasts_S640_S1x640 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The second layer's biases as the kernel reads them: quantised on the grid of step 1/8128, as one row. -/
theorem V_b2 (c : Dev nD) (n : Fin 640) : (V m c main_v38 : S1x640.Idx → EReal) (ix2 (0 : Fin 1) n) = qround c8128 ((m ((c : Thread nD τ).loc main_arg8) : S640.Idx → EReal) (ix1 n)) := by
  rw [V_b2_term]
  exact shapeCast_a_1a_apply _ _ (0 : Fin 1) n

/-- The array: the argument times the grid constant, rounded half to even, over the grid constant, cast to one row. -/
theorem V_bo_term (c : Dev nD) : (V m c main_v50 : S1x10.Idx → EReal) =
    shapeCast S1x10 (Host.divf (Host.roundeven (mulf (m ((c : Thread nD τ).loc main_arg10) : S10.Idx → EReal)
      (broadcastInDim S10 ![] bcast_S_S10 (constant (F := Ideal) S_ .f32 0x46160000#32))))
      (broadcastInDim S10 ![] bcast_S_S10 (constant (F := Ideal) S_ .f32 0x46160000#32))) shapeCasts_S10_S1x10 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The output layer's biases as the kernel reads them: quantised on the grid of step 1/9600, as one row. -/
theorem V_bo (c : Dev nD) (n : Fin 10) : (V m c main_v50 : S1x10.Idx → EReal) (ix2 (0 : Fin 1) n) = qround c9600 ((m ((c : Thread nD τ).loc main_arg10) : S10.Idx → EReal) (ix1 n)) := by
  rw [V_bo_term]
  exact shapeCast_a_1a_apply _ _ (0 : Fin 1) n

/-- The bucket column: the floor quotient of the ply by 6 as the chain of integer operations prints it, clamped to
    0..9, cast to one column. -/
theorem V_ls_term (c : Dev nD) : (V m c main_v2 : S131072x1.Idx → BitVec 32) =
    shapeCast S131072x1
      (minsi (broadcastInDim S131072 ![] bcast_S_S131072 (constantI S_ 32 9#32))
        (maxsi (broadcastInDim S131072 ![] bcast_S_S131072 (constantI S_ 32 0#32))
          (select
            (andi
              (cmpi .ne (signi (m ((c : Thread nD τ).loc main_arg2) : S131072.Idx → BitVec 32))
                (broadcastInDim S131072 ![] bcast_S_S131072 (signi (constantI S_ 32 6#32))))
              (cmpi .ne
                (Host.remsi (m ((c : Thread nD τ).loc main_arg2) : S131072.Idx → BitVec 32)
                  (broadcastInDim S131072 ![] bcast_S_S131072 (constantI S_ 32 6#32)))
                (broadcastInDim S131072 ![] bcast_S_S131072 (constantI S_ 32 0#32))))
            (subi
              (Host.divsi (m ((c : Thread nD τ).loc main_arg2) : S131072.Idx → BitVec 32)
                (broadcastInDim S131072 ![] bcast_S_S131072 (constantI S_ 32 6#32)))
              (broadcastInDim S131072 ![] bcast_S_S131072 (constantI S_ 32 1#32)))
            (Host.divsi (m ((c : Thread nD τ).loc main_arg2) : S131072.Idx → BitVec 32)
              (broadcastInDim S131072 ![] bcast_S_S131072 (constantI S_ 32 6#32))))))
      shapeCasts_S131072_S131072x1 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  rfl

/-- The bucket column the kernel reads: the clamped floor quotient of the sample's ply. -/
theorem V_ls (c : Dev nD) (b : Fin 131072) : (V m c main_v2 : S131072x1.Idx → BitVec 32) (ix2 b (0 : Fin 1)) = Cert.Ints.clip09 (Cert.Ints.fdiv6 ((m ((c : Thread nD τ).loc main_arg2) : S131072.Idx → BitVec 32) (ix1 b))) := by
  rw [V_ls_term]
  refine (shapeCast_apply _ shapeCasts_S131072_S131072x1 (ix2 b (0 : Fin 1)) (ix1 b) ?_).trans ?_
  · rw [Shape.rowMajor_val_one, Shape.rowMajor_val_two]
    show b.val = b.val * 1 + 0
    omega
  · refine (Cert.Ints.clip_apply bcast_S_S131072 _ (ix1 b)).trans ?_
    exact congrArg Cert.Ints.clip09 (Cert.Ints.fdiv_apply bcast_S_S131072 _ (ix1 b))

end Cert.KHost

end
-- ==== Proof.BlockReads.lean ====
/-
  What each of the eleven input blocks of a grid point holds, read at an index.

  The grid has 64 points.  Point t stages rows 2048·t … 2048·t + 2047 of the two feature arrays and of the bucket
  column, and the whole of each weight and bias array.  So row p of a feature block is row 2048·t + p of its array,
  row p of the bucket block is the bucket of sample 2048·t + p, and every weight or bias block is its whole array:
  the quantised weights stored transposed, the quantised biases as one row.
-/
import proofs.«405585_j71511205479094_3_alg».proof.Proof.Gen.KernelIdeal.Frame
import proofs.«405585_j71511205479094_3_alg».proof.Proof.Spec
import proofs.«405585_j71511205479094_3_alg».proof.Proof.Ints
import proofs.«405585_j71511205479094_3_alg».proof.Proof.KHost
import Idealize.ShloMosaic.Lib.ValueIdx

set_option Elab.async false

noncomputable section

namespace Cert.KSide

open Cert.KernelIdeal Cert.KernelIdeal.Gen Idealize.ShloMosaic Idealize.ShloMosaic.TcCoe
open Idealize.ShloMosaic.ValueIdx Idealize.SL.Sem
open Cert.Spec hiding S80x257 S80 S80x128 S640x32 S640 S10x64 S10

variable (m : (ℓ : Loc nD τ sig) → Buf (Elt Ideal) ℓ)

/-- The printed index maps, decided over the 64 points: the three row-blocked inputs move with the output's block,
    the weight and bias windows stay at block (0, 0), and the output's block index is below 64. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) ≤ 63 ∧ win0_11.index t (1 : Fin 2) = 0 :=
  (by decide +kernel : ∀ t : Fin grid0.N, _)

/-- Every one of the 64 row blocks is some point's. -/
theorem idx_onto : ∀ q : Fin 64, ∃ t : Fin cfg0.N, win0_11.index t = ![q.val, 0] :=
  (by decide +kernel : ∀ q : Fin 64, ∃ t : Fin grid0.N, win0_11.index t = ![q.val, 0])

/-- Row p of the first feature block at point t is row 2048·(block index) + p of the first feature array. -/
theorem blk0_apply (c : Dev nD) (t : Fin cfg0.N) (p : Fin 2048) (k : Fin 257) (r : Fin 131072)
    (hr : r.val = win0_11.index t (0 : Fin 2) * 2048 + p.val) :
    (iblk m c 0 t : Vec Ideal S2048x257 .f32) (ix2 p k)
      = (m ((c : Thread nD τ).loc main_arg0) : S131072x257.Idx → EReal) (ix2 r k) := by
  obtain ⟨e0, e1, -⟩ := idx_facts t
  unfold iblk
  rw [View.read_apply]
  refine (congrArg (V m c main_arg0) ?_).trans (congrFun (V_main_arg0 m c) _)
  funext a
  apply Fin.ext
  match a with
  | ⟨0, _⟩ => show win0_0.index t (0 : Fin 2) * 2048 + 1 * p.val = r.val; omega
  | ⟨1, _⟩ => show win0_0.index t (1 : Fin 2) * 257 + 1 * k.val = k.val; omega

/-- Row p of the second feature block at point t is row 2048·(block index) + p of the second feature array. -/
theorem blk1_apply (c : Dev nD) (t : Fin cfg0.N) (p : Fin 2048) (k : Fin 128) (r : Fin 131072)
    (hr : r.val = win0_11.index t (0 : Fin 2) * 2048 + p.val) :
    (iblk m c 1 t : Vec Ideal S2048x128 .f32) (ix2 p k)
      = (m ((c : Thread nD τ).loc main_arg1) : S131072x128.Idx → EReal) (ix2 r k) := by
  obtain ⟨-, -, e0, e1, -⟩ := idx_facts t
  unfold iblk
  rw [View.read_apply]
  refine (congrArg (V m c main_arg1) ?_).trans (congrFun (V_main_arg1 m c) _)
  funext a
  apply Fin.ext
  match a with
  | ⟨0, _⟩ => show win0_1.index t (0 : Fin 2) * 2048 + 1 * p.val = r.val; omega
  | ⟨1, _⟩ => show win0_1.index t (1 : Fin 2) * 128 + 1 * k.val = k.val; omega

/-- Row p of the bucket block at point t is the bucket of sample 2048·(block index) + p, as a 32-bit word. -/
theorem blk2_apply (hply : ∀ (c : Dev nD) (b : Fin 131072), 0 ≤ (((m ((c : Thread nD τ).loc main_arg2)) : S131072.Idx → BitVec 32) (ix1 b)).toInt)
    (c : Dev nD) (t : Fin cfg0.N) (p : Fin 2048) (r : Fin 131072)
    (hr : r.val = win0_11.index t (0 : Fin 2) * 2048 + p.val) :
    (iblk m c 2 t : Vec Ideal S2048x1 .i32) (ix2 p (0 : Fin 1))
      = BitVec.ofNat 32 (Cert.Ints.bucket ((m ((c : Thread nD τ).loc main_arg2) : S131072.Idx → BitVec 32) (ix1 r))).val := by
  obtain ⟨-, -, -, -, e0, e1, -⟩ := idx_facts t
  unfold iblk
  rw [View.read_apply]
  refine (congrArg (V m c main_v2 : S131072x1.Idx → BitVec 32) ?_).trans
    ((Cert.KHost.V_ls m c r).trans (Cert.Ints.clip09_fdiv6 _ (hply c r)))
  funext a
  apply Fin.ext
  match a with
  | ⟨0, _⟩ => show win0_2.index t (0 : Fin 2) * 2048 + 1 * p.val = r.val; omega
  | ⟨1, _⟩ => show win0_2.index t (1 : Fin 2) * 1 + 1 * (0 : Fin 1).val = (0 : Fin 1).val; omega

/-- The base layer's weight block is, at every point, the whole array of quantised weights, stored transposed:
    entry (k, n) is weight (n, k) on the grid of step 1/64. -/
theorem blk3_apply (c : Dev nD) (t : Fin cfg0.N) (k : Fin 257) (n : Fin 80) :
    (iblk m c 3 t : Vec Ideal S257x80 .f32) (ix2 k n)
      = qround c64 ((m ((c : Thread nD τ).loc main_arg3) : S80x257.Idx → EReal) (ix2 n k)) := by
  obtain ⟨-, -, -, -, -, -, e0, e1, -⟩ := idx_facts t
  unfold iblk
  rw [View.read_apply]
  refine (congrArg (V m c main_v8) ?_).trans (Cert.KHost.V_w1b m c k n)
  funext a
  apply Fin.ext
  match a with
  | ⟨0, _⟩ => show win0_3.index t (0 : Fin 2) * 257 + 1 * k.val = k.val; omega
  | ⟨1, _⟩ => show win0_3.index t (1 : Fin 2) * 80 + 1 * n.val = n.val; omega

/-- The base layer's bias block is the whole row of quantised biases: entry n is bias n on the grid of step 1/8128. -/
theorem blk4_apply (c : Dev nD) (t : Fin cfg0.N) (n : Fin 80) :
    (iblk m c 4 t : Vec Ideal S1x80 .f32) (ix2 (0 : Fin 1) n)
      = qround c8128 ((m ((c : Thread nD τ).loc main_arg4) : S80.Idx → EReal) (ix1 n)) := by
  obtain ⟨-, -, -, -, -, -, -, -, e0, e1, -⟩ := idx_facts t
  unfold iblk
  rw [View.read_apply]
  refine (congrArg (V m c main_v14) ?_).trans (Cert.KHost.V_b1b m c n)
  funext a
  apply Fin.ext
  match a with
  | ⟨0, _⟩ => show win0_4.index t (0 : Fin 2) * 1 + 1 * (0 : Fin 1).val = (0 : Fin 1).val; omega
  | ⟨1, _⟩ => show win0_4.index t (1 : Fin 2) * 80 + 1 * n.val = n.val; omega

/-- The piece-square layer's weight block is the whole array of quantised weights, stored transposed:
    entry (k, n) is weight (n, k) on the grid of step 1/64. -/
theorem blk5_apply (c : Dev nD) (t : Fin cfg0.N) (k : Fin 128) (n : Fin 80) :
    (iblk m c 5 t : Vec Ideal S128x80 .f32) (ix2 k n)
      = qround c64 ((m ((c : Thread nD τ).loc main_arg5) : S80x128.Idx → EReal) (ix2 n k)) := by
  obtain ⟨-, -, -, -, -, -, -, -, -, -, e0, e1, -⟩ := idx_facts t
  unfold iblk
  rw [View.read_apply]
  refine (congrArg (V m c main_v20) ?_).trans (Cert.KHost.V_w1p m c k n)
  funext a
  apply Fin.ext
  match a with
  | ⟨0, _⟩ => show win0_5.index t (0 : Fin 2) * 128 + 1 * k.val = k.val; omega
  | ⟨1, _⟩ => show win0_5.index t (1 : Fin 2) * 80 + 1 * n.val = n.val; omega

/-- The piece-square layer's bias block is the whole row of quantised biases, on the grid of step 1/8128. -/
theorem blk6_apply (c : Dev nD) (t : Fin cfg0.N) (n : Fin 80) :
    (iblk m c 6 t : Vec Ideal S1x80 .f32) (ix2 (0 : Fin 1) n)
      = qround c8128 ((m ((c : Thread nD τ).loc main_arg6) : S80.Idx → EReal) (ix1 n)) := by
  obtain ⟨-, -, -, -, -, -, -, -, -, -, -, -, e0, e1, -⟩ := idx_facts t
  unfold iblk
  rw [View.read_apply]
  refine (congrArg (V m c main_v26) ?_).trans (Cert.KHost.V_b1p m c n)
  funext a
  apply Fin.ext
  match a with
  | ⟨0, _⟩ => show win0_6.index t (0 : Fin 2) * 1 + 1 * (0 : Fin 1).val = (0 : Fin 1).val; omega
  | ⟨1, _⟩ => show win0_6.index t (1 : Fin 2) * 80 + 1 * n.val = n.val; omega

/-- The second layer's weight block is the whole array of quantised weights, stored transposed:
    entry (k, n) is weight (n, k) on the grid of step 1/64. -/
theorem blk7_apply (c : Dev nD) (t : Fin cfg0.N) (k : Fin 32) (n : Fin 640) :
    (iblk m c 7 t : Vec Ideal S32x640 .f32) (ix2 k n)
      = qround c64 ((m ((c : Thread nD τ).loc main_arg7) : S640x32.Idx → EReal) (ix2 n k)) := by
  obtain ⟨-, -, -, -, -, -, -, -, -, -, -, -, -, -, e0, e1, -⟩ := idx_facts t
  unfold iblk
  rw [View.read_apply]
  refine (congrArg (V m c main_v32) ?_).trans (Cert.KHost.V_w2 m c k n)
  funext a
  apply Fin.ext
  match a with
  | ⟨0, _⟩ => show win0_7.index t (0 : Fin 2) * 32 + 1 * k.val = k.val; omega
  | ⟨1, _⟩ => show win0_7.index t (1 : Fin 2) * 640 + 1 * n.val = n.val; omega

/-- The second layer's bias block is the whole row of quantised biases, on the grid of step 1/8128. -/
theorem blk8_apply (c : Dev nD) (t : Fin cfg0.N) (n : Fin 640) :
    (iblk m c 8 t : Vec Ideal S1x640 .f32) (ix2 (0 : Fin 1) n)
      = qround c8128 ((m ((c : Thread nD τ).loc main_arg8) : S640.Idx → EReal) (ix1 n)) := by
  obtain ⟨-, -, -, -, -, -, -, -, -, -, -, -, -, -, -, -, e0, e1, -⟩ := idx_facts t
  unfold iblk
  rw [View.read_apply]
  refine (congrArg (V m c main_v38) ?_).trans (Cert.KHost.V_b2 m c n)
  funext a
  apply Fin.ext
  match a with
  | ⟨0, _⟩ => show win0_8.index t (0 : Fin 2) * 1 + 1 * (0 : Fin 1).val = (0 : Fin 1).val; omega
  | ⟨1, _⟩ => show win0_8.index t (1 : Fin 2) * 640 + 1 * n.val = n.val; omega

/-- The output layer's weight block is the whole array of quantised weights, stored transposed:
    entry (k, n) is weight (n, k) on the output layer's grid. -/
theorem blk9_apply (c : Dev nD) (t : Fin cfg0.N) (k : Fin 64) (n : Fin 10) :
    (iblk m c 9 t : Vec Ideal S64x10 .f32) (ix2 k n)
      = qround c75 ((m ((c : Thread nD τ).loc main_arg9) : S10x64.Idx → EReal) (ix2 n k)) := by
  obtain ⟨-, -, -, -, -, -, -, -, -, -, -, -, -, -, -, -, -, -, e0, e1, -⟩ := idx_facts t
  unfold iblk
  rw [View.read_apply]
  refine (congrArg (V m c main_v44) ?_).trans (Cert.KHost.V_wo m c k n)
  funext a
  apply Fin.ext
  match a with
  | ⟨0, _⟩ => show win0_9.index t (0 : Fin 2) * 64 + 1 * k.val = k.val; omega
  | ⟨1, _⟩ => show win0_9.index t (1 : Fin 2) * 10 + 1 * n.val = n.val; omega

/-- The output layer's bias block is the whole row of quantised biases, on the grid of step 1/9600. -/
theorem blk10_apply (c : Dev nD) (t : Fin cfg0.N) (n : Fin 10) :
    (iblk m c 10 t : Vec Ideal S1x10 .f32) (ix2 (0 : Fin 1) n)
      = qround c9600 ((m ((c : Thread nD τ).loc main_arg10) : S10.Idx → EReal) (ix1 n)) := by
  obtain ⟨-, -, -, -, -, -, -, -, -, -, -, -, -, -, -, -, -, -, -, -, e0, e1, -⟩ := idx_facts t
  unfold iblk
  rw [View.read_apply]
  refine (congrArg (V m c main_v50) ?_).trans (Cert.KHost.V_bo m c n)
  funext a
  apply Fin.ext
  match a with
  | ⟨0, _⟩ => show win0_10.index t (0 : Fin 2) * 1 + 1 * (0 : Fin 1).val = (0 : Fin 1).val; omega
  | ⟨1, _⟩ => show win0_10.index t (1 : Fin 2) * 10 + 1 * n.val = n.val; omega

end Cert.KSide

end
-- ==== Proof.Blocks.lean ====
/-
  From what each grid point writes back to what the output array holds after the run.

  Row p of the block that point t writes back is the score of sample 2048·t + p: the body's result on the point's
  eleven input blocks, which hold that sample's two feature rows, its bucket, and the quantised weights and biases.
  So what point t writes back is block t of the array of all scores.  The 64 blocks of 2048 rows cover all 131072
  rows, so the output array ends holding every sample's score.
-/
import proofs.«405585_j71511205479094_3_alg».proof.Proof.Gen.KernelIdeal.Value
import proofs.«405585_j71511205479094_3_alg».proof.Proof.Spec
import proofs.«405585_j71511205479094_3_alg».proof.Proof.Ints
import proofs.«405585_j71511205479094_3_alg».proof.Proof.KBody
import proofs.«405585_j71511205479094_3_alg».proof.Proof.BlockReads
import Idealize.ShloMosaic.Lib.Pipeline.Value
import Idealize.ShloMosaic.Lib.ValueIdx

noncomputable section

namespace Cert.KSide

open Cert.KernelIdeal Cert.KernelIdeal.Gen Cert.KernelIdeal.Value Idealize.ShloMosaic Idealize.ShloMosaic.TcCoe
open Idealize.ShloMosaic.ValueIdx Idealize.SL.Sem
open Cert.Spec hiding S80x257 S80 S80x128 S640x32 S640 S10x64 S10
open Idealize.ShloMosaic.Pipeline (Dat)

variable (m : (ℓ : Loc nD τ sig) → Buf (Elt Ideal) ℓ) (ρ : Dev nD → PrngReg)

/-! ## The specification at a row, and its congruence -/

/-- The score array at an index whose row is r: sample r's score from row r of the two feature arrays, its bucket,
    and the quantised weights. -/
theorem outArr_row (a0 : SB257.Idx → EReal) (a1 : SB128.Idx → EReal) (bk : Fin 131072 → Fin 10)
    (a3 : S80x257.Idx → EReal) (a4 : S80.Idx → EReal) (a5 : S80x128.Idx → EReal) (a6 : S80.Idx → EReal)
    (a7 : S640x32.Idx → EReal) (a8 : S640.Idx → EReal) (a9 : S10x64.Idx → EReal) (a10 : S10.Idx → EReal)
    (i : SB1.Idx) (r : Fin 131072) (hi : i 0 = r) :
    outArr a0 a1 bk a3 a4 a5 a6 a7 a8 a9 a10 i
      = out (fun k => a0 (ix2 r k)) (fun k => a1 (ix2 r k)) (bk r)
          (fun n k => qround c64 (a3 (ix2 n k))) (fun n => qround c8128 (a4 (ix1 n)))
          (fun n k => qround c64 (a5 (ix2 n k))) (fun n => qround c8128 (a6 (ix1 n)))
          (fun n k => qround c64 (a7 (ix2 n k))) (fun n => qround c8128 (a8 (ix1 n)))
          (fun n k => qround c75 (a9 (ix2 n k))) (fun n => qround c9600 (a10 (ix1 n))) := by
  subst hi
  rfl

/-- A sample's score depends only on its two rows, its bucket, and the ten weight and bias families. -/
theorem out_congr {xb xb' : Fin 257 → EReal} {xp xp' : Fin 128 → EReal} (c : Fin 10)
    {W1b W1b' : Fin 80 → Fin 257 → EReal} {B1b B1b' : Fin 80 → EReal}
    {W1p W1p' : Fin 80 → Fin 128 → EReal} {B1p B1p' : Fin 80 → EReal}
    {W2 W2' : Fin 640 → Fin 32 → EReal} {B2 B2' : Fin 640 → EReal}
    {Wo Wo' : Fin 10 → Fin 64 → EReal} {Bo Bo' : Fin 10 → EReal}
    (h0 : xb = xb') (h1 : xp = xp') (h3 : W1b = W1b') (h4 : B1b = B1b') (h5 : W1p = W1p') (h6 : B1p = B1p')
    (h7 : W2 = W2') (h8 : B2 = B2') (h9 : Wo = Wo') (h10 : Bo = Bo') :
    out xb xp c W1b B1b W1p B1p W2 B2 Wo Bo = out xb' xp' c W1b' B1b' W1p' B1p' W2' B2' Wo' Bo' := by
  subst h0 h1 h3 h4 h5 h6 h7 h8 h9 h10
  rfl

/-! ## What a point writes back, and the array after the run -/

/-- Every sample's score, from the arrays as launched. -/
abbrev scores (c : Dev nD) : S131072x1.Idx → EReal :=
  outArr (m ((c : Thread nD τ).loc main_arg0)) (m ((c : Thread nD τ).loc main_arg1))
    (fun b => Cert.Ints.bucket ((m ((c : Thread nD τ).loc main_arg2)) (ix1 b)))
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))

/-- WHAT POINT t WRITES BACK is block t of the score array: row p of the block the body stores is the score of
    sample 2048·(block index) + p, read off that sample's rows, its bucket, and the quantised weights. -/
theorem flushed_eq (hply : ∀ (c : Dev nD) (b : Fin 131072), 0 ≤ (((m ((c : Thread nD τ).loc main_arg2)) : S131072.Idx → BitVec 32) (ix1 b)).toInt)
    (c : Dev nD) (t : Fin cfg0.N) :
    (dats m 0 c).flushed 11 t = ((cfg0.win 11).blk t).view.read (Elt Ideal) (scores m c) := by
  rw [Value.flushed11]
  obtain ⟨-, -, -, -, -, -, -, -, -, -, -, -, -, -, -, -, -, -, -, -, -, -, hle, hz⟩ := idx_facts t
  funext y
  obtain ⟨p, q, rfl⟩ : ∃ (p : Fin 2048) (q : Fin 1), y = ix2 p q := ⟨y 0, y 1, eq_ix2 y⟩
  obtain rfl : q = 0 := Subsingleton.elim _ _
  have hp : p.val < 2048 := p.isLt
  have hr : win0_11.index t (0 : Fin 2) * 2048 + p.val < 131072 := by omega
  show out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 p (0 : Fin 1))
    = scores m c (((cfg0.win 11).blk t).view.emb (ix2 p (0 : Fin 1)))
  refine (Cert.KBody.out0_row (iblk m c 0 t) (iblk m c 1 t) (iblk m c 2 t) (iblk m c 3 t) (iblk m c 4 t) (iblk m c 5 t)
      (iblk m c 6 t) (iblk m c 7 t) (iblk m c 8 t) (iblk m c 9 t) (iblk m c 10 t) p
      (Cert.Ints.bucket ((m ((c : Thread nD τ).loc main_arg2) : S131072.Idx → BitVec 32)
        (ix1 (⟨win0_11.index t (0 : Fin 2) * 2048 + p.val, hr⟩ : Fin 131072))))
      (blk2_apply m hply c t p ⟨win0_11.index t (0 : Fin 2) * 2048 + p.val, hr⟩ rfl)).trans ?_
  refine Eq.trans ?_ (outArr_row _ _ _ _ _ _ _ _ _ _ _ (((cfg0.win 11).blk t).view.emb (ix2 p (0 : Fin 1)))
      ⟨win0_11.index t (0 : Fin 2) * 2048 + p.val, hr⟩ ?_).symm
  · exact out_congr _
      (funext fun k => blk0_apply m c t p k _ rfl) (funext fun k => blk1_apply m c t p k _ rfl)
      (funext fun n => funext fun k => blk3_apply m c t k n) (funext fun n => blk4_apply m c t n)
      (funext fun n => funext fun k => blk5_apply m c t k n) (funext fun n => blk6_apply m c t n)
      (funext fun n => funext fun k => blk7_apply m c t k n) (funext fun n => blk8_apply m c t n)
      (funext fun n => funext fun k => blk9_apply m c t k n) (funext fun n => blk10_apply m c t n)
  · apply Fin.ext
    show win0_11.index t (0 : Fin 2) * 2048 + 1 * p.val = win0_11.index t (0 : Fin 2) * 2048 + p.val
    omega

/-- An index of the output array is in point t's block iff each coordinate is in the block's range on its axis. -/
theorem mem_blk (t : Fin cfg0.N) (i : S131072x1.Idx) :
    i ∈ ((cfg0.win 11).blk t).view.set ↔ ∀ a : Fin 2, win0_11.index t a * S2048x1.size a ≤ (i a).val
      ∧ (i a).val < win0_11.index t a * S2048x1.size a + S2048x1.size a := by
  show i ∈ ((View.whole main_v51).slice (win0_11.rect t)).set ↔ _
  rw [View.set_slice_whole, Rect.mem_set_unit]
  exact Iff.rfl

/-- Every row of the output array is in some point's block: row r is in the block of the point whose block index
    is r / 2048. -/
theorem cover (i : S131072x1.Idx) :
    ∃ t : Fin cfg0.N, (cfg0.win 11).flush t = true ∧ i ∈ ((cfg0.win 11).blk t).view.set := by
  have hi0 : (i 0).val < 131072 := (i 0).isLt
  have hi1 : (i 1).val < 1 := (i 1).isLt
  obtain ⟨t, ht⟩ := idx_onto ⟨(i 0).val / 2048, by omega⟩
  have q0 : win0_11.index t (0 : Fin 2) = (i 0).val / 2048 := congrFun ht 0
  have q1 : win0_11.index t (1 : Fin 2) = 0 := congrFun ht 1
  refine ⟨t, flush0_11 t, ?_⟩
  rw [mem_blk]
  intro a
  match a with
  | ⟨0, _⟩ =>
    show win0_11.index t (0 : Fin 2) * 2048 ≤ (i 0).val ∧ (i 0).val < win0_11.index t (0 : Fin 2) * 2048 + 2048
    omega
  | ⟨1, _⟩ =>
    show win0_11.index t (1 : Fin 2) * 1 ≤ (i 1).val ∧ (i 1).val < win0_11.index t (1 : Fin 2) * 1 + 1
    omega

/-- the output array after the run: every sample's score -/
theorem kernel_final (hply : ∀ (c : Dev nD) (b : Fin 131072), 0 ≤ (((m ((c : Thread nD τ).loc main_arg2)) : S131072.Idx → BitVec 32) (ix1 b)).toInt) (c : Dev nD) :
    (dats m 0 c).arrAt 11 cfg0.N = Spec.outArr (m ((c : Thread nD τ).loc main_arg0)) (m ((c : Thread nD τ).loc main_arg1)) (fun b => Cert.Ints.bucket ((m ((c : Thread nD τ).loc main_arg2)) (ix1 b))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 (scores m c) (fun t _ => flushed_eq m hply c t) cover

/-- The run, read: the output array at every sample's score, the eleven arguments unchanged. -/
theorem kernel_run (hply : ∀ (c : Dev nD) (b : Fin 131072), 0 ≤ (((m ((c : Thread nD τ).loc main_arg2)) : S131072.Idx → BitVec 32) (ix1 b)).toInt) :
    θ_run defs (onTc (τ := τ) (main (F := Ideal))) ⟨m, fun _ => 0, ρ⟩ fun r => ∀ c : Dev nD,
      r.2.mem ((c : Thread nD τ).loc main_v51) = Spec.outArr (m ((c : Thread nD τ).loc main_arg0)) (m ((c : Thread nD τ).loc main_arg1)) (fun b => Cert.Ints.bucket ((m ((c : Thread nD τ).loc main_arg2)) (ix1 b))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (kernel_final m hply c), (h c).2⟩) (Value.run_blocks m ρ)

end Cert.KSide

end
-- ==== Proof.RefTerm.lean ====
/-
  The reference program's result as one composed term of its eleven arguments, stage by stage.

  Each definition below is one stretch of the reference's host operations, written with the operations and records the
  program prints, as a function of the values the stretch reads: the bucket index `ply // 6`; the pair of start indices
  (sample, bucket) with negative values wrapped; a weight with its straight-through quantisation `w + (round(w·s)/s − w)`;
  a dense layer (product with the transposed weight, plus the bias, regrouped into 10 buckets); the gather of each
  sample's bucket; the squared-and-kept concatenation; the clamp; the straight-through floor `x + (⌊x·s⌋/s − x)`.
  `refTerm` composes them in the program's order.
-/
import proofs.«405585_j71511205479094_3_alg».proof.ReferenceIdeal
import proofs.«405585_j71511205479094_3_alg».proof.Proof.Gen.ReferenceIdeal

noncomputable section

namespace Cert.RefSide

open Cert.ReferenceIdeal Cert.ReferenceIdeal.Facts₀ Idealize.ShloMosaic

variable {F : FTy → Type} [FloatOps F]

/-- `ply // 6` as the program computes it: the truncated quotient, lowered by one where the signs differ and the
    remainder is not zero. -/
def rLs (ply : IVec S131072 32) : IVec S131072 32 :=
  select (andi (cmpi .ne (signi ply) (broadcastInDim S131072 ![] bcast_S_S131072 (signi (id (constantI S_ 32 6#32)))))
      (cmpi .ne (Host.remsi ply (broadcastInDim S131072 ![] bcast_S_S131072 (id (constantI S_ 32 6#32)))) (broadcastInDim S131072 ![] bcast_S_S131072 (constantI S_ 32 0#32))))
    (subi (Host.divsi ply (broadcastInDim S131072 ![] bcast_S_S131072 (id (constantI S_ 32 6#32)))) (broadcastInDim S131072 ![] bcast_S_S131072 (constantI S_ 32 1#32)))
    (Host.divsi ply (broadcastInDim S131072 ![] bcast_S_S131072 (id (constantI S_ 32 6#32))))

/-- The start indices of the three gathers: row `b` holds the sample number `b` and its bucket, each with a negative
    value moved up by the axis' extent. -/
def rIdx (ls : IVec S131072 32) : IVec S131072x2 32 :=
  concatenate S131072x2 1
    [⟨S131072x1, broadcastInDim S131072x1 ![0] bcast_S131072_S131072x1_0
        (select (cmpi .slt (iotaInDim S131072 32 0) (broadcastInDim S131072 ![] bcast_S_S131072 (constantI S_ 32 0#32))) (addi (iotaInDim S131072 32 0) (broadcastInDim S131072 ![] bcast_S_S131072 (constantI S_ 32 131072#32))) (iotaInDim S131072 32 0))⟩,
     ⟨S131072x1, broadcastInDim S131072x1 ![0] bcast_S131072_S131072x1_0
        (select (cmpi .slt ls (broadcastInDim S131072 ![] bcast_S_S131072 (constantI S_ 32 0#32))) (addi ls (broadcastInDim S131072 ![] bcast_S_S131072 (constantI S_ 32 10#32))) ls)⟩]
    concatenates_S131072x1_S131072x1_S131072x2_d1

/-- The base layer's weights on the grid of step 1/64, straight-through. -/
def rQ80x257 (w : FVec F S80x257 .f32) : FVec F S80x257 .f32 :=
  addf w (subf (Host.divf (Host.roundeven (mulf w (broadcastInDim S80x257 ![] bcast_S_S80x257 (constant S_ .f32 0x42800000#32)))) (broadcastInDim S80x257 ![] bcast_S_S80x257 (constant S_ .f32 0x42800000#32))) w)

/-- A first-layer bias on the grid of step 1/8128, straight-through. -/
def rQ80 (w : FVec F S80 .f32) : FVec F S80 .f32 :=
  addf w (subf (Host.divf (Host.roundeven (mulf w (broadcastInDim S80 ![] bcast_S_S80 (constant S_ .f32 0x45FE0000#32)))) (broadcastInDim S80 ![] bcast_S_S80 (constant S_ .f32 0x45FE0000#32))) w)

/-- The piece-square layer's weights on the grid of step 1/64, straight-through. -/
def rQ80x128 (w : FVec F S80x128 .f32) : FVec F S80x128 .f32 :=
  addf w (subf (Host.divf (Host.roundeven (mulf w (broadcastInDim S80x128 ![] bcast_S_S80x128 (constant S_ .f32 0x42800000#32)))) (broadcastInDim S80x128 ![] bcast_S_S80x128 (constant S_ .f32 0x42800000#32))) w)

/-- The second layer's weights on the grid of step 1/64, straight-through. -/
def rQ640x32 (w : FVec F S640x32 .f32) : FVec F S640x32 .f32 :=
  addf w (subf (Host.divf (Host.roundeven (mulf w (broadcastInDim S640x32 ![] bcast_S_S640x32 (constant S_ .f32 0x42800000#32)))) (broadcastInDim S640x32 ![] bcast_S_S640x32 (constant S_ .f32 0x42800000#32))) w)

/-- The second layer's bias on the grid of step 1/8128, straight-through. -/
def rQ640 (w : FVec F S640 .f32) : FVec F S640 .f32 :=
  addf w (subf (Host.divf (Host.roundeven (mulf w (broadcastInDim S640 ![] bcast_S_S640 (constant S_ .f32 0x45FE0000#32)))) (broadcastInDim S640 ![] bcast_S_S640 (constant S_ .f32 0x45FE0000#32))) w)

/-- The output layer's weights on the grid of step 1/f32(9600/127), straight-through. -/
def rQ10x64 (w : FVec F S10x64 .f32) : FVec F S10x64 .f32 :=
  addf w (subf (Host.divf (Host.roundeven (mulf w (broadcastInDim S10x64 ![] bcast_S_S10x64 (constant S_ .f32 0x42972E5D#32)))) (broadcastInDim S10x64 ![] bcast_S_S10x64 (constant S_ .f32 0x42972E5D#32))) w)

/-- The output layer's bias on the grid of step 1/9600, straight-through. -/
def rQ10 (w : FVec F S10 .f32) : FVec F S10 .f32 :=
  addf w (subf (Host.divf (Host.roundeven (mulf w (broadcastInDim S10 ![] bcast_S_S10 (constant S_ .f32 0x46160000#32)))) (broadcastInDim S10 ![] bcast_S_S10 (constant S_ .f32 0x46160000#32))) w)

/-- The dense base layer of every sample, regrouped as 10 buckets of 8. -/
def rL1b (x : FVec F S131072x257 .f32) (qw : FVec F S80x257 .f32) (qb : FVec F S80 .f32) : FVec F S131072x10x8 .f32 :=
  shapeCast _ (addf (Host.dotGeneral dot_S131072x257_S257x80_S131072x80_1_0_0_1_n_n none x (transpose S257x80 [1, 0] qw transposes_S80x257_S257x80_1_0)) (broadcastInDim S131072x80 ![0, 1] bcast_S1x80_S131072x80_0_1 (broadcastInDim S1x80 ![1] bcast_S80_S1x80_1 qb))) shapeCasts_S131072x80_S131072x10x8

/-- The dense piece-square layer of every sample, regrouped as 10 buckets of 8. -/
def rL1p (x : FVec F S131072x128 .f32) (qw : FVec F S80x128 .f32) (qb : FVec F S80 .f32) : FVec F S131072x10x8 .f32 :=
  shapeCast _ (addf (Host.dotGeneral dot_S131072x128_S128x80_S131072x80_1_0_0_1_n_n none x (transpose S128x80 [1, 0] qw transposes_S80x128_S128x80_1_0)) (broadcastInDim S131072x80 ![0, 1] bcast_S1x80_S131072x80_0_1 (broadcastInDim S1x80 ![1] bcast_S80_S1x80_1 qb))) shapeCasts_S131072x80_S131072x10x8

/-- The dense second layer of every sample, regrouped as 10 buckets of 64. -/
def rL2 (x : FVec F S131072x32 .f32) (qw : FVec F S640x32 .f32) (qb : FVec F S640 .f32) : FVec F S131072x10x64 .f32 :=
  shapeCast _ (addf (Host.dotGeneral dot_S131072x32_S32x640_S131072x640_1_0_0_1_n_n none x (transpose S32x640 [1, 0] qw transposes_S640x32_S32x640_1_0)) (broadcastInDim S131072x640 ![0, 1] bcast_S1x640_S131072x640_0_1 (broadcastInDim S1x640 ![1] bcast_S640_S1x640_1 qb))) shapeCasts_S131072x640_S131072x10x64

/-- The dense output layer of every sample, regrouped as 10 buckets of 1. -/
def rL3 (x : FVec F S131072x64 .f32) (qw : FVec F S10x64 .f32) (qb : FVec F S10 .f32) : FVec F S131072x10x1 .f32 :=
  shapeCast _ (addf (Host.dotGeneral dot_S131072x64_S64x10_S131072x10_1_0_0_1_n_n none x (transpose S64x10 [1, 0] qw transposes_S10x64_S64x10_1_0)) (broadcastInDim S131072x10 ![0, 1] bcast_S1x10_S131072x10_0_1 (broadcastInDim S1x10 ![1] bcast_S10_S1x10_1 qb))) shapeCasts_S131072x10_S131072x10x1

/-- Each sample's bucket of 8. -/
def rG8 (l : FVec F S131072x10x8 .f32) (idx : IVec S131072x2 32) : FVec F S131072x8 .f32 :=
  Host.gather gather_S131072x10x8_S131072x2_S131072x8_1_01_n_n_01_1_118 l idx

/-- Each sample's bucket of 64. -/
def rG64 (l : FVec F S131072x10x64 .f32) (idx : IVec S131072x2 32) : FVec F S131072x64 .f32 :=
  Host.gather gather_S131072x10x64_S131072x2_S131072x64_1_01_n_n_01_1_1164 l idx

/-- Each sample's bucket of 1. -/
def rG1 (l : FVec F S131072x10x1 .f32) (idx : IVec S131072x2 32) : FVec F S131072x1 .f32 :=
  Host.gather gather_S131072x10x1_S131072x2_S131072x1_1_01_n_n_01_1_111 l idx

/-- The 16 first-layer activations of every sample: base, then piece-square. -/
def rL1x (g1 g2 : FVec F S131072x8 .f32) : FVec F S131072x16 .f32 :=
  concatenate S131072x16 1 [⟨S131072x8, g1⟩, ⟨S131072x8, g2⟩] concatenates_S131072x8_S131072x8_S131072x16_d1

/-- The 32 second-layer inputs before clamping: the squares scaled by 127/128, then the activations. -/
def rCat (g1 g2 : FVec F S131072x8 .f32) : FVec F S131072x32 .f32 :=
  concatenate S131072x32 1
    [⟨S131072x16, mulf (mulf (rL1x g1 g2) (rL1x g1 g2)) (broadcastInDim S131072x16 ![] bcast_S_S131072x16 (constant S_ .f32 0x3F7E0000#32))⟩, ⟨S131072x16, rL1x g1 g2⟩]
    concatenates_S131072x16_S131072x16_S131072x32_d1

/-- Every entry clamped to [0, 1]. -/
def rClip32 (x : FVec F S131072x32 .f32) : FVec F S131072x32 .f32 :=
  minimumf (broadcastInDim S131072x32 ![] bcast_S_S131072x32 (id (constant S_ .f32 0x3F800000#32))) (maximumf (broadcastInDim S131072x32 ![] bcast_S_S131072x32 (id (constant S_ .f32 0x00000000#32))) x)

/-- Every entry clamped to [0, 1]. -/
def rClip64 (x : FVec F S131072x64 .f32) : FVec F S131072x64 .f32 :=
  minimumf (broadcastInDim S131072x64 ![] bcast_S_S131072x64 (id (constant S_ .f32 0x3F800000#32))) (maximumf (broadcastInDim S131072x64 ![] bcast_S_S131072x64 (id (constant S_ .f32 0x00000000#32))) x)

/-- Every entry rounded down to the grid of step 1/127, straight-through. -/
def rQf32 (x : FVec F S131072x32 .f32) : FVec F S131072x32 .f32 :=
  addf x (subf (Host.divf (Host.floor (mulf x (broadcastInDim S131072x32 ![] bcast_S_S131072x32 (constant S_ .f32 0x42FE0000#32)))) (broadcastInDim S131072x32 ![] bcast_S_S131072x32 (constant S_ .f32 0x42FE0000#32))) x)

/-- Every entry rounded down to the grid of step 1/127, straight-through. -/
def rQf64 (x : FVec F S131072x64 .f32) : FVec F S131072x64 .f32 :=
  addf x (subf (Host.divf (Host.floor (mulf x (broadcastInDim S131072x64 ![] bcast_S_S131072x64 (constant S_ .f32 0x42FE0000#32)))) (broadcastInDim S131072x64 ![] bcast_S_S131072x64 (constant S_ .f32 0x42FE0000#32))) x)

/-- Every score rounded down to the grid of step 1/600, straight-through. -/
def rQf1 (x : FVec F S131072x1 .f32) : FVec F S131072x1 .f32 :=
  addf x (subf (Host.divf (Host.floor (mulf x (broadcastInDim S131072x1 ![] bcast_S_S131072x1 (constant S_ .f32 0x44160000#32)))) (broadcastInDim S131072x1 ![] bcast_S_S131072x1 (constant S_ .f32 0x44160000#32))) x)

/-- The reference's result. -/
def refTerm (a0 : FVec F S131072x257 .f32) (a1 : FVec F S131072x128 .f32) (a2 : IVec S131072 32) (a3 : FVec F S80x257 .f32) (a4 : FVec F S80 .f32)
    (a5 : FVec F S80x128 .f32) (a6 : FVec F S80 .f32) (a7 : FVec F S640x32 .f32) (a8 : FVec F S640 .f32) (a9 : FVec F S10x64 .f32) (a10 : FVec F S10 .f32) :
    FVec F S131072x1 .f32 :=
  rQf1 (rG1 (rL3 (rQf64 (rClip64 (rG64 (rL2 (rQf32 (rClip32 (rCat
      (rG8 (rL1b a0 (rQ80x257 a3) (rQ80 a4)) (rIdx (rLs a2)))
      (rG8 (rL1p a1 (rQ80x128 a5) (rQ80 a6)) (rIdx (rLs a2))))))
    (rQ640x32 a7) (rQ640 a8)) (rIdx (rLs a2))))) (rQ10x64 a9) (rQ10 a10)) (rIdx (rLs a2)))

end Cert.RefSide

end
-- ==== Proof.RefRun.lean ====
/-
  The reference program's run.

  @main's 211 statements, every call replaced by its callee's operations over the call's own buffers, are one straight
  line of 236 tensor operations. The line is cut into nine stretches, at the values a later stretch reads: the bucket index
  `ply // 6` with the sample numbers; each sample's bucket of the base layer; its bucket of the piece-square layer; the 32
  second-layer inputs clamped to [0, 1]; those rounded down to the grid of step 1/127; the bucket of the second layer; the
  64 output-layer inputs clamped and rounded down to the same grid; the bucket of the output layer; the score rounded down
  to the grid of step 1/600. After a stretch, the value it hands on is the matching stage of the composed term applied to the
  values handed to it, and every buffer the stretch does not write holds what it held. Composed: every weakly fair
  execution of @main ends with the result buffer at `refTerm` of the eleven arguments and the arguments unchanged.
-/
import proofs.«405585_j71511205479094_3_alg».proof.Proof.RefTerm
import proofs.«405585_j71511205479094_3_alg».proof.Proof.Gen.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

namespace Run

/-- Two columns of start indices side by side: row `i` holds `a i`, then `b i`. -/
def catIdx (a b : IVec S131072x1 32) : IVec S131072x2 32 :=
  concatenate S131072x2 1 [⟨S131072x1, a⟩, ⟨S131072x1, b⟩] concatenates_S131072x1_S131072x1_S131072x2_d1

/-- Two blocks of 16 columns side by side. -/
def catRows (a b : FVec F S131072x16 .f32) : FVec F S131072x32 .f32 :=
  concatenate S131072x32 1 [⟨S131072x16, a⟩, ⟨S131072x16, b⟩] concatenates_S131072x16_S131072x16_S131072x32_d1

/-- Appending two lists of operations runs them one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A buffer among a list, as the one-element set of device buffers inside the list's. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## The operations, stretch by stretch -/

/-- The bucket index `ply // 6` and the sample numbers. Operations 1 … 19 of 236. -/
abbrev cA : List (HloOp τ sig (Elt F)) :=
  [ StableHlo.nullary main_c (constantI S_ 32 6#32),
    StableHlo.TRef.unary (TRef.of main_c : StableHlo.TRef sig ⟨S_, .i32⟩) main_call0.v0 id,
    StableHlo.TRef.unary main_call0.v0 main_call0.v1 (broadcastInDim S131072 ![] bcast_S_S131072),
    StableHlo.TRef.binary (TRef.of main_arg2 : StableHlo.TRef sig ⟨S131072, .i32⟩) main_call0.v1 main_call0.v2 Host.divsi,
    StableHlo.TRef.unary (TRef.of main_arg2 : StableHlo.TRef sig ⟨S131072, .i32⟩) main_call0.v3 signi,
    StableHlo.TRef.unary main_call0.v0 main_call0.v4 signi,
    StableHlo.TRef.unary main_call0.v4 main_call0.v5 (broadcastInDim S131072 ![] bcast_S_S131072),
    StableHlo.TRef.binary main_call0.v3 main_call0.v5 main_call0.v6 (cmpi .ne),
    StableHlo.TRef.unary main_call0.v0 main_call0.v7 (broadcastInDim S131072 ![] bcast_S_S131072),
    StableHlo.TRef.binary (TRef.of main_arg2 : StableHlo.TRef sig ⟨S131072, .i32⟩) main_call0.v7 main_call0.v8 Host.remsi,
    StableHlo.TRef.nullary main_call0.c (constantI S_ 32 0#32),
    StableHlo.TRef.unary main_call0.c main_call0.v9 (broadcastInDim S131072 ![] bcast_S_S131072),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S131072 ![] bcast_S_S131072),
    StableHlo.TRef.binary main_call0.v2 main_call0.v12 main_call0.v13 subi,
    StableHlo.TRef.ternary main_call0.v11 main_call0.v13 main_call0.v2 main_call0.call0.v0 select,
    StableHlo.nullary main_v1 (iotaInDim S131072 32 0) ]

/-- The base layer and each sample's bucket of it. Operations 20 … 61 of 236. -/
abbrev cB : List (HloOp τ sig (Elt F)) :=
  [ StableHlo.nullary main_cst (constant S_ .f32 0x42800000#32),
    StableHlo.unary main_cst main_v2 (broadcastInDim S80x257 ![] bcast_S_S80x257 : (⟨S_, .f32⟩ : BufTy).Contents (Elt F) → (⟨S80x257, .f32⟩ : BufTy).Contents (Elt F)),
    StableHlo.binary main_arg3 main_v2 main_v3 (mulf : (⟨S80x257, .f32⟩ : BufTy).Contents (Elt F) → (⟨S80x257, .f32⟩ : BufTy).Contents (Elt F) → (⟨S80x257, .f32⟩ : BufTy).Contents (Elt F)),
    StableHlo.TRef.unary (TRef.of main_v3 : StableHlo.TRef sig ⟨S80x257, .f32⟩) main_call1.v0 Host.roundeven,
    StableHlo.nullary main_cst_0 (constant S_ .f32 0x42800000#32),
    StableHlo.unary main_cst_0 main_v5 (broadcastInDim S80x257 ![] bcast_S_S80x257 : (⟨S_, .f32⟩ : BufTy).Contents (Elt F) → (⟨S80x257, .f32⟩ : BufTy).Contents (Elt F)),
    StableHlo.binary main_v4 main_v5 main_v6 (Host.divf : (⟨S80x257, .f32⟩ : BufTy).Contents (Elt F) → (⟨S80x257, .f32⟩ : BufTy).Contents (Elt F) → (⟨S80x257, .f32⟩ : BufTy).Contents (Elt F)),
    StableHlo.binary main_v6 main_arg3 main_v7 (subf : (⟨S80x257, .f32⟩ : BufTy).Contents (Elt F) → (⟨S80x257, .f32⟩ : BufTy).Contents (Elt F) → (⟨S80x257, .f32⟩ : BufTy).Contents (Elt F)),
    StableHlo.binary main_arg3 main_v7 main_v8 (addf : (⟨S80x257, .f32⟩ : BufTy).Contents (Elt F) → (⟨S80x257, .f32⟩ : BufTy).Contents (Elt F) → (⟨S80x257, .f32⟩ : BufTy).Contents (Elt F)),
    StableHlo.nullary main_cst_1 (constant S_ .f32 0x45FE0000#32),
    StableHlo.unary main_cst_1 main_v9 (broadcastInDim S80 ![] bcast_S_S80 : (⟨S_, .f32⟩ : BufTy).Contents (Elt F) → (⟨S80, .f32⟩ : BufTy).Contents (Elt F)),
    StableHlo.binary main_arg4 main_v9 main_v10 (mulf : (⟨S80, .f32⟩ : BufTy).Contents (Elt F) → (⟨S80, .f32⟩ : BufTy).Contents (Elt F) → (⟨S80, .f32⟩ : BufTy).Contents (Elt F)),
    StableHlo.TRef.unary (TRef.of main_v10 : StableHlo.TRef sig ⟨S80, .f32⟩) main_call2.v0 Host.roundeven,
    StableHlo.nullary main_cst_2 (constant S_ .f32 0x45FE0000#32),
    StableHlo.unary main_cst_2 main_v12 (broadcastInDim S80 ![] bcast_S_S80 : (⟨S_, .f32⟩ : BufTy).Contents (Elt F) → (⟨S80, .f32⟩ : BufTy).Contents (Elt F)),
    StableHlo.binary main_v11 main_v12 main_v13 (Host.divf : (⟨S80, .f32⟩ : BufTy).Contents (Elt F) → (⟨S80, .f32⟩ : BufTy).Contents (Elt F) → (⟨S80, .f32⟩ : BufTy).Contents (Elt F)),
    StableHlo.binary main_v13 main_arg4 main_v14 (subf : (⟨S80, .f32⟩ : BufTy).Contents (Elt F) → (⟨S80, .f32⟩ : BufTy).Contents (Elt F) → (⟨S80, .f32⟩ : BufTy).Contents (Elt F)),
    StableHlo.binary main_arg4 main_v14 main_v15 (addf : (⟨S80, .f32⟩ : BufTy).Contents (Elt F) → (⟨S80, .f32⟩ : BufTy).Contents (Elt F) → (⟨S80, .f32⟩ : BufTy).Contents (Elt F)),
    StableHlo.unary main_v8 main_v16 ((transpose S257x80 [1, 0] · transposes_S80x257_S257x80_1_0) : (⟨S80x257, .f32⟩ : BufTy).Contents (Elt F) → (⟨S257x80, .f32⟩ : BufTy).Contents (Elt F)),
    StableHlo.binary main_arg0 main_v16 main_v17 ((fun l r => Host.dotGeneral dot_S131072x257_S257x80_S131072x80_1_0_0_1_n_n none l r) : (⟨S131072x257, .f32⟩ : BufTy).Contents (Elt F) → (⟨S257x80, .f32⟩ : BufTy).Contents (Elt F) → (⟨S131072x80, .f32⟩ : BufTy).Contents (Elt F)),
    StableHlo.unary main_v15 main_v18 (broadcastInDim S1x80 ![1] bcast_S80_S1x80_1 : (⟨S80, .f32⟩ : BufTy).Contents (Elt F) → (⟨S1x80, .f32⟩ : BufTy).Contents (Elt F)),
    StableHlo.unary main_v18 main_v19 (broadcastInDim S131072x80 ![0, 1] bcast_S1x80_S131072x80_0_1 : (⟨S1x80, .f32⟩ : BufTy).Contents (Elt F) → (⟨S131072x80, .f32⟩ : BufTy).Contents (Elt F)),
    StableHlo.binary main_v17 main_v19 main_v20 (addf : (⟨S131072x80, .f32⟩ : BufTy).Contents (Elt F) → (⟨S131072x80, .f32⟩ : BufTy).Contents (Elt F) → (⟨S131072x80, .f32⟩ : BufTy).Contents (Elt F)),
    StableHlo.reshape main_v20 main_v21 rfl shapeCasts_S131072x80_S131072x10x8,
    StableHlo.nullary main_c_3 (constantI S_ 32 0#32),
    StableHlo.unary main_c_3 main_v22 (broadcastInDim S131072 ![] bcast_S_S131072 : (⟨S_, .i32⟩ : BufTy).Contents (Elt F) → (⟨S131072, .i32⟩ : BufTy).Contents (Elt F)),
    StableHlo.binary main_v1 main_v22 main_v23 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 131072#32),
    StableHlo.unary main_c_4 main_v24 (broadcastInDim S131072 ![] bcast_S_S131072 : (⟨S_, .i32⟩ : BufTy).Contents (Elt F) → (⟨S131072, .i32⟩ : BufTy).Contents (Elt F)),
    StableHlo.binary main_v1 main_v24 main_v25 (addi : (⟨S131072, .i32⟩ : BufTy).Contents (Elt F) → (⟨S131072, .i32⟩ : BufTy).Contents (Elt F) → (⟨S131072, .i32⟩ : BufTy).Contents (Elt F)),
    StableHlo.ternary main_v23 main_v25 main_v1 main_v26 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_5 (constantI S_ 32 0#32),
    StableHlo.unary main_c_5 main_v27 (broadcastInDim S131072 ![] bcast_S_S131072 : (⟨S_, .i32⟩ : BufTy).Contents (Elt F) → (⟨S131072, .i32⟩ : BufTy).Contents (Elt F)),
    StableHlo.binary main_v0 main_v27 main_v28 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 10#32),
    StableHlo.unary main_c_6 main_v29 (broadcastInDim S131072 ![] bcast_S_S131072 : (⟨S_, .i32⟩ : BufTy).Contents (Elt F) → (⟨S131072, .i32⟩ : BufTy).Contents (Elt F)),
    StableHlo.binary main_v0 main_v29 main_v30 (addi : (⟨S131072, .i32⟩ : BufTy).Contents (Elt F) → (⟨S131072, .i32⟩ : BufTy).Contents (Elt F) → (⟨S131072, .i32⟩ : BufTy).Contents (Elt F)),
    StableHlo.ternary main_v28 main_v30 main_v0 main_v31 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v26 main_v32 (broadcastInDim S131072x1 ![0] bcast_S131072_S131072x1_0 : (⟨S131072, .i32⟩ : BufTy).Contents (Elt F) → (⟨S131072x1, .i32⟩ : BufTy).Contents (Elt F)),
    StableHlo.unary main_v31 main_v33 (broadcastInDim S131072x1 ![0] bcast_S131072_S131072x1_0 : (⟨S131072, .i32⟩ : BufTy).Contents (Elt F) → (⟨S131072x1, .i32⟩ : BufTy).Contents (Elt F)),
    StableHlo.binary main_v32 main_v33 main_v34 (catIdx : (⟨S131072x1, .i32⟩ : BufTy).Contents (Elt F) → (⟨S131072x1, .i32⟩ : BufTy).Contents (Elt F) → (⟨S131072x2, .i32⟩ : BufTy).Contents (Elt F)),
    StableHlo.binary main_v21 main_v34 main_v35 ((fun x i => Host.gather gather_S131072x10x8_S131072x2_S131072x8_1_01_n_n_01_1_118 x i) : (⟨S131072x10x8, .f32⟩ : BufTy).Contents (Elt F) → (⟨S131072x2, .i32⟩ : BufTy).Contents (Elt F) → (⟨S131072x8, .f32⟩ : BufTy).Contents (Elt F)) ]

/-- The piece-square layer and each sample's bucket of it. Operations 62 … 103 of 236. -/
abbrev cC : List (HloOp τ sig (Elt F)) :=
  [ StableHlo.nullary main_cst_7 (constant S_ .f32 0x42800000#32),
    StableHlo.unary main_cst_7 main_v36 (broadcastInDim S80x128 ![] bcast_S_S80x128 : (⟨S_, .f32⟩ : BufTy).Contents (Elt F) → (⟨S80x128, .f32⟩ : BufTy).Contents (Elt F)),
    StableHlo.binary main_arg5 main_v36 main_v37 (mulf : (⟨S80x128, .f32⟩ : BufTy).Contents (Elt F) → (⟨S80x128, .f32⟩ : BufTy).Contents (Elt F) → (⟨S80x128, .f32⟩ : BufTy).Contents (Elt F)),
    StableHlo.TRef.unary (TRef.of main_v37 : StableHlo.TRef sig ⟨S80x128, .f32⟩) main_call3.v0 Host.roundeven,
    StableHlo.nullary main_cst_8 (constant S_ .f32 0x42800000#32),
    StableHlo.unary main_cst_8 main_v39 (broadcastInDim S80x128 ![] bcast_S_S80x128 : (⟨S_, .f32⟩ : BufTy).Contents (Elt F) → (⟨S80x128, .f32⟩ : BufTy).Contents (Elt F)),
    StableHlo.binary main_v38 main_v39 main_v40 (Host.divf : (⟨S80x128, .f32⟩ : BufTy).Contents (Elt F) → (⟨S80x128, .f32⟩ : BufTy).Contents (Elt F) → (⟨S80x128, .f32⟩ : BufTy).Contents (Elt F)),
    StableHlo.binary main_v40 main_arg5 main_v41 (subf : (⟨S80x128, .f32⟩ : BufTy).Contents (Elt F) → (⟨S80x128, .f32⟩ : BufTy).Contents (Elt F) → (⟨S80x128, .f32⟩ : BufTy).Contents (Elt F)),
    StableHlo.binary main_arg5 main_v41 main_v42 (addf : (⟨S80x128, .f32⟩ : BufTy).Contents (Elt F) → (⟨S80x128, .f32⟩ : BufTy).Contents (Elt F) → (⟨S80x128, .f32⟩ : BufTy).Contents (Elt F)),
    StableHlo.nullary main_cst_9 (constant S_ .f32 0x45FE0000#32),
    StableHlo.unary main_cst_9 main_v43 (broadcastInDim S80 ![] bcast_S_S80 : (⟨S_, .f32⟩ : BufTy).Contents (Elt F) → (⟨S80, .f32⟩ : BufTy).Contents (Elt F)),
    StableHlo.binary main_arg6 main_v43 main_v44 (mulf : (⟨S80, .f32⟩ : BufTy).Contents (Elt F) → (⟨S80, .f32⟩ : BufTy).Contents (Elt F) → (⟨S80, .f32⟩ : BufTy).Contents (Elt F)),
    StableHlo.TRef.unary (TRef.of main_v44 : StableHlo.TRef sig ⟨S80, .f32⟩) main_call4.v0 Host.roundeven,
    StableHlo.nullary main_cst_10 (constant S_ .f32 0x45FE0000#32),
    StableHlo.unary main_cst_10 main_v46 (broadcastInDim S80 ![] bcast_S_S80 : (⟨S_, .f32⟩ : BufTy).Contents (Elt F) → (⟨S80, .f32⟩ : BufTy).Contents (Elt F)),
    StableHlo.binary main_v45 main_v46 main_v47 (Host.divf : (⟨S80, .f32⟩ : BufTy).Contents (Elt F) → (⟨S80, .f32⟩ : BufTy).Contents (Elt F) → (⟨S80, .f32⟩ : BufTy).Contents (Elt F)),
    StableHlo.binary main_v47 main_arg6 main_v48 (subf : (⟨S80, .f32⟩ : BufTy).Contents (Elt F) → (⟨S80, .f32⟩ : BufTy).Contents (Elt F) → (⟨S80, .f32⟩ : BufTy).Contents (Elt F)),
    StableHlo.binary main_arg6 main_v48 main_v49 (addf : (⟨S80, .f32⟩ : BufTy).Contents (Elt F) → (⟨S80, .f32⟩ : BufTy).Contents (Elt F) → (⟨S80, .f32⟩ : BufTy).Contents (Elt F)),
    StableHlo.unary main_v42 main_v50 ((transpose S128x80 [1, 0] · transposes_S80x128_S128x80_1_0) : (⟨S80x128, .f32⟩ : BufTy).Contents (Elt F) → (⟨S128x80, .f32⟩ : BufTy).Contents (Elt F)),
    StableHlo.binary main_arg1 main_v50 main_v51 ((fun l r => Host.dotGeneral dot_S131072x128_S128x80_S131072x80_1_0_0_1_n_n none l r) : (⟨S131072x128, .f32⟩ : BufTy).Contents (Elt F) → (⟨S128x80, .f32⟩ : BufTy).Contents (Elt F) → (⟨S131072x80, .f32⟩ : BufTy).Contents (Elt F)),
    StableHlo.unary main_v49 main_v52 (broadcastInDim S1x80 ![1] bcast_S80_S1x80_1 : (⟨S80, .f32⟩ : BufTy).Contents (Elt F) → (⟨S1x80, .f32⟩ : BufTy).Contents (Elt F)),
    StableHlo.unary main_v52 main_v53 (broadcastInDim S131072x80 ![0, 1] bcast_S1x80_S131072x80_0_1 : (⟨S1x80, .f32⟩ : BufTy).Contents (Elt F) → (⟨S131072x80, .f32⟩ : BufTy).Contents (Elt F)),
    StableHlo.binary main_v51 main_v53 main_v54 (addf : (⟨S131072x80, .f32⟩ : BufTy).Contents (Elt F) → (⟨S131072x80, .f32⟩ : BufTy).Contents (Elt F) → (⟨S131072x80, .f32⟩ : BufTy).Contents (Elt F)),
    StableHlo.reshape main_v54 main_v55 rfl shapeCasts_S131072x80_S131072x10x8,
    StableHlo.nullary main_c_11 (constantI S_ 32 0#32),
    StableHlo.unary main_c_11 main_v56 (broadcastInDim S131072 ![] bcast_S_S131072 : (⟨S_, .i32⟩ : BufTy).Contents (Elt F) → (⟨S131072, .i32⟩ : BufTy).Contents (Elt F)),
    StableHlo.binary main_v1 main_v56 main_v57 (cmpi .slt : (⟨S131072, .i32⟩ : BufTy).Contents (Elt F) → (⟨S131072, .i32⟩ : BufTy).Contents (Elt F) → (⟨S131072, .i1⟩ : BufTy).Contents (Elt F)),
    StableHlo.nullary main_c_12 (constantI S_ 32 131072#32),
    StableHlo.unary main_c_12 main_v58 (broadcastInDim S131072 ![] bcast_S_S131072 : (⟨S_, .i32⟩ : BufTy).Contents (Elt F) → (⟨S131072, .i32⟩ : BufTy).Contents (Elt F)),
    StableHlo.binary main_v1 main_v58 main_v59 (addi : (⟨S131072, .i32⟩ : BufTy).Contents (Elt F) → (⟨S131072, .i32⟩ : BufTy).Contents (Elt F) → (⟨S131072, .i32⟩ : BufTy).Contents (Elt F)),
    StableHlo.ternary main_v57 main_v59 main_v1 main_v60 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_13 (constantI S_ 32 0#32),
    StableHlo.unary main_c_13 main_v61 (broadcastInDim S131072 ![] bcast_S_S131072 : (⟨S_, .i32⟩ : BufTy).Contents (Elt F) → (⟨S131072, .i32⟩ : BufTy).Contents (Elt F)),
    StableHlo.binary main_v0 main_v61 main_v62 (cmpi .slt : (⟨S131072, .i32⟩ : BufTy).Contents (Elt F) → (⟨S131072, .i32⟩ : BufTy).Contents (Elt F) → (⟨S131072, .i1⟩ : BufTy).Contents (Elt F)),
    StableHlo.nullary main_c_14 (constantI S_ 32 10#32),
    StableHlo.unary main_c_14 main_v63 (broadcastInDim S131072 ![] bcast_S_S131072 : (⟨S_, .i32⟩ : BufTy).Contents (Elt F) → (⟨S131072, .i32⟩ : BufTy).Contents (Elt F)),
    StableHlo.binary main_v0 main_v63 main_v64 (addi : (⟨S131072, .i32⟩ : BufTy).Contents (Elt F) → (⟨S131072, .i32⟩ : BufTy).Contents (Elt F) → (⟨S131072, .i32⟩ : BufTy).Contents (Elt F)),
    StableHlo.ternary main_v62 main_v64 main_v0 main_v65 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v60 main_v66 (broadcastInDim S131072x1 ![0] bcast_S131072_S131072x1_0 : (⟨S131072, .i32⟩ : BufTy).Contents (Elt F) → (⟨S131072x1, .i32⟩ : BufTy).Contents (Elt F)),
    StableHlo.unary main_v65 main_v67 (broadcastInDim S131072x1 ![0] bcast_S131072_S131072x1_0 : (⟨S131072, .i32⟩ : BufTy).Contents (Elt F) → (⟨S131072x1, .i32⟩ : BufTy).Contents (Elt F)),
    StableHlo.binary main_v66 main_v67 main_v68 (catIdx : (⟨S131072x1, .i32⟩ : BufTy).Contents (Elt F) → (⟨S131072x1, .i32⟩ : BufTy).Contents (Elt F) → (⟨S131072x2, .i32⟩ : BufTy).Contents (Elt F)),
    StableHlo.binary main_v55 main_v68 main_v69 ((fun x i => Host.gather gather_S131072x10x8_S131072x2_S131072x8_1_01_n_n_01_1_118 x i) : (⟨S131072x10x8, .f32⟩ : BufTy).Contents (Elt F) → (⟨S131072x2, .i32⟩ : BufTy).Contents (Elt F) → (⟨S131072x8, .f32⟩ : BufTy).Contents (Elt F)) ]

/-- The 32 second-layer inputs, clamped to [0, 1]. Operations 104 … 117 of 236. -/
abbrev cD : List (HloOp τ sig (Elt F)) :=
  [ StableHlo.binary main_v35 main_v69 main_v70 (rL1x : (⟨S131072x8, .f32⟩ : BufTy).Contents (Elt F) → (⟨S131072x8, .f32⟩ : BufTy).Contents (Elt F) → (⟨S131072x16, .f32⟩ : BufTy).Contents (Elt F)),
    StableHlo.binary main_v70 main_v70 main_v71 (mulf : (⟨S131072x16, .f32⟩ : BufTy).Contents (Elt F) → (⟨S131072x16, .f32⟩ : BufTy).Contents (Elt F) → (⟨S131072x16, .f32⟩ : BufTy).Contents (Elt F)),
    StableHlo.nullary main_cst_15 (constant S_ .f32 0x3F7E0000#32),
    StableHlo.unary main_cst_15 main_v72 (broadcastInDim S131072x16 ![] bcast_S_S131072x16 : (⟨S_, .f32⟩ : BufTy).Contents (Elt F) → (⟨S131072x16, .f32⟩ : BufTy).Contents (Elt F)),
    StableHlo.binary main_v71 main_v72 main_v73 (mulf : (⟨S131072x16, .f32⟩ : BufTy).Contents (Elt F) → (⟨S131072x16, .f32⟩ : BufTy).Contents (Elt F) → (⟨S131072x16, .f32⟩ : BufTy).Contents (Elt F)),
    StableHlo.binary main_v73 main_v70 main_v74 (catRows : (⟨S131072x16, .f32⟩ : BufTy).Contents (Elt F) → (⟨S131072x16, .f32⟩ : BufTy).Contents (Elt F) → (⟨S131072x32, .f32⟩ : BufTy).Contents (Elt F)),
    StableHlo.nullary main_cst_16 (constant S_ .f32 0x00000000#32),
    StableHlo.nullary main_cst_17 (constant S_ .f32 0x3F800000#32),
    StableHlo.TRef.unary (TRef.of main_cst_16 : StableHlo.TRef sig ⟨S_, .f32⟩) main_call5.v0 id,
    StableHlo.TRef.unary main_call5.v0 main_call5.v1 (broadcastInDim S131072x32 ![] bcast_S_S131072x32),
    StableHlo.TRef.binary main_call5.v1 (TRef.of main_v74 : StableHlo.TRef sig ⟨S131072x32, .f32⟩) main_call5.v2 maximumf,
    StableHlo.TRef.unary (TRef.of main_cst_17 : StableHlo.TRef sig ⟨S_, .f32⟩) main_call5.v3 id,
    StableHlo.TRef.unary main_call5.v3 main_call5.v4 (broadcastInDim S131072x32 ![] bcast_S_S131072x32),
    StableHlo.TRef.binary main_call5.v4 main_call5.v2 main_call5.v5 minimumf ]

/-- The clamped inputs rounded down to the grid of step 1/127. Operations 118 … 126 of 236. -/
abbrev cE : List (HloOp τ sig (Elt F)) :=
  [ StableHlo.nullary main_cst_18 (constant S_ .f32 0x42FE0000#32),
    StableHlo.unary main_cst_18 main_v76 (broadcastInDim S131072x32 ![] bcast_S_S131072x32 : (⟨S_, .f32⟩ : BufTy).Contents (Elt F) → (⟨S131072x32, .f32⟩ : BufTy).Contents (Elt F)),
    StableHlo.binary main_v75 main_v76 main_v77 (mulf : (⟨S131072x32, .f32⟩ : BufTy).Contents (Elt F) → (⟨S131072x32, .f32⟩ : BufTy).Contents (Elt F) → (⟨S131072x32, .f32⟩ : BufTy).Contents (Elt F)),
    StableHlo.unary main_v77 main_v78 (Host.floor : (⟨S131072x32, .f32⟩ : BufTy).Contents (Elt F) → (⟨S131072x32, .f32⟩ : BufTy).Contents (Elt F)),
    StableHlo.nullary main_cst_19 (constant S_ .f32 0x42FE0000#32),
    StableHlo.unary main_cst_19 main_v79 (broadcastInDim S131072x32 ![] bcast_S_S131072x32 : (⟨S_, .f32⟩ : BufTy).Contents (Elt F) → (⟨S131072x32, .f32⟩ : BufTy).Contents (Elt F)),
    StableHlo.binary main_v78 main_v79 main_v80 (Host.divf : (⟨S131072x32, .f32⟩ : BufTy).Contents (Elt F) → (⟨S131072x32, .f32⟩ : BufTy).Contents (Elt F) → (⟨S131072x32, .f32⟩ : BufTy).Contents (Elt F)),
    StableHlo.binary main_v80 main_v75 main_v81 (subf : (⟨S131072x32, .f32⟩ : BufTy).Contents (Elt F) → (⟨S131072x32, .f32⟩ : BufTy).Contents (Elt F) → (⟨S131072x32, .f32⟩ : BufTy).Contents (Elt F)),
    StableHlo.binary main_v75 main_v81 main_v82 (addf : (⟨S131072x32, .f32⟩ : BufTy).Contents (Elt F) → (⟨S131072x32, .f32⟩ : BufTy).Contents (Elt F) → (⟨S131072x32, .f32⟩ : BufTy).Contents (Elt F)) ]

/-- The second layer and each sample's bucket of it. Operations 127 … 168 of 236. -/
abbrev cF : List (HloOp τ sig (Elt F)) :=
  [ StableHlo.nullary main_cst_20 (constant S_ .f32 0x42800000#32),
    StableHlo.unary main_cst_20 main_v83 (broadcastInDim S640x32 ![] bcast_S_S640x32 : (⟨S_, .f32⟩ : BufTy).Contents (Elt F) → (⟨S640x32, .f32⟩ : BufTy).Contents (Elt F)),
    StableHlo.binary main_arg7 main_v83 main_v84 (mulf : (⟨S640x32, .f32⟩ : BufTy).Contents (Elt F) → (⟨S640x32, .f32⟩ : BufTy).Contents (Elt F) → (⟨S640x32, .f32⟩ : BufTy).Contents (Elt F)),
    StableHlo.TRef.unary (TRef.of main_v84 : StableHlo.TRef sig ⟨S640x32, .f32⟩) main_call6.v0 Host.roundeven,
    StableHlo.nullary main_cst_21 (constant S_ .f32 0x42800000#32),
    StableHlo.unary main_cst_21 main_v86 (broadcastInDim S640x32 ![] bcast_S_S640x32 : (⟨S_, .f32⟩ : BufTy).Contents (Elt F) → (⟨S640x32, .f32⟩ : BufTy).Contents (Elt F)),
    StableHlo.binary main_v85 main_v86 main_v87 (Host.divf : (⟨S640x32, .f32⟩ : BufTy).Contents (Elt F) → (⟨S640x32, .f32⟩ : BufTy).Contents (Elt F) → (⟨S640x32, .f32⟩ : BufTy).Contents (Elt F)),
    StableHlo.binary main_v87 main_arg7 main_v88 (subf : (⟨S640x32, .f32⟩ : BufTy).Contents (Elt F) → (⟨S640x32, .f32⟩ : BufTy).Contents (Elt F) → (⟨S640x32, .f32⟩ : BufTy).Contents (Elt F)),
    StableHlo.binary main_arg7 main_v88 main_v89 (addf : (⟨S640x32, .f32⟩ : BufTy).Contents (Elt F) → (⟨S640x32, .f32⟩ : BufTy).Contents (Elt F) → (⟨S640x32, .f32⟩ : BufTy).Contents (Elt F)),
    StableHlo.nullary main_cst_22 (constant S_ .f32 0x45FE0000#32),
    StableHlo.unary main_cst_22 main_v90 (broadcastInDim S640 ![] bcast_S_S640 : (⟨S_, .f32⟩ : BufTy).Contents (Elt F) → (⟨S640, .f32⟩ : BufTy).Contents (Elt F)),
    StableHlo.binary main_arg8 main_v90 main_v91 (mulf : (⟨S640, .f32⟩ : BufTy).Contents (Elt F) → (⟨S640, .f32⟩ : BufTy).Contents (Elt F) → (⟨S640, .f32⟩ : BufTy).Contents (Elt F)),
    StableHlo.TRef.unary (TRef.of main_v91 : StableHlo.TRef sig ⟨S640, .f32⟩) main_call7.v0 Host.roundeven,
    StableHlo.nullary main_cst_23 (constant S_ .f32 0x45FE0000#32),
    StableHlo.unary main_cst_23 main_v93 (broadcastInDim S640 ![] bcast_S_S640 : (⟨S_, .f32⟩ : BufTy).Contents (Elt F) → (⟨S640, .f32⟩ : BufTy).Contents (Elt F)),
    StableHlo.binary main_v92 main_v93 main_v94 (Host.divf : (⟨S640, .f32⟩ : BufTy).Contents (Elt F) → (⟨S640, .f32⟩ : BufTy).Contents (Elt F) → (⟨S640, .f32⟩ : BufTy).Contents (Elt F)),
    StableHlo.binary main_v94 main_arg8 main_v95 (subf : (⟨S640, .f32⟩ : BufTy).Contents (Elt F) → (⟨S640, .f32⟩ : BufTy).Contents (Elt F) → (⟨S640, .f32⟩ : BufTy).Contents (Elt F)),
    StableHlo.binary main_arg8 main_v95 main_v96 (addf : (⟨S640, .f32⟩ : BufTy).Contents (Elt F) → (⟨S640, .f32⟩ : BufTy).Contents (Elt F) → (⟨S640, .f32⟩ : BufTy).Contents (Elt F)),
    StableHlo.unary main_v89 main_v97 ((transpose S32x640 [1, 0] · transposes_S640x32_S32x640_1_0) : (⟨S640x32, .f32⟩ : BufTy).Contents (Elt F) → (⟨S32x640, .f32⟩ : BufTy).Contents (Elt F)),
    StableHlo.binary main_v82 main_v97 main_v98 ((fun l r => Host.dotGeneral dot_S131072x32_S32x640_S131072x640_1_0_0_1_n_n none l r) : (⟨S131072x32, .f32⟩ : BufTy).Contents (Elt F) → (⟨S32x640, .f32⟩ : BufTy).Contents (Elt F) → (⟨S131072x640, .f32⟩ : BufTy).Contents (Elt F)),
    StableHlo.unary main_v96 main_v99 (broadcastInDim S1x640 ![1] bcast_S640_S1x640_1 : (⟨S640, .f32⟩ : BufTy).Contents (Elt F) → (⟨S1x640, .f32⟩ : BufTy).Contents (Elt F)),
    StableHlo.unary main_v99 main_v100 (broadcastInDim S131072x640 ![0, 1] bcast_S1x640_S131072x640_0_1 : (⟨S1x640, .f32⟩ : BufTy).Contents (Elt F) → (⟨S131072x640, .f32⟩ : BufTy).Contents (Elt F)),
    StableHlo.binary main_v98 main_v100 main_v101 (addf : (⟨S131072x640, .f32⟩ : BufTy).Contents (Elt F) → (⟨S131072x640, .f32⟩ : BufTy).Contents (Elt F) → (⟨S131072x640, .f32⟩ : BufTy).Contents (Elt F)),
    StableHlo.reshape main_v101 main_v102 rfl shapeCasts_S131072x640_S131072x10x64,
    StableHlo.nullary main_c_24 (constantI S_ 32 0#32),
    StableHlo.unary main_c_24 main_v103 (broadcastInDim S131072 ![] bcast_S_S131072 : (⟨S_, .i32⟩ : BufTy).Contents (Elt F) → (⟨S131072, .i32⟩ : BufTy).Contents (Elt F)),
    StableHlo.binary main_v1 main_v103 main_v104 (cmpi .slt : (⟨S131072, .i32⟩ : BufTy).Contents (Elt F) → (⟨S131072, .i32⟩ : BufTy).Contents (Elt F) → (⟨S131072, .i1⟩ : BufTy).Contents (Elt F)),
    StableHlo.nullary main_c_25 (constantI S_ 32 131072#32),
    StableHlo.unary main_c_25 main_v105 (broadcastInDim S131072 ![] bcast_S_S131072 : (⟨S_, .i32⟩ : BufTy).Contents (Elt F) → (⟨S131072, .i32⟩ : BufTy).Contents (Elt F)),
    StableHlo.binary main_v1 main_v105 main_v106 (addi : (⟨S131072, .i32⟩ : BufTy).Contents (Elt F) → (⟨S131072, .i32⟩ : BufTy).Contents (Elt F) → (⟨S131072, .i32⟩ : BufTy).Contents (Elt F)),
    StableHlo.ternary main_v104 main_v106 main_v1 main_v107 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_26 (constantI S_ 32 0#32),
    StableHlo.unary main_c_26 main_v108 (broadcastInDim S131072 ![] bcast_S_S131072 : (⟨S_, .i32⟩ : BufTy).Contents (Elt F) → (⟨S131072, .i32⟩ : BufTy).Contents (Elt F)),
    StableHlo.binary main_v0 main_v108 main_v109 (cmpi .slt : (⟨S131072, .i32⟩ : BufTy).Contents (Elt F) → (⟨S131072, .i32⟩ : BufTy).Contents (Elt F) → (⟨S131072, .i1⟩ : BufTy).Contents (Elt F)),
    StableHlo.nullary main_c_27 (constantI S_ 32 10#32),
    StableHlo.unary main_c_27 main_v110 (broadcastInDim S131072 ![] bcast_S_S131072 : (⟨S_, .i32⟩ : BufTy).Contents (Elt F) → (⟨S131072, .i32⟩ : BufTy).Contents (Elt F)),
    StableHlo.binary main_v0 main_v110 main_v111 (addi : (⟨S131072, .i32⟩ : BufTy).Contents (Elt F) → (⟨S131072, .i32⟩ : BufTy).Contents (Elt F) → (⟨S131072, .i32⟩ : BufTy).Contents (Elt F)),
    StableHlo.ternary main_v109 main_v111 main_v0 main_v112 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v107 main_v113 (broadcastInDim S131072x1 ![0] bcast_S131072_S131072x1_0 : (⟨S131072, .i32⟩ : BufTy).Contents (Elt F) → (⟨S131072x1, .i32⟩ : BufTy).Contents (Elt F)),
    StableHlo.unary main_v112 main_v114 (broadcastInDim S131072x1 ![0] bcast_S131072_S131072x1_0 : (⟨S131072, .i32⟩ : BufTy).Contents (Elt F) → (⟨S131072x1, .i32⟩ : BufTy).Contents (Elt F)),
    StableHlo.binary main_v113 main_v114 main_v115 (catIdx : (⟨S131072x1, .i32⟩ : BufTy).Contents (Elt F) → (⟨S131072x1, .i32⟩ : BufTy).Contents (Elt F) → (⟨S131072x2, .i32⟩ : BufTy).Contents (Elt F)),
    StableHlo.binary main_v102 main_v115 main_v116 ((fun x i => Host.gather gather_S131072x10x64_S131072x2_S131072x64_1_01_n_n_01_1_1164 x i) : (⟨S131072x10x64, .f32⟩ : BufTy).Contents (Elt F) → (⟨S131072x2, .i32⟩ : BufTy).Contents (Elt F) → (⟨S131072x64, .f32⟩ : BufTy).Contents (Elt F)) ]

/-- The 64 output-layer inputs: clamped, then rounded down to the grid of step 1/127. Operations 169 … 185 of 236. -/
abbrev cG : List (HloOp τ sig (Elt F)) :=
  [ StableHlo.nullary main_cst_28 (constant S_ .f32 0x00000000#32),
    StableHlo.nullary main_cst_29 (constant S_ .f32 0x3F800000#32),
    StableHlo.TRef.unary (TRef.of main_cst_28 : StableHlo.TRef sig ⟨S_, .f32⟩) main_call8.v0 id,
    StableHlo.TRef.unary main_call8.v0 main_call8.v1 (broadcastInDim S131072x64 ![] bcast_S_S131072x64),
    StableHlo.TRef.binary main_call8.v1 (TRef.of main_v116 : StableHlo.TRef sig ⟨S131072x64, .f32⟩) main_call8.v2 maximumf,
    StableHlo.TRef.unary (TRef.of main_cst_29 : StableHlo.TRef sig ⟨S_, .f32⟩) main_call8.v3 id,
    StableHlo.TRef.unary main_call8.v3 main_call8.v4 (broadcastInDim S131072x64 ![] bcast_S_S131072x64),
    StableHlo.TRef.binary main_call8.v4 main_call8.v2 main_call8.v5 minimumf,
    StableHlo.nullary main_cst_30 (constant S_ .f32 0x42FE0000#32),
    StableHlo.unary main_cst_30 main_v118 (broadcastInDim S131072x64 ![] bcast_S_S131072x64 : (⟨S_, .f32⟩ : BufTy).Contents (Elt F) → (⟨S131072x64, .f32⟩ : BufTy).Contents (Elt F)),
    StableHlo.binary main_v117 main_v118 main_v119 (mulf : (⟨S131072x64, .f32⟩ : BufTy).Contents (Elt F) → (⟨S131072x64, .f32⟩ : BufTy).Contents (Elt F) → (⟨S131072x64, .f32⟩ : BufTy).Contents (Elt F)),
    StableHlo.unary main_v119 main_v120 (Host.floor : (⟨S131072x64, .f32⟩ : BufTy).Contents (Elt F) → (⟨S131072x64, .f32⟩ : BufTy).Contents (Elt F)),
    StableHlo.nullary main_cst_31 (constant S_ .f32 0x42FE0000#32),
    StableHlo.unary main_cst_31 main_v121 (broadcastInDim S131072x64 ![] bcast_S_S131072x64 : (⟨S_, .f32⟩ : BufTy).Contents (Elt F) → (⟨S131072x64, .f32⟩ : BufTy).Contents (Elt F)),
    StableHlo.binary main_v120 main_v121 main_v122 (Host.divf : (⟨S131072x64, .f32⟩ : BufTy).Contents (Elt F) → (⟨S131072x64, .f32⟩ : BufTy).Contents (Elt F) → (⟨S131072x64, .f32⟩ : BufTy).Contents (Elt F)),
    StableHlo.binary main_v122 main_v117 main_v123 (subf : (⟨S131072x64, .f32⟩ : BufTy).Contents (Elt F) → (⟨S131072x64, .f32⟩ : BufTy).Contents (Elt F) → (⟨S131072x64, .f32⟩ : BufTy).Contents (Elt F)),
    StableHlo.binary main_v117 main_v123 main_v124 (addf : (⟨S131072x64, .f32⟩ : BufTy).Contents (Elt F) → (⟨S131072x64, .f32⟩ : BufTy).Contents (Elt F) → (⟨S131072x64, .f32⟩ : BufTy).Contents (Elt F)) ]

/-- The output layer and each sample's bucket of it. Operations 186 … 227 of 236. -/
abbrev cH : List (HloOp τ sig (Elt F)) :=
  [ StableHlo.nullary main_cst_32 (constant S_ .f32 0x42972E5D#32),
    StableHlo.unary main_cst_32 main_v125 (broadcastInDim S10x64 ![] bcast_S_S10x64 : (⟨S_, .f32⟩ : BufTy).Contents (Elt F) → (⟨S10x64, .f32⟩ : BufTy).Contents (Elt F)),
    StableHlo.binary main_arg9 main_v125 main_v126 (mulf : (⟨S10x64, .f32⟩ : BufTy).Contents (Elt F) → (⟨S10x64, .f32⟩ : BufTy).Contents (Elt F) → (⟨S10x64, .f32⟩ : BufTy).Contents (Elt F)),
    StableHlo.TRef.unary (TRef.of main_v126 : StableHlo.TRef sig ⟨S10x64, .f32⟩) main_call9.v0 Host.roundeven,
    StableHlo.nullary main_cst_33 (constant S_ .f32 0x42972E5D#32),
    StableHlo.unary main_cst_33 main_v128 (broadcastInDim S10x64 ![] bcast_S_S10x64 : (⟨S_, .f32⟩ : BufTy).Contents (Elt F) → (⟨S10x64, .f32⟩ : BufTy).Contents (Elt F)),
    StableHlo.binary main_v127 main_v128 main_v129 (Host.divf : (⟨S10x64, .f32⟩ : BufTy).Contents (Elt F) → (⟨S10x64, .f32⟩ : BufTy).Contents (Elt F) → (⟨S10x64, .f32⟩ : BufTy).Contents (Elt F)),
    StableHlo.binary main_v129 main_arg9 main_v130 (subf : (⟨S10x64, .f32⟩ : BufTy).Contents (Elt F) → (⟨S10x64, .f32⟩ : BufTy).Contents (Elt F) → (⟨S10x64, .f32⟩ : BufTy).Contents (Elt F)),
    StableHlo.binary main_arg9 main_v130 main_v131 (addf : (⟨S10x64, .f32⟩ : BufTy).Contents (Elt F) → (⟨S10x64, .f32⟩ : BufTy).Contents (Elt F) → (⟨S10x64, .f32⟩ : BufTy).Contents (Elt F)),
    StableHlo.nullary main_cst_34 (constant S_ .f32 0x46160000#32),
    StableHlo.unary main_cst_34 main_v132 (broadcastInDim S10 ![] bcast_S_S10 : (⟨S_, .f32⟩ : BufTy).Contents (Elt F) → (⟨S10, .f32⟩ : BufTy).Contents (Elt F)),
    StableHlo.binary main_arg10 main_v132 main_v133 (mulf : (⟨S10, .f32⟩ : BufTy).Contents (Elt F) → (⟨S10, .f32⟩ : BufTy).Contents (Elt F) → (⟨S10, .f32⟩ : BufTy).Contents (Elt F)),
    StableHlo.TRef.unary (TRef.of main_v133 : StableHlo.TRef sig ⟨S10, .f32⟩) main_call10.v0 Host.roundeven,
    StableHlo.nullary main_cst_35 (constant S_ .f32 0x46160000#32),
    StableHlo.unary main_cst_35 main_v135 (broadcastInDim S10 ![] bcast_S_S10 : (⟨S_, .f32⟩ : BufTy).Contents (Elt F) → (⟨S10, .f32⟩ : BufTy).Contents (Elt F)),
    StableHlo.binary main_v134 main_v135 main_v136 (Host.divf : (⟨S10, .f32⟩ : BufTy).Contents (Elt F) → (⟨S10, .f32⟩ : BufTy).Contents (Elt F) → (⟨S10, .f32⟩ : BufTy).Contents (Elt F)),
    StableHlo.binary main_v136 main_arg10 main_v137 (subf : (⟨S10, .f32⟩ : BufTy).Contents (Elt F) → (⟨S10, .f32⟩ : BufTy).Contents (Elt F) → (⟨S10, .f32⟩ : BufTy).Contents (Elt F)),
    StableHlo.binary main_arg10 main_v137 main_v138 (addf : (⟨S10, .f32⟩ : BufTy).Contents (Elt F) → (⟨S10, .f32⟩ : BufTy).Contents (Elt F) → (⟨S10, .f32⟩ : BufTy).Contents (Elt F)),
    StableHlo.unary main_v131 main_v139 ((transpose S64x10 [1, 0] · transposes_S10x64_S64x10_1_0) : (⟨S10x64, .f32⟩ : BufTy).Contents (Elt F) → (⟨S64x10, .f32⟩ : BufTy).Contents (Elt F)),
    StableHlo.binary main_v124 main_v139 main_v140 ((fun l r => Host.dotGeneral dot_S131072x64_S64x10_S131072x10_1_0_0_1_n_n none l r) : (⟨S131072x64, .f32⟩ : BufTy).Contents (Elt F) → (⟨S64x10, .f32⟩ : BufTy).Contents (Elt F) → (⟨S131072x10, .f32⟩ : BufTy).Contents (Elt F)),
    StableHlo.unary main_v138 main_v141 (broadcastInDim S1x10 ![1] bcast_S10_S1x10_1 : (⟨S10, .f32⟩ : BufTy).Contents (Elt F) → (⟨S1x10, .f32⟩ : BufTy).Contents (Elt F)),
    StableHlo.unary main_v141 main_v142 (broadcastInDim S131072x10 ![0, 1] bcast_S1x10_S131072x10_0_1 : (⟨S1x10, .f32⟩ : BufTy).Contents (Elt F) → (⟨S131072x10, .f32⟩ : BufTy).Contents (Elt F)),
    StableHlo.binary main_v140 main_v142 main_v143 (addf : (⟨S131072x10, .f32⟩ : BufTy).Contents (Elt F) → (⟨S131072x10, .f32⟩ : BufTy).Contents (Elt F) → (⟨S131072x10, .f32⟩ : BufTy).Contents (Elt F)),
    StableHlo.reshape main_v143 main_v144 rfl shapeCasts_S131072x10_S131072x10x1,
    StableHlo.nullary main_c_36 (constantI S_ 32 0#32),
    StableHlo.unary main_c_36 main_v145 (broadcastInDim S131072 ![] bcast_S_S131072 : (⟨S_, .i32⟩ : BufTy).Contents (Elt F) → (⟨S131072, .i32⟩ : BufTy).Contents (Elt F)),
    StableHlo.binary main_v1 main_v145 main_v146 (cmpi .slt : (⟨S131072, .i32⟩ : BufTy).Contents (Elt F) → (⟨S131072, .i32⟩ : BufTy).Contents (Elt F) → (⟨S131072, .i1⟩ : BufTy).Contents (Elt F)),
    StableHlo.nullary main_c_37 (constantI S_ 32 131072#32),
    StableHlo.unary main_c_37 main_v147 (broadcastInDim S131072 ![] bcast_S_S131072 : (⟨S_, .i32⟩ : BufTy).Contents (Elt F) → (⟨S131072, .i32⟩ : BufTy).Contents (Elt F)),
    StableHlo.binary main_v1 main_v147 main_v148 (addi : (⟨S131072, .i32⟩ : BufTy).Contents (Elt F) → (⟨S131072, .i32⟩ : BufTy).Contents (Elt F) → (⟨S131072, .i32⟩ : BufTy).Contents (Elt F)),
    StableHlo.ternary main_v146 main_v148 main_v1 main_v149 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_38 (constantI S_ 32 0#32),
    StableHlo.unary main_c_38 main_v150 (broadcastInDim S131072 ![] bcast_S_S131072 : (⟨S_, .i32⟩ : BufTy).Contents (Elt F) → (⟨S131072, .i32⟩ : BufTy).Contents (Elt F)),
    StableHlo.binary main_v0 main_v150 main_v151 (cmpi .slt : (⟨S131072, .i32⟩ : BufTy).Contents (Elt F) → (⟨S131072, .i32⟩ : BufTy).Contents (Elt F) → (⟨S131072, .i1⟩ : BufTy).Contents (Elt F)),
    StableHlo.nullary main_c_39 (constantI S_ 32 10#32),
    StableHlo.unary main_c_39 main_v152 (broadcastInDim S131072 ![] bcast_S_S131072 : (⟨S_, .i32⟩ : BufTy).Contents (Elt F) → (⟨S131072, .i32⟩ : BufTy).Contents (Elt F)),
    StableHlo.binary main_v0 main_v152 main_v153 (addi : (⟨S131072, .i32⟩ : BufTy).Contents (Elt F) → (⟨S131072, .i32⟩ : BufTy).Contents (Elt F) → (⟨S131072, .i32⟩ : BufTy).Contents (Elt F)),
    StableHlo.ternary main_v151 main_v153 main_v0 main_v154 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v149 main_v155 (broadcastInDim S131072x1 ![0] bcast_S131072_S131072x1_0 : (⟨S131072, .i32⟩ : BufTy).Contents (Elt F) → (⟨S131072x1, .i32⟩ : BufTy).Contents (Elt F)),
    StableHlo.unary main_v154 main_v156 (broadcastInDim S131072x1 ![0] bcast_S131072_S131072x1_0 : (⟨S131072, .i32⟩ : BufTy).Contents (Elt F) → (⟨S131072x1, .i32⟩ : BufTy).Contents (Elt F)),
    StableHlo.binary main_v155 main_v156 main_v157 (catIdx : (⟨S131072x1, .i32⟩ : BufTy).Contents (Elt F) → (⟨S131072x1, .i32⟩ : BufTy).Contents (Elt F) → (⟨S131072x2, .i32⟩ : BufTy).Contents (Elt F)),
    StableHlo.binary main_v144 main_v157 main_v158 ((fun x i => Host.gather gather_S131072x10x1_S131072x2_S131072x1_1_01_n_n_01_1_111 x i) : (⟨S131072x10x1, .f32⟩ : BufTy).Contents (Elt F) → (⟨S131072x2, .i32⟩ : BufTy).Contents (Elt F) → (⟨S131072x1, .f32⟩ : BufTy).Contents (Elt F)) ]

/-- The score rounded down to the grid of step 1/600. Operations 228 … 236 of 236. -/
abbrev cI : List (HloOp τ sig (Elt F)) :=
  [ StableHlo.nullary main_cst_40 (constant S_ .f32 0x44160000#32),
    StableHlo.unary main_cst_40 main_v159 (broadcastInDim S131072x1 ![] bcast_S_S131072x1 : (⟨S_, .f32⟩ : BufTy).Contents (Elt F) → (⟨S131072x1, .f32⟩ : BufTy).Contents (Elt F)),
    StableHlo.binary main_v158 main_v159 main_v160 (mulf : (⟨S131072x1, .f32⟩ : BufTy).Contents (Elt F) → (⟨S131072x1, .f32⟩ : BufTy).Contents (Elt F) → (⟨S131072x1, .f32⟩ : BufTy).Contents (Elt F)),
    StableHlo.unary main_v160 main_v161 (Host.floor : (⟨S131072x1, .f32⟩ : BufTy).Contents (Elt F) → (⟨S131072x1, .f32⟩ : BufTy).Contents (Elt F)),
    StableHlo.nullary main_cst_41 (constant S_ .f32 0x44160000#32),
    StableHlo.unary main_cst_41 main_v162 (broadcastInDim S131072x1 ![] bcast_S_S131072x1 : (⟨S_, .f32⟩ : BufTy).Contents (Elt F) → (⟨S131072x1, .f32⟩ : BufTy).Contents (Elt F)),
    StableHlo.binary main_v161 main_v162 main_v163 (Host.divf : (⟨S131072x1, .f32⟩ : BufTy).Contents (Elt F) → (⟨S131072x1, .f32⟩ : BufTy).Contents (Elt F) → (⟨S131072x1, .f32⟩ : BufTy).Contents (Elt F)),
    StableHlo.binary main_v163 main_v158 main_v164 (subf : (⟨S131072x1, .f32⟩ : BufTy).Contents (Elt F) → (⟨S131072x1, .f32⟩ : BufTy).Contents (Elt F) → (⟨S131072x1, .f32⟩ : BufTy).Contents (Elt F)),
    StableHlo.binary main_v158 main_v164 main_v165 (addf : (⟨S131072x1, .f32⟩ : BufTy).Contents (Elt F) → (⟨S131072x1, .f32⟩ : BufTy).Contents (Elt F) → (⟨S131072x1, .f32⟩ : BufTy).Contents (Elt F)) ]

/-- The program's 236 operations in order, every call replaced by its callee's operations over the call's own buffers. -/
abbrev ops : List (HloOp τ sig (Elt F)) :=
  cA ++ (cB ++ (cC ++ (cD ++ (cE ++ (cF ++ (cG ++ (cH ++ (cI))))))))

set_option maxRecDepth 16384 in
set_option maxHeartbeats 4000000 in
/-- @main is that straight line: its four windows in order, each call its callee's operations over the call's buffers. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem cA_sub : (cA : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub ..⟩
set_option maxRecDepth 8192 in
theorem cB_sub : (cB : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩
set_option maxRecDepth 8192 in
theorem cC_sub : (cC : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩
set_option maxRecDepth 8192 in
theorem cD_sub : (cD : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
set_option maxRecDepth 8192 in
theorem cE_sub : (cE : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., binary_bufs_sub ..⟩
set_option maxRecDepth 8192 in
theorem cF_sub : (cF : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩
set_option maxRecDepth 8192 in
theorem cG_sub : (cG : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub ..⟩
set_option maxRecDepth 8192 in
theorem cH_sub : (cH : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩
set_option maxRecDepth 8192 in
theorem cI_sub : (cI : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp cA_sub op h, List.forall_iff_forall_mem.mp cB_sub op h, List.forall_iff_forall_mem.mp cC_sub op h, List.forall_iff_forall_mem.mp cD_sub op h, List.forall_iff_forall_mem.mp cE_sub op h, List.forall_iff_forall_mem.mp cF_sub op h, List.forall_iff_forall_mem.mp cG_sub op h, List.forall_iff_forall_mem.mp cH_sub op h, List.forall_iff_forall_mem.mp cI_sub op h]

/-! ## The values the stretches hand on, as terms of the arguments -/

/-- `ply // 6` of the bucket argument. -/
def tLs (V : Valuation τ sig (Elt F)) : (Proc.devRef .tc main_v0 : DevRef τ sig).ty.Contents (Elt F) := rLs (V (Proc.devRef .tc main_arg2))
/-- The sample numbers 0 … 131071. -/
def tIota : IVec S131072 32 := iotaInDim S131072 32 0
/-- The gathers' start indices. -/
def tIdx (V : Valuation τ sig (Elt F)) : IVec S131072x2 32 := rIdx (tLs V)
/-- Each sample's bucket of the base layer. -/
def t35 (V : Valuation τ sig (Elt F)) : (Proc.devRef .tc main_v35 : DevRef τ sig).ty.Contents (Elt F) := rG8 (rL1b (V (Proc.devRef .tc main_arg0)) (rQ80x257 (V (Proc.devRef .tc main_arg3))) (rQ80 (V (Proc.devRef .tc main_arg4)))) (tIdx V)
/-- Each sample's bucket of the piece-square layer. -/
def t69 (V : Valuation τ sig (Elt F)) : (Proc.devRef .tc main_v69 : DevRef τ sig).ty.Contents (Elt F) := rG8 (rL1p (V (Proc.devRef .tc main_arg1)) (rQ80x128 (V (Proc.devRef .tc main_arg5))) (rQ80 (V (Proc.devRef .tc main_arg6)))) (tIdx V)
/-- The clamped second-layer inputs. -/
def t75 (V : Valuation τ sig (Elt F)) : (Proc.devRef .tc main_v75 : DevRef τ sig).ty.Contents (Elt F) := rClip32 (rCat (t35 V) (t69 V))
/-- The second-layer inputs on the grid of step 1/127. -/
def t82 (V : Valuation τ sig (Elt F)) : (Proc.devRef .tc main_v82 : DevRef τ sig).ty.Contents (Elt F) := rQf32 (t75 V)
/-- Each sample's bucket of the second layer. -/
def t116 (V : Valuation τ sig (Elt F)) : (Proc.devRef .tc main_v116 : DevRef τ sig).ty.Contents (Elt F) := rG64 (rL2 (t82 V) (rQ640x32 (V (Proc.devRef .tc main_arg7))) (rQ640 (V (Proc.devRef .tc main_arg8)))) (tIdx V)
/-- The output-layer inputs on the grid of step 1/127. -/
def t124 (V : Valuation τ sig (Elt F)) : (Proc.devRef .tc main_v124 : DevRef τ sig).ty.Contents (Elt F) := rQf64 (rClip64 (t116 V))
/-- Each sample's bucket of the output layer. -/
def t158 (V : Valuation τ sig (Elt F)) : (Proc.devRef .tc main_v158 : DevRef τ sig).ty.Contents (Elt F) := rG1 (rL3 (t124 V) (rQ10x64 (V (Proc.devRef .tc main_arg9))) (rQ10 (V (Proc.devRef .tc main_arg10)))) (tIdx V)
/-- The score on the grid of step 1/600. -/
def t165 (V : Valuation τ sig (Elt F)) : (Proc.devRef .tc main_v165 : DevRef τ sig).ty.Contents (Elt F) := rQf1 (t158 V)

/-- The last value is the reference's composed term of the eleven arguments. -/
theorem t165_eq (V : Valuation τ sig (Elt F)) :
    t165 V = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := rfl

/-! ## Stretch A -/

/-- The buffers' contents after stretch A. -/
def vA (V : Valuation τ sig (Elt F)) : Valuation τ sig (Elt F) := after cA V
/-- The buffers stretch A writes. -/
abbrev cA_W : List (Ref sig .tc) := [main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0, main_v1]
set_option maxRecDepth 8192 in
theorem cA_writes : (cA : List (HloOp τ sig (Elt F))).Forall fun op => op.writes ⊆ (cA_W.map (Proc.devRef (τ := τ) .tc)).toFinset :=
  ⟨wsub (y := main_c) (by decide), wsub (y := main_call0_v0) (by decide), wsub (y := main_call0_v1) (by decide), wsub (y := main_call0_v2) (by decide), wsub (y := main_call0_v3) (by decide), wsub (y := main_call0_v4) (by decide), wsub (y := main_call0_v5) (by decide), wsub (y := main_call0_v6) (by decide), wsub (y := main_call0_v7) (by decide), wsub (y := main_call0_v8) (by decide), wsub (y := main_call0_c) (by decide), wsub (y := main_call0_v9) (by decide), wsub (y := main_call0_v10) (by decide), wsub (y := main_call0_v11) (by decide), wsub (y := main_call0_c_0) (by decide), wsub (y := main_call0_v12) (by decide), wsub (y := main_call0_v13) (by decide), wsub (y := main_v0) (by decide), wsub (y := main_v1) (by decide)⟩
/-- A buffer stretch A does not write keeps its contents through it. -/
theorem vA_keep (V : Valuation τ sig (Elt F)) (r : Ref sig .tc) (h : r ∉ cA_W) :
    vA V (Proc.devRef .tc r) = V (Proc.devRef .tc r) :=
  after_of_writes_sub cA _ cA_writes h
theorem vA_arg0 (V : Valuation τ sig (Elt F)) : vA V (no_index (Proc.devRef .tc main_arg0)) = V (Proc.devRef .tc main_arg0) :=
  vA_keep V main_arg0 (by decide)
theorem vA_arg1 (V : Valuation τ sig (Elt F)) : vA V (no_index (Proc.devRef .tc main_arg1)) = V (Proc.devRef .tc main_arg1) :=
  vA_keep V main_arg1 (by decide)
theorem vA_arg2 (V : Valuation τ sig (Elt F)) : vA V (no_index (Proc.devRef .tc main_arg2)) = V (Proc.devRef .tc main_arg2) :=
  vA_keep V main_arg2 (by decide)
theorem vA_arg3 (V : Valuation τ sig (Elt F)) : vA V (no_index (Proc.devRef .tc main_arg3)) = V (Proc.devRef .tc main_arg3) :=
  vA_keep V main_arg3 (by decide)
theorem vA_arg4 (V : Valuation τ sig (Elt F)) : vA V (no_index (Proc.devRef .tc main_arg4)) = V (Proc.devRef .tc main_arg4) :=
  vA_keep V main_arg4 (by decide)
theorem vA_arg5 (V : Valuation τ sig (Elt F)) : vA V (no_index (Proc.devRef .tc main_arg5)) = V (Proc.devRef .tc main_arg5) :=
  vA_keep V main_arg5 (by decide)
theorem vA_arg6 (V : Valuation τ sig (Elt F)) : vA V (no_index (Proc.devRef .tc main_arg6)) = V (Proc.devRef .tc main_arg6) :=
  vA_keep V main_arg6 (by decide)
theorem vA_arg7 (V : Valuation τ sig (Elt F)) : vA V (no_index (Proc.devRef .tc main_arg7)) = V (Proc.devRef .tc main_arg7) :=
  vA_keep V main_arg7 (by decide)
theorem vA_arg8 (V : Valuation τ sig (Elt F)) : vA V (no_index (Proc.devRef .tc main_arg8)) = V (Proc.devRef .tc main_arg8) :=
  vA_keep V main_arg8 (by decide)
theorem vA_arg9 (V : Valuation τ sig (Elt F)) : vA V (no_index (Proc.devRef .tc main_arg9)) = V (Proc.devRef .tc main_arg9) :=
  vA_keep V main_arg9 (by decide)
theorem vA_arg10 (V : Valuation τ sig (Elt F)) : vA V (no_index (Proc.devRef .tc main_arg10)) = V (Proc.devRef .tc main_arg10) :=
  vA_keep V main_arg10 (by decide)
set_option maxRecDepth 8192 in
set_option maxHeartbeats 2000000 in
theorem vA_v0 (V : Valuation τ sig (Elt F)) : vA V (no_index (Proc.devRef .tc main_v0)) = tLs V := by
  unfold vA
  simp only [cA]
  after_results_simp
  rfl
set_option maxRecDepth 8192 in
set_option maxHeartbeats 2000000 in
theorem vA_v1 (V : Valuation τ sig (Elt F)) : vA V (no_index (Proc.devRef .tc main_v1)) = tIota := by
  unfold vA
  simp only [cA]
  after_results_simp
  rfl

/-! ## Stretch B -/

/-- The buffers' contents after stretch B. -/
def vB (V : Valuation τ sig (Elt F)) : Valuation τ sig (Elt F) := after cB (vA V)
/-- The buffers stretch B writes. -/
abbrev cB_W : List (Ref sig .tc) := [main_cst, main_v2, main_v3, main_v4, main_cst_0, main_v5, main_v6, main_v7, main_v8, main_cst_1, main_v9, main_v10, main_v11, main_cst_2, main_v12, main_v13, main_v14, main_v15, main_v16, main_v17, main_v18, main_v19, main_v20, main_v21, main_c_3, main_v22, main_v23, main_c_4, main_v24, main_v25, main_v26, main_c_5, main_v27, main_v28, main_c_6, main_v29, main_v30, main_v31, main_v32, main_v33, main_v34, main_v35]
set_option maxRecDepth 8192 in
theorem cB_writes : (cB : List (HloOp τ sig (Elt F))).Forall fun op => op.writes ⊆ (cB_W.map (Proc.devRef (τ := τ) .tc)).toFinset :=
  ⟨wsub (y := main_cst) (by decide), wsub (y := main_v2) (by decide), wsub (y := main_v3) (by decide), wsub (y := main_v4) (by decide), wsub (y := main_cst_0) (by decide), wsub (y := main_v5) (by decide), wsub (y := main_v6) (by decide), wsub (y := main_v7) (by decide), wsub (y := main_v8) (by decide), wsub (y := main_cst_1) (by decide), wsub (y := main_v9) (by decide), wsub (y := main_v10) (by decide), wsub (y := main_v11) (by decide), wsub (y := main_cst_2) (by decide), wsub (y := main_v12) (by decide), wsub (y := main_v13) (by decide), wsub (y := main_v14) (by decide), wsub (y := main_v15) (by decide), wsub (y := main_v16) (by decide), wsub (y := main_v17) (by decide), wsub (y := main_v18) (by decide), wsub (y := main_v19) (by decide), wsub (y := main_v20) (by decide), wsub (y := main_v21) (by decide), wsub (y := main_c_3) (by decide), wsub (y := main_v22) (by decide), wsub (y := main_v23) (by decide), wsub (y := main_c_4) (by decide), wsub (y := main_v24) (by decide), wsub (y := main_v25) (by decide), wsub (y := main_v26) (by decide), wsub (y := main_c_5) (by decide), wsub (y := main_v27) (by decide), wsub (y := main_v28) (by decide), wsub (y := main_c_6) (by decide), wsub (y := main_v29) (by decide), wsub (y := main_v30) (by decide), wsub (y := main_v31) (by decide), wsub (y := main_v32) (by decide), wsub (y := main_v33) (by decide), wsub (y := main_v34) (by decide), wsub (y := main_v35) (by decide)⟩
/-- A buffer stretch B does not write keeps its contents through it. -/
theorem vB_keep (V : Valuation τ sig (Elt F)) (r : Ref sig .tc) (h : r ∉ cB_W) :
    vB V (Proc.devRef .tc r) = (vA V) (Proc.devRef .tc r) :=
  after_of_writes_sub cB _ cB_writes h
theorem vB_arg0 (V : Valuation τ sig (Elt F)) : vB V (no_index (Proc.devRef .tc main_arg0)) = V (Proc.devRef .tc main_arg0) :=
  (vB_keep V main_arg0 (by decide)).trans (vA_arg0 V)
theorem vB_arg1 (V : Valuation τ sig (Elt F)) : vB V (no_index (Proc.devRef .tc main_arg1)) = V (Proc.devRef .tc main_arg1) :=
  (vB_keep V main_arg1 (by decide)).trans (vA_arg1 V)
theorem vB_arg2 (V : Valuation τ sig (Elt F)) : vB V (no_index (Proc.devRef .tc main_arg2)) = V (Proc.devRef .tc main_arg2) :=
  (vB_keep V main_arg2 (by decide)).trans (vA_arg2 V)
theorem vB_arg3 (V : Valuation τ sig (Elt F)) : vB V (no_index (Proc.devRef .tc main_arg3)) = V (Proc.devRef .tc main_arg3) :=
  (vB_keep V main_arg3 (by decide)).trans (vA_arg3 V)
theorem vB_arg4 (V : Valuation τ sig (Elt F)) : vB V (no_index (Proc.devRef .tc main_arg4)) = V (Proc.devRef .tc main_arg4) :=
  (vB_keep V main_arg4 (by decide)).trans (vA_arg4 V)
theorem vB_arg5 (V : Valuation τ sig (Elt F)) : vB V (no_index (Proc.devRef .tc main_arg5)) = V (Proc.devRef .tc main_arg5) :=
  (vB_keep V main_arg5 (by decide)).trans (vA_arg5 V)
theorem vB_arg6 (V : Valuation τ sig (Elt F)) : vB V (no_index (Proc.devRef .tc main_arg6)) = V (Proc.devRef .tc main_arg6) :=
  (vB_keep V main_arg6 (by decide)).trans (vA_arg6 V)
theorem vB_arg7 (V : Valuation τ sig (Elt F)) : vB V (no_index (Proc.devRef .tc main_arg7)) = V (Proc.devRef .tc main_arg7) :=
  (vB_keep V main_arg7 (by decide)).trans (vA_arg7 V)
theorem vB_arg8 (V : Valuation τ sig (Elt F)) : vB V (no_index (Proc.devRef .tc main_arg8)) = V (Proc.devRef .tc main_arg8) :=
  (vB_keep V main_arg8 (by decide)).trans (vA_arg8 V)
theorem vB_arg9 (V : Valuation τ sig (Elt F)) : vB V (no_index (Proc.devRef .tc main_arg9)) = V (Proc.devRef .tc main_arg9) :=
  (vB_keep V main_arg9 (by decide)).trans (vA_arg9 V)
theorem vB_arg10 (V : Valuation τ sig (Elt F)) : vB V (no_index (Proc.devRef .tc main_arg10)) = V (Proc.devRef .tc main_arg10) :=
  (vB_keep V main_arg10 (by decide)).trans (vA_arg10 V)
theorem vB_v0 (V : Valuation τ sig (Elt F)) : vB V (no_index (Proc.devRef .tc main_v0)) = tLs V :=
  (vB_keep V main_v0 (by decide)).trans (vA_v0 V)
theorem vB_v1 (V : Valuation τ sig (Elt F)) : vB V (no_index (Proc.devRef .tc main_v1)) = tIota :=
  (vB_keep V main_v1 (by decide)).trans (vA_v1 V)
set_option maxRecDepth 8192 in
set_option maxHeartbeats 2000000 in
theorem vB_v35 (V : Valuation τ sig (Elt F)) : vB V (no_index (Proc.devRef .tc main_v35)) = t35 V := by
  unfold vB
  simp only [cB]
  after_results_simp
  simp only [vA_arg0, vA_arg1, vA_arg2, vA_arg3, vA_arg4, vA_arg5, vA_arg6, vA_arg7, vA_arg8, vA_arg9, vA_arg10, vA_v0, vA_v1]
  rfl

/-! ## Stretch C -/

/-- The buffers' contents after stretch C. -/
def vC (V : Valuation τ sig (Elt F)) : Valuation τ sig (Elt F) := after cC (vB V)
/-- The buffers stretch C writes. -/
abbrev cC_W : List (Ref sig .tc) := [main_cst_7, main_v36, main_v37, main_v38, main_cst_8, main_v39, main_v40, main_v41, main_v42, main_cst_9, main_v43, main_v44, main_v45, main_cst_10, main_v46, main_v47, main_v48, main_v49, main_v50, main_v51, main_v52, main_v53, main_v54, main_v55, main_c_11, main_v56, main_v57, main_c_12, main_v58, main_v59, main_v60, main_c_13, main_v61, main_v62, main_c_14, main_v63, main_v64, main_v65, main_v66, main_v67, main_v68, main_v69]
set_option maxRecDepth 8192 in
theorem cC_writes : (cC : List (HloOp τ sig (Elt F))).Forall fun op => op.writes ⊆ (cC_W.map (Proc.devRef (τ := τ) .tc)).toFinset :=
  ⟨wsub (y := main_cst_7) (by decide), wsub (y := main_v36) (by decide), wsub (y := main_v37) (by decide), wsub (y := main_v38) (by decide), wsub (y := main_cst_8) (by decide), wsub (y := main_v39) (by decide), wsub (y := main_v40) (by decide), wsub (y := main_v41) (by decide), wsub (y := main_v42) (by decide), wsub (y := main_cst_9) (by decide), wsub (y := main_v43) (by decide), wsub (y := main_v44) (by decide), wsub (y := main_v45) (by decide), wsub (y := main_cst_10) (by decide), wsub (y := main_v46) (by decide), wsub (y := main_v47) (by decide), wsub (y := main_v48) (by decide), wsub (y := main_v49) (by decide), wsub (y := main_v50) (by decide), wsub (y := main_v51) (by decide), wsub (y := main_v52) (by decide), wsub (y := main_v53) (by decide), wsub (y := main_v54) (by decide), wsub (y := main_v55) (by decide), wsub (y := main_c_11) (by decide), wsub (y := main_v56) (by decide), wsub (y := main_v57) (by decide), wsub (y := main_c_12) (by decide), wsub (y := main_v58) (by decide), wsub (y := main_v59) (by decide), wsub (y := main_v60) (by decide), wsub (y := main_c_13) (by decide), wsub (y := main_v61) (by decide), wsub (y := main_v62) (by decide), wsub (y := main_c_14) (by decide), wsub (y := main_v63) (by decide), wsub (y := main_v64) (by decide), wsub (y := main_v65) (by decide), wsub (y := main_v66) (by decide), wsub (y := main_v67) (by decide), wsub (y := main_v68) (by decide), wsub (y := main_v69) (by decide)⟩
/-- A buffer stretch C does not write keeps its contents through it. -/
theorem vC_keep (V : Valuation τ sig (Elt F)) (r : Ref sig .tc) (h : r ∉ cC_W) :
    vC V (Proc.devRef .tc r) = (vB V) (Proc.devRef .tc r) :=
  after_of_writes_sub cC _ cC_writes h
theorem vC_arg0 (V : Valuation τ sig (Elt F)) : vC V (no_index (Proc.devRef .tc main_arg0)) = V (Proc.devRef .tc main_arg0) :=
  (vC_keep V main_arg0 (by decide)).trans (vB_arg0 V)
theorem vC_arg1 (V : Valuation τ sig (Elt F)) : vC V (no_index (Proc.devRef .tc main_arg1)) = V (Proc.devRef .tc main_arg1) :=
  (vC_keep V main_arg1 (by decide)).trans (vB_arg1 V)
theorem vC_arg2 (V : Valuation τ sig (Elt F)) : vC V (no_index (Proc.devRef .tc main_arg2)) = V (Proc.devRef .tc main_arg2) :=
  (vC_keep V main_arg2 (by decide)).trans (vB_arg2 V)
theorem vC_arg3 (V : Valuation τ sig (Elt F)) : vC V (no_index (Proc.devRef .tc main_arg3)) = V (Proc.devRef .tc main_arg3) :=
  (vC_keep V main_arg3 (by decide)).trans (vB_arg3 V)
theorem vC_arg4 (V : Valuation τ sig (Elt F)) : vC V (no_index (Proc.devRef .tc main_arg4)) = V (Proc.devRef .tc main_arg4) :=
  (vC_keep V main_arg4 (by decide)).trans (vB_arg4 V)
theorem vC_arg5 (V : Valuation τ sig (Elt F)) : vC V (no_index (Proc.devRef .tc main_arg5)) = V (Proc.devRef .tc main_arg5) :=
  (vC_keep V main_arg5 (by decide)).trans (vB_arg5 V)
theorem vC_arg6 (V : Valuation τ sig (Elt F)) : vC V (no_index (Proc.devRef .tc main_arg6)) = V (Proc.devRef .tc main_arg6) :=
  (vC_keep V main_arg6 (by decide)).trans (vB_arg6 V)
theorem vC_arg7 (V : Valuation τ sig (Elt F)) : vC V (no_index (Proc.devRef .tc main_arg7)) = V (Proc.devRef .tc main_arg7) :=
  (vC_keep V main_arg7 (by decide)).trans (vB_arg7 V)
theorem vC_arg8 (V : Valuation τ sig (Elt F)) : vC V (no_index (Proc.devRef .tc main_arg8)) = V (Proc.devRef .tc main_arg8) :=
  (vC_keep V main_arg8 (by decide)).trans (vB_arg8 V)
theorem vC_arg9 (V : Valuation τ sig (Elt F)) : vC V (no_index (Proc.devRef .tc main_arg9)) = V (Proc.devRef .tc main_arg9) :=
  (vC_keep V main_arg9 (by decide)).trans (vB_arg9 V)
theorem vC_arg10 (V : Valuation τ sig (Elt F)) : vC V (no_index (Proc.devRef .tc main_arg10)) = V (Proc.devRef .tc main_arg10) :=
  (vC_keep V main_arg10 (by decide)).trans (vB_arg10 V)
theorem vC_v0 (V : Valuation τ sig (Elt F)) : vC V (no_index (Proc.devRef .tc main_v0)) = tLs V :=
  (vC_keep V main_v0 (by decide)).trans (vB_v0 V)
theorem vC_v1 (V : Valuation τ sig (Elt F)) : vC V (no_index (Proc.devRef .tc main_v1)) = tIota :=
  (vC_keep V main_v1 (by decide)).trans (vB_v1 V)
theorem vC_v35 (V : Valuation τ sig (Elt F)) : vC V (no_index (Proc.devRef .tc main_v35)) = t35 V :=
  (vC_keep V main_v35 (by decide)).trans (vB_v35 V)
set_option maxRecDepth 8192 in
set_option maxHeartbeats 2000000 in
theorem vC_v69 (V : Valuation τ sig (Elt F)) : vC V (no_index (Proc.devRef .tc main_v69)) = t69 V := by
  unfold vC
  simp only [cC]
  after_results_simp
  simp only [vB_arg0, vB_arg1, vB_arg2, vB_arg3, vB_arg4, vB_arg5, vB_arg6, vB_arg7, vB_arg8, vB_arg9, vB_arg10, vB_v0, vB_v1, vB_v35]
  rfl

/-! ## Stretch D -/

/-- The buffers' contents after stretch D. -/
def vD (V : Valuation τ sig (Elt F)) : Valuation τ sig (Elt F) := after cD (vC V)
/-- The buffers stretch D writes. -/
abbrev cD_W : List (Ref sig .tc) := [main_v70, main_v71, main_cst_15, main_v72, main_v73, main_v74, main_cst_16, main_cst_17, main_call5_v0, main_call5_v1, main_call5_v2, main_call5_v3, main_call5_v4, main_v75]
set_option maxRecDepth 8192 in
theorem cD_writes : (cD : List (HloOp τ sig (Elt F))).Forall fun op => op.writes ⊆ (cD_W.map (Proc.devRef (τ := τ) .tc)).toFinset :=
  ⟨wsub (y := main_v70) (by decide), wsub (y := main_v71) (by decide), wsub (y := main_cst_15) (by decide), wsub (y := main_v72) (by decide), wsub (y := main_v73) (by decide), wsub (y := main_v74) (by decide), wsub (y := main_cst_16) (by decide), wsub (y := main_cst_17) (by decide), wsub (y := main_call5_v0) (by decide), wsub (y := main_call5_v1) (by decide), wsub (y := main_call5_v2) (by decide), wsub (y := main_call5_v3) (by decide), wsub (y := main_call5_v4) (by decide), wsub (y := main_v75) (by decide)⟩
/-- A buffer stretch D does not write keeps its contents through it. -/
theorem vD_keep (V : Valuation τ sig (Elt F)) (r : Ref sig .tc) (h : r ∉ cD_W) :
    vD V (Proc.devRef .tc r) = (vC V) (Proc.devRef .tc r) :=
  after_of_writes_sub cD _ cD_writes h
theorem vD_arg0 (V : Valuation τ sig (Elt F)) : vD V (no_index (Proc.devRef .tc main_arg0)) = V (Proc.devRef .tc main_arg0) :=
  (vD_keep V main_arg0 (by decide)).trans (vC_arg0 V)
theorem vD_arg1 (V : Valuation τ sig (Elt F)) : vD V (no_index (Proc.devRef .tc main_arg1)) = V (Proc.devRef .tc main_arg1) :=
  (vD_keep V main_arg1 (by decide)).trans (vC_arg1 V)
theorem vD_arg2 (V : Valuation τ sig (Elt F)) : vD V (no_index (Proc.devRef .tc main_arg2)) = V (Proc.devRef .tc main_arg2) :=
  (vD_keep V main_arg2 (by decide)).trans (vC_arg2 V)
theorem vD_arg3 (V : Valuation τ sig (Elt F)) : vD V (no_index (Proc.devRef .tc main_arg3)) = V (Proc.devRef .tc main_arg3) :=
  (vD_keep V main_arg3 (by decide)).trans (vC_arg3 V)
theorem vD_arg4 (V : Valuation τ sig (Elt F)) : vD V (no_index (Proc.devRef .tc main_arg4)) = V (Proc.devRef .tc main_arg4) :=
  (vD_keep V main_arg4 (by decide)).trans (vC_arg4 V)
theorem vD_arg5 (V : Valuation τ sig (Elt F)) : vD V (no_index (Proc.devRef .tc main_arg5)) = V (Proc.devRef .tc main_arg5) :=
  (vD_keep V main_arg5 (by decide)).trans (vC_arg5 V)
theorem vD_arg6 (V : Valuation τ sig (Elt F)) : vD V (no_index (Proc.devRef .tc main_arg6)) = V (Proc.devRef .tc main_arg6) :=
  (vD_keep V main_arg6 (by decide)).trans (vC_arg6 V)
theorem vD_arg7 (V : Valuation τ sig (Elt F)) : vD V (no_index (Proc.devRef .tc main_arg7)) = V (Proc.devRef .tc main_arg7) :=
  (vD_keep V main_arg7 (by decide)).trans (vC_arg7 V)
theorem vD_arg8 (V : Valuation τ sig (Elt F)) : vD V (no_index (Proc.devRef .tc main_arg8)) = V (Proc.devRef .tc main_arg8) :=
  (vD_keep V main_arg8 (by decide)).trans (vC_arg8 V)
theorem vD_arg9 (V : Valuation τ sig (Elt F)) : vD V (no_index (Proc.devRef .tc main_arg9)) = V (Proc.devRef .tc main_arg9) :=
  (vD_keep V main_arg9 (by decide)).trans (vC_arg9 V)
theorem vD_arg10 (V : Valuation τ sig (Elt F)) : vD V (no_index (Proc.devRef .tc main_arg10)) = V (Proc.devRef .tc main_arg10) :=
  (vD_keep V main_arg10 (by decide)).trans (vC_arg10 V)
theorem vD_v0 (V : Valuation τ sig (Elt F)) : vD V (no_index (Proc.devRef .tc main_v0)) = tLs V :=
  (vD_keep V main_v0 (by decide)).trans (vC_v0 V)
theorem vD_v1 (V : Valuation τ sig (Elt F)) : vD V (no_index (Proc.devRef .tc main_v1)) = tIota :=
  (vD_keep V main_v1 (by decide)).trans (vC_v1 V)
set_option maxRecDepth 8192 in
set_option maxHeartbeats 2000000 in
theorem vD_v75 (V : Valuation τ sig (Elt F)) : vD V (no_index (Proc.devRef .tc main_v75)) = t75 V := by
  unfold vD
  simp only [cD]
  after_results_simp
  simp only [vC_arg0, vC_arg1, vC_arg2, vC_arg3, vC_arg4, vC_arg5, vC_arg6, vC_arg7, vC_arg8, vC_arg9, vC_arg10, vC_v0, vC_v1, vC_v35, vC_v69]
  rfl

/-! ## Stretch E -/

/-- The buffers' contents after stretch E. -/
def vE (V : Valuation τ sig (Elt F)) : Valuation τ sig (Elt F) := after cE (vD V)
/-- The buffers stretch E writes. -/
abbrev cE_W : List (Ref sig .tc) := [main_cst_18, main_v76, main_v77, main_v78, main_cst_19, main_v79, main_v80, main_v81, main_v82]
set_option maxRecDepth 8192 in
theorem cE_writes : (cE : List (HloOp τ sig (Elt F))).Forall fun op => op.writes ⊆ (cE_W.map (Proc.devRef (τ := τ) .tc)).toFinset :=
  ⟨wsub (y := main_cst_18) (by decide), wsub (y := main_v76) (by decide), wsub (y := main_v77) (by decide), wsub (y := main_v78) (by decide), wsub (y := main_cst_19) (by decide), wsub (y := main_v79) (by decide), wsub (y := main_v80) (by decide), wsub (y := main_v81) (by decide), wsub (y := main_v82) (by decide)⟩
/-- A buffer stretch E does not write keeps its contents through it. -/
theorem vE_keep (V : Valuation τ sig (Elt F)) (r : Ref sig .tc) (h : r ∉ cE_W) :
    vE V (Proc.devRef .tc r) = (vD V) (Proc.devRef .tc r) :=
  after_of_writes_sub cE _ cE_writes h
theorem vE_arg0 (V : Valuation τ sig (Elt F)) : vE V (no_index (Proc.devRef .tc main_arg0)) = V (Proc.devRef .tc main_arg0) :=
  (vE_keep V main_arg0 (by decide)).trans (vD_arg0 V)
theorem vE_arg1 (V : Valuation τ sig (Elt F)) : vE V (no_index (Proc.devRef .tc main_arg1)) = V (Proc.devRef .tc main_arg1) :=
  (vE_keep V main_arg1 (by decide)).trans (vD_arg1 V)
theorem vE_arg2 (V : Valuation τ sig (Elt F)) : vE V (no_index (Proc.devRef .tc main_arg2)) = V (Proc.devRef .tc main_arg2) :=
  (vE_keep V main_arg2 (by decide)).trans (vD_arg2 V)
theorem vE_arg3 (V : Valuation τ sig (Elt F)) : vE V (no_index (Proc.devRef .tc main_arg3)) = V (Proc.devRef .tc main_arg3) :=
  (vE_keep V main_arg3 (by decide)).trans (vD_arg3 V)
theorem vE_arg4 (V : Valuation τ sig (Elt F)) : vE V (no_index (Proc.devRef .tc main_arg4)) = V (Proc.devRef .tc main_arg4) :=
  (vE_keep V main_arg4 (by decide)).trans (vD_arg4 V)
theorem vE_arg5 (V : Valuation τ sig (Elt F)) : vE V (no_index (Proc.devRef .tc main_arg5)) = V (Proc.devRef .tc main_arg5) :=
  (vE_keep V main_arg5 (by decide)).trans (vD_arg5 V)
theorem vE_arg6 (V : Valuation τ sig (Elt F)) : vE V (no_index (Proc.devRef .tc main_arg6)) = V (Proc.devRef .tc main_arg6) :=
  (vE_keep V main_arg6 (by decide)).trans (vD_arg6 V)
theorem vE_arg7 (V : Valuation τ sig (Elt F)) : vE V (no_index (Proc.devRef .tc main_arg7)) = V (Proc.devRef .tc main_arg7) :=
  (vE_keep V main_arg7 (by decide)).trans (vD_arg7 V)
theorem vE_arg8 (V : Valuation τ sig (Elt F)) : vE V (no_index (Proc.devRef .tc main_arg8)) = V (Proc.devRef .tc main_arg8) :=
  (vE_keep V main_arg8 (by decide)).trans (vD_arg8 V)
theorem vE_arg9 (V : Valuation τ sig (Elt F)) : vE V (no_index (Proc.devRef .tc main_arg9)) = V (Proc.devRef .tc main_arg9) :=
  (vE_keep V main_arg9 (by decide)).trans (vD_arg9 V)
theorem vE_arg10 (V : Valuation τ sig (Elt F)) : vE V (no_index (Proc.devRef .tc main_arg10)) = V (Proc.devRef .tc main_arg10) :=
  (vE_keep V main_arg10 (by decide)).trans (vD_arg10 V)
theorem vE_v0 (V : Valuation τ sig (Elt F)) : vE V (no_index (Proc.devRef .tc main_v0)) = tLs V :=
  (vE_keep V main_v0 (by decide)).trans (vD_v0 V)
theorem vE_v1 (V : Valuation τ sig (Elt F)) : vE V (no_index (Proc.devRef .tc main_v1)) = tIota :=
  (vE_keep V main_v1 (by decide)).trans (vD_v1 V)
set_option maxRecDepth 8192 in
set_option maxHeartbeats 2000000 in
theorem vE_v82 (V : Valuation τ sig (Elt F)) : vE V (no_index (Proc.devRef .tc main_v82)) = t82 V := by
  unfold vE
  simp only [cE]
  after_results_simp
  simp only [vD_arg0, vD_arg1, vD_arg2, vD_arg3, vD_arg4, vD_arg5, vD_arg6, vD_arg7, vD_arg8, vD_arg9, vD_arg10, vD_v0, vD_v1, vD_v75]
  rfl

/-! ## Stretch F -/

/-- The buffers' contents after stretch F. -/
def vF (V : Valuation τ sig (Elt F)) : Valuation τ sig (Elt F) := after cF (vE V)
/-- The buffers stretch F writes. -/
abbrev cF_W : List (Ref sig .tc) := [main_cst_20, main_v83, main_v84, main_v85, main_cst_21, main_v86, main_v87, main_v88, main_v89, main_cst_22, main_v90, main_v91, main_v92, main_cst_23, main_v93, main_v94, main_v95, main_v96, main_v97, main_v98, main_v99, main_v100, main_v101, main_v102, main_c_24, main_v103, main_v104, main_c_25, main_v105, main_v106, main_v107, main_c_26, main_v108, main_v109, main_c_27, main_v110, main_v111, main_v112, main_v113, main_v114, main_v115, main_v116]
set_option maxRecDepth 8192 in
theorem cF_writes : (cF : List (HloOp τ sig (Elt F))).Forall fun op => op.writes ⊆ (cF_W.map (Proc.devRef (τ := τ) .tc)).toFinset :=
  ⟨wsub (y := main_cst_20) (by decide), wsub (y := main_v83) (by decide), wsub (y := main_v84) (by decide), wsub (y := main_v85) (by decide), wsub (y := main_cst_21) (by decide), wsub (y := main_v86) (by decide), wsub (y := main_v87) (by decide), wsub (y := main_v88) (by decide), wsub (y := main_v89) (by decide), wsub (y := main_cst_22) (by decide), wsub (y := main_v90) (by decide), wsub (y := main_v91) (by decide), wsub (y := main_v92) (by decide), wsub (y := main_cst_23) (by decide), wsub (y := main_v93) (by decide), wsub (y := main_v94) (by decide), wsub (y := main_v95) (by decide), wsub (y := main_v96) (by decide), wsub (y := main_v97) (by decide), wsub (y := main_v98) (by decide), wsub (y := main_v99) (by decide), wsub (y := main_v100) (by decide), wsub (y := main_v101) (by decide), wsub (y := main_v102) (by decide), wsub (y := main_c_24) (by decide), wsub (y := main_v103) (by decide), wsub (y := main_v104) (by decide), wsub (y := main_c_25) (by decide), wsub (y := main_v105) (by decide), wsub (y := main_v106) (by decide), wsub (y := main_v107) (by decide), wsub (y := main_c_26) (by decide), wsub (y := main_v108) (by decide), wsub (y := main_v109) (by decide), wsub (y := main_c_27) (by decide), wsub (y := main_v110) (by decide), wsub (y := main_v111) (by decide), wsub (y := main_v112) (by decide), wsub (y := main_v113) (by decide), wsub (y := main_v114) (by decide), wsub (y := main_v115) (by decide), wsub (y := main_v116) (by decide)⟩
/-- A buffer stretch F does not write keeps its contents through it. -/
theorem vF_keep (V : Valuation τ sig (Elt F)) (r : Ref sig .tc) (h : r ∉ cF_W) :
    vF V (Proc.devRef .tc r) = (vE V) (Proc.devRef .tc r) :=
  after_of_writes_sub cF _ cF_writes h
theorem vF_arg0 (V : Valuation τ sig (Elt F)) : vF V (no_index (Proc.devRef .tc main_arg0)) = V (Proc.devRef .tc main_arg0) :=
  (vF_keep V main_arg0 (by decide)).trans (vE_arg0 V)
theorem vF_arg1 (V : Valuation τ sig (Elt F)) : vF V (no_index (Proc.devRef .tc main_arg1)) = V (Proc.devRef .tc main_arg1) :=
  (vF_keep V main_arg1 (by decide)).trans (vE_arg1 V)
theorem vF_arg2 (V : Valuation τ sig (Elt F)) : vF V (no_index (Proc.devRef .tc main_arg2)) = V (Proc.devRef .tc main_arg2) :=
  (vF_keep V main_arg2 (by decide)).trans (vE_arg2 V)
theorem vF_arg3 (V : Valuation τ sig (Elt F)) : vF V (no_index (Proc.devRef .tc main_arg3)) = V (Proc.devRef .tc main_arg3) :=
  (vF_keep V main_arg3 (by decide)).trans (vE_arg3 V)
theorem vF_arg4 (V : Valuation τ sig (Elt F)) : vF V (no_index (Proc.devRef .tc main_arg4)) = V (Proc.devRef .tc main_arg4) :=
  (vF_keep V main_arg4 (by decide)).trans (vE_arg4 V)
theorem vF_arg5 (V : Valuation τ sig (Elt F)) : vF V (no_index (Proc.devRef .tc main_arg5)) = V (Proc.devRef .tc main_arg5) :=
  (vF_keep V main_arg5 (by decide)).trans (vE_arg5 V)
theorem vF_arg6 (V : Valuation τ sig (Elt F)) : vF V (no_index (Proc.devRef .tc main_arg6)) = V (Proc.devRef .tc main_arg6) :=
  (vF_keep V main_arg6 (by decide)).trans (vE_arg6 V)
theorem vF_arg7 (V : Valuation τ sig (Elt F)) : vF V (no_index (Proc.devRef .tc main_arg7)) = V (Proc.devRef .tc main_arg7) :=
  (vF_keep V main_arg7 (by decide)).trans (vE_arg7 V)
theorem vF_arg8 (V : Valuation τ sig (Elt F)) : vF V (no_index (Proc.devRef .tc main_arg8)) = V (Proc.devRef .tc main_arg8) :=
  (vF_keep V main_arg8 (by decide)).trans (vE_arg8 V)
theorem vF_arg9 (V : Valuation τ sig (Elt F)) : vF V (no_index (Proc.devRef .tc main_arg9)) = V (Proc.devRef .tc main_arg9) :=
  (vF_keep V main_arg9 (by decide)).trans (vE_arg9 V)
theorem vF_arg10 (V : Valuation τ sig (Elt F)) : vF V (no_index (Proc.devRef .tc main_arg10)) = V (Proc.devRef .tc main_arg10) :=
  (vF_keep V main_arg10 (by decide)).trans (vE_arg10 V)
theorem vF_v0 (V : Valuation τ sig (Elt F)) : vF V (no_index (Proc.devRef .tc main_v0)) = tLs V :=
  (vF_keep V main_v0 (by decide)).trans (vE_v0 V)
theorem vF_v1 (V : Valuation τ sig (Elt F)) : vF V (no_index (Proc.devRef .tc main_v1)) = tIota :=
  (vF_keep V main_v1 (by decide)).trans (vE_v1 V)
set_option maxRecDepth 8192 in
set_option maxHeartbeats 2000000 in
theorem vF_v116 (V : Valuation τ sig (Elt F)) : vF V (no_index (Proc.devRef .tc main_v116)) = t116 V := by
  unfold vF
  simp only [cF]
  after_results_simp
  simp only [vE_arg0, vE_arg1, vE_arg2, vE_arg3, vE_arg4, vE_arg5, vE_arg6, vE_arg7, vE_arg8, vE_arg9, vE_arg10, vE_v0, vE_v1, vE_v82]
  rfl

/-! ## Stretch G -/

/-- The buffers' contents after stretch G. -/
def vG (V : Valuation τ sig (Elt F)) : Valuation τ sig (Elt F) := after cG (vF V)
/-- The buffers stretch G writes. -/
abbrev cG_W : List (Ref sig .tc) := [main_cst_28, main_cst_29, main_call8_v0, main_call8_v1, main_call8_v2, main_call8_v3, main_call8_v4, main_v117, main_cst_30, main_v118, main_v119, main_v120, main_cst_31, main_v121, main_v122, main_v123, main_v124]
set_option maxRecDepth 8192 in
theorem cG_writes : (cG : List (HloOp τ sig (Elt F))).Forall fun op => op.writes ⊆ (cG_W.map (Proc.devRef (τ := τ) .tc)).toFinset :=
  ⟨wsub (y := main_cst_28) (by decide), wsub (y := main_cst_29) (by decide), wsub (y := main_call8_v0) (by decide), wsub (y := main_call8_v1) (by decide), wsub (y := main_call8_v2) (by decide), wsub (y := main_call8_v3) (by decide), wsub (y := main_call8_v4) (by decide), wsub (y := main_v117) (by decide), wsub (y := main_cst_30) (by decide), wsub (y := main_v118) (by decide), wsub (y := main_v119) (by decide), wsub (y := main_v120) (by decide), wsub (y := main_cst_31) (by decide), wsub (y := main_v121) (by decide), wsub (y := main_v122) (by decide), wsub (y := main_v123) (by decide), wsub (y := main_v124) (by decide)⟩
/-- A buffer stretch G does not write keeps its contents through it. -/
theorem vG_keep (V : Valuation τ sig (Elt F)) (r : Ref sig .tc) (h : r ∉ cG_W) :
    vG V (Proc.devRef .tc r) = (vF V) (Proc.devRef .tc r) :=
  after_of_writes_sub cG _ cG_writes h
theorem vG_arg0 (V : Valuation τ sig (Elt F)) : vG V (no_index (Proc.devRef .tc main_arg0)) = V (Proc.devRef .tc main_arg0) :=
  (vG_keep V main_arg0 (by decide)).trans (vF_arg0 V)
theorem vG_arg1 (V : Valuation τ sig (Elt F)) : vG V (no_index (Proc.devRef .tc main_arg1)) = V (Proc.devRef .tc main_arg1) :=
  (vG_keep V main_arg1 (by decide)).trans (vF_arg1 V)
theorem vG_arg2 (V : Valuation τ sig (Elt F)) : vG V (no_index (Proc.devRef .tc main_arg2)) = V (Proc.devRef .tc main_arg2) :=
  (vG_keep V main_arg2 (by decide)).trans (vF_arg2 V)
theorem vG_arg3 (V : Valuation τ sig (Elt F)) : vG V (no_index (Proc.devRef .tc main_arg3)) = V (Proc.devRef .tc main_arg3) :=
  (vG_keep V main_arg3 (by decide)).trans (vF_arg3 V)
theorem vG_arg4 (V : Valuation τ sig (Elt F)) : vG V (no_index (Proc.devRef .tc main_arg4)) = V (Proc.devRef .tc main_arg4) :=
  (vG_keep V main_arg4 (by decide)).trans (vF_arg4 V)
theorem vG_arg5 (V : Valuation τ sig (Elt F)) : vG V (no_index (Proc.devRef .tc main_arg5)) = V (Proc.devRef .tc main_arg5) :=
  (vG_keep V main_arg5 (by decide)).trans (vF_arg5 V)
theorem vG_arg6 (V : Valuation τ sig (Elt F)) : vG V (no_index (Proc.devRef .tc main_arg6)) = V (Proc.devRef .tc main_arg6) :=
  (vG_keep V main_arg6 (by decide)).trans (vF_arg6 V)
theorem vG_arg7 (V : Valuation τ sig (Elt F)) : vG V (no_index (Proc.devRef .tc main_arg7)) = V (Proc.devRef .tc main_arg7) :=
  (vG_keep V main_arg7 (by decide)).trans (vF_arg7 V)
theorem vG_arg8 (V : Valuation τ sig (Elt F)) : vG V (no_index (Proc.devRef .tc main_arg8)) = V (Proc.devRef .tc main_arg8) :=
  (vG_keep V main_arg8 (by decide)).trans (vF_arg8 V)
theorem vG_arg9 (V : Valuation τ sig (Elt F)) : vG V (no_index (Proc.devRef .tc main_arg9)) = V (Proc.devRef .tc main_arg9) :=
  (vG_keep V main_arg9 (by decide)).trans (vF_arg9 V)
theorem vG_arg10 (V : Valuation τ sig (Elt F)) : vG V (no_index (Proc.devRef .tc main_arg10)) = V (Proc.devRef .tc main_arg10) :=
  (vG_keep V main_arg10 (by decide)).trans (vF_arg10 V)
theorem vG_v0 (V : Valuation τ sig (Elt F)) : vG V (no_index (Proc.devRef .tc main_v0)) = tLs V :=
  (vG_keep V main_v0 (by decide)).trans (vF_v0 V)
theorem vG_v1 (V : Valuation τ sig (Elt F)) : vG V (no_index (Proc.devRef .tc main_v1)) = tIota :=
  (vG_keep V main_v1 (by decide)).trans (vF_v1 V)
set_option maxRecDepth 8192 in
set_option maxHeartbeats 2000000 in
theorem vG_v124 (V : Valuation τ sig (Elt F)) : vG V (no_index (Proc.devRef .tc main_v124)) = t124 V := by
  unfold vG
  simp only [cG]
  after_results_simp
  simp only [vF_arg0, vF_arg1, vF_arg2, vF_arg3, vF_arg4, vF_arg5, vF_arg6, vF_arg7, vF_arg8, vF_arg9, vF_arg10, vF_v0, vF_v1, vF_v116]
  rfl

/-! ## Stretch H -/

/-- The buffers' contents after stretch H. -/
def vH (V : Valuation τ sig (Elt F)) : Valuation τ sig (Elt F) := after cH (vG V)
/-- The buffers stretch H writes. -/
abbrev cH_W : List (Ref sig .tc) := [main_cst_32, main_v125, main_v126, main_v127, main_cst_33, main_v128, main_v129, main_v130, main_v131, main_cst_34, main_v132, main_v133, main_v134, main_cst_35, main_v135, main_v136, main_v137, main_v138, main_v139, main_v140, main_v141, main_v142, main_v143, main_v144, main_c_36, main_v145, main_v146, main_c_37, main_v147, main_v148, main_v149, main_c_38, main_v150, main_v151, main_c_39, main_v152, main_v153, main_v154, main_v155, main_v156, main_v157, main_v158]
set_option maxRecDepth 8192 in
theorem cH_writes : (cH : List (HloOp τ sig (Elt F))).Forall fun op => op.writes ⊆ (cH_W.map (Proc.devRef (τ := τ) .tc)).toFinset :=
  ⟨wsub (y := main_cst_32) (by decide), wsub (y := main_v125) (by decide), wsub (y := main_v126) (by decide), wsub (y := main_v127) (by decide), wsub (y := main_cst_33) (by decide), wsub (y := main_v128) (by decide), wsub (y := main_v129) (by decide), wsub (y := main_v130) (by decide), wsub (y := main_v131) (by decide), wsub (y := main_cst_34) (by decide), wsub (y := main_v132) (by decide), wsub (y := main_v133) (by decide), wsub (y := main_v134) (by decide), wsub (y := main_cst_35) (by decide), wsub (y := main_v135) (by decide), wsub (y := main_v136) (by decide), wsub (y := main_v137) (by decide), wsub (y := main_v138) (by decide), wsub (y := main_v139) (by decide), wsub (y := main_v140) (by decide), wsub (y := main_v141) (by decide), wsub (y := main_v142) (by decide), wsub (y := main_v143) (by decide), wsub (y := main_v144) (by decide), wsub (y := main_c_36) (by decide), wsub (y := main_v145) (by decide), wsub (y := main_v146) (by decide), wsub (y := main_c_37) (by decide), wsub (y := main_v147) (by decide), wsub (y := main_v148) (by decide), wsub (y := main_v149) (by decide), wsub (y := main_c_38) (by decide), wsub (y := main_v150) (by decide), wsub (y := main_v151) (by decide), wsub (y := main_c_39) (by decide), wsub (y := main_v152) (by decide), wsub (y := main_v153) (by decide), wsub (y := main_v154) (by decide), wsub (y := main_v155) (by decide), wsub (y := main_v156) (by decide), wsub (y := main_v157) (by decide), wsub (y := main_v158) (by decide)⟩
/-- A buffer stretch H does not write keeps its contents through it. -/
theorem vH_keep (V : Valuation τ sig (Elt F)) (r : Ref sig .tc) (h : r ∉ cH_W) :
    vH V (Proc.devRef .tc r) = (vG V) (Proc.devRef .tc r) :=
  after_of_writes_sub cH _ cH_writes h
theorem vH_arg0 (V : Valuation τ sig (Elt F)) : vH V (no_index (Proc.devRef .tc main_arg0)) = V (Proc.devRef .tc main_arg0) :=
  (vH_keep V main_arg0 (by decide)).trans (vG_arg0 V)
theorem vH_arg1 (V : Valuation τ sig (Elt F)) : vH V (no_index (Proc.devRef .tc main_arg1)) = V (Proc.devRef .tc main_arg1) :=
  (vH_keep V main_arg1 (by decide)).trans (vG_arg1 V)
theorem vH_arg2 (V : Valuation τ sig (Elt F)) : vH V (no_index (Proc.devRef .tc main_arg2)) = V (Proc.devRef .tc main_arg2) :=
  (vH_keep V main_arg2 (by decide)).trans (vG_arg2 V)
theorem vH_arg3 (V : Valuation τ sig (Elt F)) : vH V (no_index (Proc.devRef .tc main_arg3)) = V (Proc.devRef .tc main_arg3) :=
  (vH_keep V main_arg3 (by decide)).trans (vG_arg3 V)
theorem vH_arg4 (V : Valuation τ sig (Elt F)) : vH V (no_index (Proc.devRef .tc main_arg4)) = V (Proc.devRef .tc main_arg4) :=
  (vH_keep V main_arg4 (by decide)).trans (vG_arg4 V)
theorem vH_arg5 (V : Valuation τ sig (Elt F)) : vH V (no_index (Proc.devRef .tc main_arg5)) = V (Proc.devRef .tc main_arg5) :=
  (vH_keep V main_arg5 (by decide)).trans (vG_arg5 V)
theorem vH_arg6 (V : Valuation τ sig (Elt F)) : vH V (no_index (Proc.devRef .tc main_arg6)) = V (Proc.devRef .tc main_arg6) :=
  (vH_keep V main_arg6 (by decide)).trans (vG_arg6 V)
theorem vH_arg7 (V : Valuation τ sig (Elt F)) : vH V (no_index (Proc.devRef .tc main_arg7)) = V (Proc.devRef .tc main_arg7) :=
  (vH_keep V main_arg7 (by decide)).trans (vG_arg7 V)
theorem vH_arg8 (V : Valuation τ sig (Elt F)) : vH V (no_index (Proc.devRef .tc main_arg8)) = V (Proc.devRef .tc main_arg8) :=
  (vH_keep V main_arg8 (by decide)).trans (vG_arg8 V)
theorem vH_arg9 (V : Valuation τ sig (Elt F)) : vH V (no_index (Proc.devRef .tc main_arg9)) = V (Proc.devRef .tc main_arg9) :=
  (vH_keep V main_arg9 (by decide)).trans (vG_arg9 V)
theorem vH_arg10 (V : Valuation τ sig (Elt F)) : vH V (no_index (Proc.devRef .tc main_arg10)) = V (Proc.devRef .tc main_arg10) :=
  (vH_keep V main_arg10 (by decide)).trans (vG_arg10 V)
set_option maxRecDepth 8192 in
set_option maxHeartbeats 2000000 in
theorem vH_v158 (V : Valuation τ sig (Elt F)) : vH V (no_index (Proc.devRef .tc main_v158)) = t158 V := by
  unfold vH
  simp only [cH]
  after_results_simp
  simp only [vG_arg0, vG_arg1, vG_arg2, vG_arg3, vG_arg4, vG_arg5, vG_arg6, vG_arg7, vG_arg8, vG_arg9, vG_arg10, vG_v0, vG_v1, vG_v124]
  rfl

/-! ## Stretch I -/

/-- The buffers' contents after stretch I. -/
def vI (V : Valuation τ sig (Elt F)) : Valuation τ sig (Elt F) := after cI (vH V)
/-- The buffers stretch I writes. -/
abbrev cI_W : List (Ref sig .tc) := [main_cst_40, main_v159, main_v160, main_v161, main_cst_41, main_v162, main_v163, main_v164, main_v165]
set_option maxRecDepth 8192 in
theorem cI_writes : (cI : List (HloOp τ sig (Elt F))).Forall fun op => op.writes ⊆ (cI_W.map (Proc.devRef (τ := τ) .tc)).toFinset :=
  ⟨wsub (y := main_cst_40) (by decide), wsub (y := main_v159) (by decide), wsub (y := main_v160) (by decide), wsub (y := main_v161) (by decide), wsub (y := main_cst_41) (by decide), wsub (y := main_v162) (by decide), wsub (y := main_v163) (by decide), wsub (y := main_v164) (by decide), wsub (y := main_v165) (by decide)⟩
/-- A buffer stretch I does not write keeps its contents through it. -/
theorem vI_keep (V : Valuation τ sig (Elt F)) (r : Ref sig .tc) (h : r ∉ cI_W) :
    vI V (Proc.devRef .tc r) = (vH V) (Proc.devRef .tc r) :=
  after_of_writes_sub cI _ cI_writes h
theorem vI_arg0 (V : Valuation τ sig (Elt F)) : vI V (no_index (Proc.devRef .tc main_arg0)) = V (Proc.devRef .tc main_arg0) :=
  (vI_keep V main_arg0 (by decide)).trans (vH_arg0 V)
theorem vI_arg1 (V : Valuation τ sig (Elt F)) : vI V (no_index (Proc.devRef .tc main_arg1)) = V (Proc.devRef .tc main_arg1) :=
  (vI_keep V main_arg1 (by decide)).trans (vH_arg1 V)
theorem vI_arg2 (V : Valuation τ sig (Elt F)) : vI V (no_index (Proc.devRef .tc main_arg2)) = V (Proc.devRef .tc main_arg2) :=
  (vI_keep V main_arg2 (by decide)).trans (vH_arg2 V)
theorem vI_arg3 (V : Valuation τ sig (Elt F)) : vI V (no_index (Proc.devRef .tc main_arg3)) = V (Proc.devRef .tc main_arg3) :=
  (vI_keep V main_arg3 (by decide)).trans (vH_arg3 V)
theorem vI_arg4 (V : Valuation τ sig (Elt F)) : vI V (no_index (Proc.devRef .tc main_arg4)) = V (Proc.devRef .tc main_arg4) :=
  (vI_keep V main_arg4 (by decide)).trans (vH_arg4 V)
theorem vI_arg5 (V : Valuation τ sig (Elt F)) : vI V (no_index (Proc.devRef .tc main_arg5)) = V (Proc.devRef .tc main_arg5) :=
  (vI_keep V main_arg5 (by decide)).trans (vH_arg5 V)
theorem vI_arg6 (V : Valuation τ sig (Elt F)) : vI V (no_index (Proc.devRef .tc main_arg6)) = V (Proc.devRef .tc main_arg6) :=
  (vI_keep V main_arg6 (by decide)).trans (vH_arg6 V)
theorem vI_arg7 (V : Valuation τ sig (Elt F)) : vI V (no_index (Proc.devRef .tc main_arg7)) = V (Proc.devRef .tc main_arg7) :=
  (vI_keep V main_arg7 (by decide)).trans (vH_arg7 V)
theorem vI_arg8 (V : Valuation τ sig (Elt F)) : vI V (no_index (Proc.devRef .tc main_arg8)) = V (Proc.devRef .tc main_arg8) :=
  (vI_keep V main_arg8 (by decide)).trans (vH_arg8 V)
theorem vI_arg9 (V : Valuation τ sig (Elt F)) : vI V (no_index (Proc.devRef .tc main_arg9)) = V (Proc.devRef .tc main_arg9) :=
  (vI_keep V main_arg9 (by decide)).trans (vH_arg9 V)
theorem vI_arg10 (V : Valuation τ sig (Elt F)) : vI V (no_index (Proc.devRef .tc main_arg10)) = V (Proc.devRef .tc main_arg10) :=
  (vI_keep V main_arg10 (by decide)).trans (vH_arg10 V)
set_option maxRecDepth 8192 in
set_option maxHeartbeats 2000000 in
theorem vI_v165 (V : Valuation τ sig (Elt F)) : vI V (no_index (Proc.devRef .tc main_v165)) = t165 V := by
  unfold vI
  simp only [cI]
  after_results_simp
  simp only [vH_arg0, vH_arg1, vH_arg2, vH_arg3, vH_arg4, vH_arg5, vH_arg6, vH_arg7, vH_arg8, vH_arg9, vH_arg10, vH_v158]
  rfl

/-- The whole line's contents are the last stretch's. -/
theorem after_ops (V : Valuation τ sig (Elt F)) : after ops V = vI V := by
  simp only [ops, after_app]
  rfl

end Run

open Run in
set_option maxRecDepth 8192 in
/-- On every device, for any float values, from any memory with zero counters: every weakly fair execution of @main
    terminates with the result buffer at the reference's composed term of the eleven arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v165) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v165).trans (by simp only [after_ops]; exact (vI_v165 (launchContents m c)).trans (t165_eq (launchContents m c))),
      (h c main_arg0).trans (by simp only [after_ops]; exact vI_arg0 (launchContents m c)),
      (h c main_arg1).trans (by simp only [after_ops]; exact vI_arg1 (launchContents m c)),
      (h c main_arg2).trans (by simp only [after_ops]; exact vI_arg2 (launchContents m c)),
      (h c main_arg3).trans (by simp only [after_ops]; exact vI_arg3 (launchContents m c)),
      (h c main_arg4).trans (by simp only [after_ops]; exact vI_arg4 (launchContents m c)),
      (h c main_arg5).trans (by simp only [after_ops]; exact vI_arg5 (launchContents m c)),
      (h c main_arg6).trans (by simp only [after_ops]; exact vI_arg6 (launchContents m c)),
      (h c main_arg7).trans (by simp only [after_ops]; exact vI_arg7 (launchContents m c)),
      (h c main_arg8).trans (by simp only [after_ops]; exact vI_arg8 (launchContents m c)),
      (h c main_arg9).trans (by simp only [after_ops]; exact vI_arg9 (launchContents m c)),
      (h c main_arg10).trans (by simp only [after_ops]; exact vI_arg10 (launchContents m c))⟩)
    (run_seq scopedRefs_eq scopedSems_eq defs main (fun _ => ops) main_eq (fun _ => ops_sub) m ρ)

end Cert.RefSide

end
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.RefGather.lean ====
/-
  The three gathers of the reference read at one element.

  Each gather takes, for sample b, the slice of a [131072 × 10 × D] array at the pair of start positions held in row b
  of a [131072 × 2] integer array: position 0 names the sample, position 1 the bucket; each is read as a signed integer
  and clamped so that the unit slice fits.  Row b of the start positions holds the sample number b itself and the
  quotient of the sample's ply by 6, a negative value moved up by the axis' extent.  For a non-negative ply neither
  is moved, the sample number is below 131072 and the quotient clamps to the sample's bucket, so element (b, j) of the
  result is the array at (b, bucket, j).
-/
import proofs.«405585_j71511205479094_3_alg».proof.Proof.RefTerm
import proofs.«405585_j71511205479094_3_alg».proof.Proof.Ints
import proofs.«405585_j71511205479094_3_alg».proof.Proof.LibGatherScatter
import Idealize.ShloMosaic.Lib.ValueIdx
import Idealize.ShloMosaic.Lib.Pipeline.Value

noncomputable section

namespace Cert.RefSide

open Cert.ReferenceIdeal Cert.ReferenceIdeal.Facts₀ Idealize.ShloMosaic Idealize.ShloMosaic.ValueIdx Cert.Ints
open Cert.LibGatherScatter (getElem_congr')

/-! ## A gather of unit slices of a rank-3 array at two start positions -/

section Generic

variable {N C D w : Nat} (d : GatherDims ⟨3, ![N, C, D]⟩ ⟨2, ![N, 2]⟩ ⟨2, ![N, D]⟩)

/-- The start-position index a result element reads for component k: its own row, column k. -/
theorem siIdx_row (hoff : d.offsetDims = [1]) (hivd : d.indexVectorDim = 1) (p : Fin N) (q : Fin D)
    (k : Fin d.startIndexMap.length) (k' : Fin 2) (hk : k.val = k'.val) :
    d.siIdx (ix2 p q) k = ix2 p k' := by
  have hbd : d.batchDims = [0] := by
    show Shape.kept _ d.offsetDims = [0]
    rw [hoff]; rfl
  have hsik : d.siKept = [0] := by
    show (List.finRange _).filter (·.val ≠ d.indexVectorDim) = [0]
    rw [hivd]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X = 0 → ((ix2 p q : (⟨2, ![N, D]⟩ : Shape).Idx) X).val = p.val := fun X hX => by
      subst hX; rfl
    apply e
    rw [getElem_congr' hbd (show List.idxOf _ d.siKept = 0 by rw [hsik]; rfl)]
    rfl
  | ⟨1, _⟩ =>
    unfold GatherDims.siIdx
    rw [dif_pos (by rw [hivd])]
    apply Fin.ext
    exact hk

/-- Unit slices of an [N × C × D] array at the two start positions of row p: result element (p, q) is the array at
    (position 0 read signed and clamped into [0, N-1]; position 1 read signed and clamped into [0, C-1]; q). -/
theorem gather_bucket {α : Type} (hoff : d.offsetDims = [1]) (hcoll : d.collapsedSliceDims = [0, 1])
    (hob : d.operandBatchingDims = []) (hsim : d.startIndexMap = [0, 1]) (hivd : d.indexVectorDim = 1)
    (hss : d.sliceSizes = ![1, 1, D])
    (x : (⟨3, ![N, C, D]⟩ : Shape).Idx → α) (idx : IVec ⟨2, ![N, 2]⟩ w) (p : Fin N) (q : Fin D) (r : Fin N) (c : Fin C)
    (h0 : min (idx (ix2 p (0 : Fin 2))).toInt.toNat (N - 1) = r.val)
    (h1 : min (idx (ix2 p (1 : Fin 2))).toInt.toNat (C - 1) = c.val) :
    Host.gather d x idx (ix2 p q) = x (ix3 r c q) := by
  unfold Host.gather
  congr 1
  have hsk : d.sKept = [2] := by
    show Shape.kept _ (d.collapsedSliceDims ++ d.operandBatchingDims) = [2]
    rw [hcoll, hob]; rfl
  have e0 : (d.operandIdx (ix2 p q) idx (0 : Fin 3)).val = r.val := by
    have hb : (0 : Fin 3) ∉ d.operandBatchingDims := by rw [hob]; exact List.not_mem_nil
    have hk : (0 : Fin 3) ∉ d.sKept := by rw [hsk]; simp
    have hm : (0 : Fin 3) ∈ d.startIndexMap := by rw [hsim]; simp
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    rw [siIdx_row d hoff hivd p q _ (0 : Fin 2) (by show List.idxOf (0 : Fin 3) d.startIndexMap = 0; rw [hsim]; simp)]
    show min (idx _).toInt.toNat (N - d.sliceSizes 0) = r.val
    rw [hsl]
    exact h0
  have e1 : (d.operandIdx (ix2 p q) idx (1 : Fin 3)).val = c.val := by
    have hb : (1 : Fin 3) ∉ d.operandBatchingDims := by rw [hob]; exact List.not_mem_nil
    have hk : (1 : Fin 3) ∉ d.sKept := by rw [hsk]; simp
    have hm : (1 : Fin 3) ∈ d.startIndexMap := by rw [hsim]; simp
    have hsl : d.sliceSizes 1 = 1 := by rw [hss]; rfl
    simp only [GatherDims.operandIdx, GatherDims.batchCoord_eq_zero _ _ _ hb, GatherDims.offCoord_eq_zero _ _ _ hk,
      Nat.add_zero, GatherDims.start, dif_pos hm]
    rw [siIdx_row d hoff hivd p q _ (1 : Fin 2) (by show List.idxOf (1 : Fin 3) d.startIndexMap = 1; rw [hsim]; simp)]
    show min (idx _).toInt.toNat (C - d.sliceSizes 1) = c.val
    rw [hsl]
    exact h1
  have e2 : (d.operandIdx (ix2 p q) idx (2 : Fin 3)).val = q.val := by
    have hb : (2 : Fin 3) ∉ d.operandBatchingDims := by rw [hob]; exact List.not_mem_nil
    have hk : (2 : Fin 3) ∈ d.sKept := by rw [hsk]; simp
    have hm : (2 : Fin 3) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![N, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact e0
  | ⟨1, _⟩ => exact e1
  | ⟨2, _⟩ => exact e2

end Generic

/-! ## The start positions of row b -/

/-- A sample number is below 2^31: read signed, its word is the number. -/
theorem toInt_sample (b : Fin 131072) : (BitVec.ofNat 32 b.val).toInt = (b.val : Int) := by
  have hb := b.isLt
  rw [BitVec.toInt_eq_toNat_cond, BitVec.toNat_ofNat]
  have hm : b.val % 2 ^ 32 = b.val := Nat.mod_eq_of_lt (by omega)
  rw [hm]
  split <;> omega

/-- Column 0 of row b is the sample number b. -/
theorem rIdx_col0 (ls : IVec S131072 32) (b : Fin 131072) :
    rIdx ls (ix2 b (0 : Fin 2)) = BitVec.ofNat 32 b.val := by
  unfold rIdx
  refine (concatenate_pair_apply_left (t := S131072x2) (s₁ := S131072x1) (s₂ := S131072x1) (1 : Fin 2) _ _ concatenates_S131072x1_S131072x1_S131072x2_d1
    (ix2 b (0 : Fin 2)) rfl (ix2 b (0 : Fin 1)) ?_).trans ?_
  · intro a
    match a with
    | ⟨0, _⟩ => rfl
    | ⟨1, _⟩ => rfl
  refine (broadcastInDim_apply _ _ _ (ix2 b (0 : Fin 1)) (ix1 b) ?_).trans ?_
  · intro a
    match a with
    | ⟨0, _⟩ => rfl
  show Scalar.select (IntOp.cmpi .slt (BitVec.ofNat 32 b.val) 0#32) (IntOp.addi (BitVec.ofNat 32 b.val) 131072#32)
    (BitVec.ofNat 32 b.val) = BitVec.ofNat 32 b.val
  have h0 : (0#32 : BitVec 32).toInt = 0 := by decide
  have hc : IntOp.cmpi .slt (BitVec.ofNat 32 b.val) 0#32 = 0#1 := by
    show BitVec.ofBool ((BitVec.ofNat 32 b.val).slt 0#32) = 0#1
    rw [BitVec.slt_eq_decide, h0, toInt_sample b, decide_eq_false (by omega)]
    rfl
  rw [hc]
  exact select_zero _ _

/-- Column 1 of row b is the quotient of the sample's ply by 6, wrapped. -/
theorem rIdx_col1 (ply : IVec S131072 32) (b : Fin 131072) :
    rIdx (rLs ply) (ix2 b (1 : Fin 2)) = wrap10 (fdiv6 (ply (ix1 b))) := by
  unfold rIdx
  refine (concatenate_pair_apply_right (t := S131072x2) (s₁ := S131072x1) (s₂ := S131072x1) (1 : Fin 2) _ _ concatenates_S131072x1_S131072x1_S131072x2_d1
    (ix2 b (1 : Fin 2)) rfl rfl (ix2 b (0 : Fin 1)) ?_ ?_).trans ?_
  · intro a ha
    match a with
    | ⟨0, _⟩ => rfl
    | ⟨1, _⟩ => exact absurd rfl ha
  · rfl
  refine (broadcastInDim_apply _ _ _ (ix2 b (0 : Fin 1)) (ix1 b) ?_).trans ?_
  · intro a
    match a with
    | ⟨0, _⟩ => rfl
  refine (wrap_apply bcast_S_S131072 (rLs ply) (ix1 b)).trans ?_
  exact congrArg wrap10 (fdiv_apply bcast_S_S131072 ply (ix1 b))

/-! ## The three gathers at an element -/

/-- The clamped start positions of row b: the sample b and its bucket. -/
theorem start_row (ply : IVec S131072 32) (b : Fin 131072) (hb : 0 ≤ (ply (ix1 b)).toInt) :
    min (rIdx (rLs ply) (ix2 b (0 : Fin 2))).toInt.toNat (131072 - 1) = b.val ∧
    min (rIdx (rLs ply) (ix2 b (1 : Fin 2))).toInt.toNat (10 - 1) = (bucket (ply (ix1 b))).val := by
  constructor
  · rw [rIdx_col0, toInt_sample b]
    have := b.isLt
    omega
  · rw [rIdx_col1, wrap10_fdiv6 _ hb]
    exact start_fdiv6 _ hb

theorem rG8_apply (l : FVec Ideal S131072x10x8 .f32) (ply : IVec S131072 32) (b : Fin 131072) (hb : 0 ≤ (ply (ix1 b)).toInt) (j : Fin 8) :
    rG8 (F := Ideal) l (rIdx (rLs ply)) (ix2 b j) = l (ix3 b (bucket (ply (ix1 b))) j) :=
  gather_bucket gather_S131072x10x8_S131072x2_S131072x8_1_01_n_n_01_1_118 rfl rfl rfl rfl rfl rfl l (rIdx (rLs ply)) b j b
    (bucket (ply (ix1 b))) (start_row ply b hb).1 (start_row ply b hb).2

theorem rG64_apply (l : FVec Ideal S131072x10x64 .f32) (ply : IVec S131072 32) (b : Fin 131072) (hb : 0 ≤ (ply (ix1 b)).toInt) (j : Fin 64) :
    rG64 (F := Ideal) l (rIdx (rLs ply)) (ix2 b j) = l (ix3 b (bucket (ply (ix1 b))) j) :=
  gather_bucket gather_S131072x10x64_S131072x2_S131072x64_1_01_n_n_01_1_1164 rfl rfl rfl rfl rfl rfl l (rIdx (rLs ply)) b j b
    (bucket (ply (ix1 b))) (start_row ply b hb).1 (start_row ply b hb).2

theorem rG1_apply (l : FVec Ideal S131072x10x1 .f32) (ply : IVec S131072 32) (b : Fin 131072) (hb : 0 ≤ (ply (ix1 b)).toInt) :
    rG1 (F := Ideal) l (rIdx (rLs ply)) (ix2 b (0 : Fin 1)) = l (ix3 b (bucket (ply (ix1 b))) (0 : Fin 1)) :=
  gather_bucket gather_S131072x10x1_S131072x2_S131072x1_1_01_n_n_01_1_111 rfl rfl rfl rfl rfl rfl l (rIdx (rLs ply)) b (0 : Fin 1) b
    (bucket (ply (ix1 b))) (start_row ply b hb).1 (start_row ply b hb).2

end Cert.RefSide

end
-- ==== Proof.RefQuant.lean ====
/-
  Where finiteness is used on the reference's side.

  The reference writes a quantised weight as w + (q − w) and a quantised activation as x + (q − x), with q the value on
  the grid.  On the extended reals these equal q only when both terms are real: ⊤ + (q − ⊤) is not q.  This module
  shows that the six grid literals are nonzero reals, that rounding, the grid maps, the clamp and an affine layer keep
  reals real (the clamp makes a real of every extended real), and reads the seven quantised weights, the two clamps
  and the three straight-through floors at an index.
-/
import proofs.«405585_j71511205479094_3_alg».proof.Proof.RefTerm
import proofs.«405585_j71511205479094_3_alg».proof.Proof.Spec
import proofs.«405585_j71511205479094_3_alg».proof.Proof.LibRealArr
import proofs.«405585_j71511205479094_3_alg».proof.Proof.LibERealArith
import Idealize.ShloMosaic.Lib.ValueIdx

noncomputable section

namespace Cert.RefSide

open Cert.ReferenceIdeal Cert.ReferenceIdeal.Facts₀ Idealize.ShloMosaic Idealize.ShloMosaic.ValueIdx Cert.Val
  Cert.Lib.ERealArith
open Cert.Spec (c64 c8128 c75 c9600 c127 c600 cSq c0 c1 qround qfloor clip01 lin)
open scoped BigOperators

/-! ### The literals -/

/-- The literal 64. -/
theorem c64_real : ∃ r : ℝ, c64 = (r : EReal) ∧ r ≠ 0 :=
  ⟨64, by simp [Ideal.ofBits, Ideal.ieee, -EReal.coe_mul]; norm_num, by norm_num⟩

/-- The literal 8128. -/
theorem c8128_real : ∃ r : ℝ, c8128 = (r : EReal) ∧ r ≠ 0 :=
  ⟨8128, by simp [Ideal.ofBits, Ideal.ieee, -EReal.coe_mul]; norm_num, by norm_num⟩

/-- The literal nearest 9600/127: 9907805 · 2⁻¹⁷. -/
theorem c75_real : ∃ r : ℝ, c75 = (r : EReal) ∧ r ≠ 0 :=
  ⟨9907805 / 2 ^ 17, by simp [Ideal.ofBits, Ideal.ieee, -EReal.coe_mul]; norm_num, by norm_num⟩

/-- The literal 9600. -/
theorem c9600_real : ∃ r : ℝ, c9600 = (r : EReal) ∧ r ≠ 0 :=
  ⟨9600, by simp [Ideal.ofBits, Ideal.ieee, -EReal.coe_mul]; norm_num, by norm_num⟩

/-- The literal 127. -/
theorem c127_real : ∃ r : ℝ, c127 = (r : EReal) ∧ r ≠ 0 :=
  ⟨127, by simp [Ideal.ofBits, Ideal.ieee, -EReal.coe_mul]; norm_num, by norm_num⟩

/-- The literal 600. -/
theorem c600_real : ∃ r : ℝ, c600 = (r : EReal) ∧ r ≠ 0 :=
  ⟨600, by simp [Ideal.ofBits, Ideal.ieee, -EReal.coe_mul]; norm_num, by norm_num⟩

/-- The literal 0. -/
theorem c0_eq : c0 = ((0 : ℝ) : EReal) := ofBits_zero

/-- The literal 1. -/
theorem c1_eq : c1 = ((1 : ℝ) : EReal) := ofBits_one

/-! ### Reals stay real -/

/-- A rounding of a real is (the coercion of) an integer. -/
theorem isReal_liftRound (f : ℝ → ℤ) {x : EReal} (hx : IsReal x) : IsReal (Ideal.liftRound f x) := by
  obtain ⟨r, rfl⟩ := hx
  exact ⟨((f r : ℤ) : ℝ), rfl⟩

/-- A real weight on a grid of nonzero real step is real. -/
theorem isReal_qround {s w : EReal} (hs : ∃ r : ℝ, s = (r : EReal) ∧ r ≠ 0) (hw : IsReal w) : IsReal (qround s w) :=
  IsReal.div (isReal_liftRound _ (hw.mul (isReal_of_ne_zero_real hs))) hs

/-- A real value rounded down to a grid of nonzero real step is real. -/
theorem isReal_qfloor {s x : EReal} (hs : ∃ r : ℝ, s = (r : EReal) ∧ r ≠ 0) (hx : IsReal x) : IsReal (qfloor s x) :=
  IsReal.div (isReal_liftRound _ (hx.mul (isReal_of_ne_zero_real hs))) hs

/-- The clamp to [0, 1] of any extended real is real: −∞ goes to 0 and +∞ to 1. -/
theorem isReal_clip01 (x : EReal) : IsReal (clip01 x) := by
  unfold clip01
  rw [c0_eq, c1_eq]
  induction x using EReal.rec with
  | bot => exact ⟨min 1 0, by rw [max_bot_right, min_coe]⟩
  | top => exact ⟨1, by rw [max_top_right, min_top_right]⟩
  | coe r => exact ⟨min 1 (max 0 r), by rw [max_coe, min_coe]⟩

/-- An affine combination of reals is real. -/
theorem isReal_lin {K : ℕ} {x w : Fin K → EReal} {b : EReal} (hx : ∀ k, IsReal (x k)) (hw : ∀ k, IsReal (w k))
    (hb : IsReal b) : IsReal (lin x w b) :=
  IsReal.add (IsReal.sum _ _ fun k _ => (hx k).mul (hw k)) hb

/-- For reals, a + (q − a) = q. -/
theorem straight_through {a q : EReal} (ha : IsReal a) (hq : IsReal q) : a + (q - a) = q := by
  obtain ⟨a, rfl⟩ := ha
  obtain ⟨q, rfl⟩ := hq
  rw [sub_coe, add_coe]
  exact congrArg _ (by ring)

/-! ### The straight-through forms at an index -/

/-- A real entry w, written w + (roundHalfEven(w · s)/s − w) with the step s a broadcast nonzero real literal, is the
    entry on the grid. -/
theorem stRound_apply {s : Shape} (dims : Fin S_.rank → Fin s.rank) (h : S_.BroadcastsInDim s dims) (b : BitVec 32)
    (hb : ∃ r : ℝ, Ideal.ofBits .f32 b = (r : EReal) ∧ r ≠ 0) (w : FVec Ideal s .f32) (i : s.Idx) (hw : IsReal (w i)) :
    addf w (subf (Host.divf (Host.roundeven (mulf w (broadcastInDim s dims h (constant (F := Ideal) S_ .f32 b))))
      (broadcastInDim s dims h (constant (F := Ideal) S_ .f32 b))) w) i = qround (Ideal.ofBits .f32 b) (w i) := by
  show w i + (qround (Ideal.ofBits .f32 b) (w i) - w i) = qround (Ideal.ofBits .f32 b) (w i)
  exact straight_through hw (isReal_qround hb hw)

/-- A real entry x, written x + (⌊x · s⌋/s − x) with the step s a broadcast nonzero real literal, is the entry rounded
    down to the grid. -/
theorem stFloor_apply {s : Shape} (dims : Fin S_.rank → Fin s.rank) (h : S_.BroadcastsInDim s dims) (b : BitVec 32)
    (hb : ∃ r : ℝ, Ideal.ofBits .f32 b = (r : EReal) ∧ r ≠ 0) (x : FVec Ideal s .f32) (i : s.Idx) (hx : IsReal (x i)) :
    addf x (subf (Host.divf (Host.floor (mulf x (broadcastInDim s dims h (constant (F := Ideal) S_ .f32 b))))
      (broadcastInDim s dims h (constant (F := Ideal) S_ .f32 b))) x) i = qfloor (Ideal.ofBits .f32 b) (x i) := by
  show x i + (qfloor (Ideal.ofBits .f32 b) (x i) - x i) = qfloor (Ideal.ofBits .f32 b) (x i)
  exact straight_through hx (isReal_qfloor hb hx)

/-- The clamp at an index: min 1 (max 0 x), the bounds broadcast literals. -/
theorem clip_apply {s : Shape} (dims : Fin S_.rank → Fin s.rank) (h : S_.BroadcastsInDim s dims) (x : FVec Ideal s .f32)
    (i : s.Idx) :
    minimumf (broadcastInDim s dims h (id (constant (F := Ideal) S_ .f32 0x3F800000#32)))
      (maximumf (broadcastInDim s dims h (id (constant (F := Ideal) S_ .f32 0x00000000#32))) x) i = clip01 (x i) := rfl

/-! ### The seven quantised weights -/

theorem rQ80x257_apply (w : FVec Ideal S80x257 .f32) (hw : IsRealArr w) (i : S80x257.Idx) :
    rQ80x257 (F := Ideal) w i = qround c64 (w i) := stRound_apply _ _ _ c64_real w i (hw i)

theorem rQ80_apply (w : FVec Ideal S80 .f32) (hw : IsRealArr w) (i : S80.Idx) :
    rQ80 (F := Ideal) w i = qround c8128 (w i) := stRound_apply _ _ _ c8128_real w i (hw i)

theorem rQ80x128_apply (w : FVec Ideal S80x128 .f32) (hw : IsRealArr w) (i : S80x128.Idx) :
    rQ80x128 (F := Ideal) w i = qround c64 (w i) := stRound_apply _ _ _ c64_real w i (hw i)

theorem rQ640x32_apply (w : FVec Ideal S640x32 .f32) (hw : IsRealArr w) (i : S640x32.Idx) :
    rQ640x32 (F := Ideal) w i = qround c64 (w i) := stRound_apply _ _ _ c64_real w i (hw i)

theorem rQ640_apply (w : FVec Ideal S640 .f32) (hw : IsRealArr w) (i : S640.Idx) :
    rQ640 (F := Ideal) w i = qround c8128 (w i) := stRound_apply _ _ _ c8128_real w i (hw i)

theorem rQ10x64_apply (w : FVec Ideal S10x64 .f32) (hw : IsRealArr w) (i : S10x64.Idx) :
    rQ10x64 (F := Ideal) w i = qround c75 (w i) := stRound_apply _ _ _ c75_real w i (hw i)

theorem rQ10_apply (w : FVec Ideal S10 .f32) (hw : IsRealArr w) (i : S10.Idx) :
    rQ10 (F := Ideal) w i = qround c9600 (w i) := stRound_apply _ _ _ c9600_real w i (hw i)

/-! ### The clamps and the straight-through floors -/

theorem rClip32_apply (x : FVec Ideal S131072x32 .f32) (i : S131072x32.Idx) :
    rClip32 (F := Ideal) x i = clip01 (x i) := clip_apply _ _ x i

theorem rClip64_apply (x : FVec Ideal S131072x64 .f32) (i : S131072x64.Idx) :
    rClip64 (F := Ideal) x i = clip01 (x i) := clip_apply _ _ x i

/-- The clamped entry is real whatever the entry, so the straight-through floor of a clamp needs no hypothesis. -/
theorem rQf32_clip (x : FVec Ideal S131072x32 .f32) (i : S131072x32.Idx) :
    rQf32 (F := Ideal) (rClip32 x) i = qfloor c127 (clip01 (x i)) := by
  have h := stFloor_apply _ bcast_S_S131072x32 _ c127_real (rClip32 (F := Ideal) x) i
    (by rw [rClip32_apply]; exact isReal_clip01 _)
  rw [rClip32_apply] at h
  exact h

theorem rQf64_clip (x : FVec Ideal S131072x64 .f32) (i : S131072x64.Idx) :
    rQf64 (F := Ideal) (rClip64 x) i = qfloor c127 (clip01 (x i)) := by
  have h := stFloor_apply _ bcast_S_S131072x64 _ c127_real (rClip64 (F := Ideal) x) i
    (by rw [rClip64_apply]; exact isReal_clip01 _)
  rw [rClip64_apply] at h
  exact h

theorem rQf1_apply (x : FVec Ideal S131072x1 .f32) (i : S131072x1.Idx) (hx : IsReal (x i)) :
    rQf1 (F := Ideal) x i = qfloor c600 (x i) := stFloor_apply _ _ _ c600_real x i hx

end Cert.RefSide

end
-- ==== Proof.RefDense.lean ====
/-
  The reference's four dense layers and its concatenation, read at an index, at the ideal values.

  A dense layer is a product of the samples' rows with the transposed weight matrix, plus the bias broadcast over the
  samples, regrouped from [131072, 10·D] into 10 buckets of D: entry (b, c, j) is entry (b, D·c + j) of the ungrouped
  array, that is, the inner product of sample b's row with row D·c + j of the weights, plus that row's bias. The
  concatenation puts the scaled squares of the 16 first-layer activations before the activations themselves, and the
  16 activations are the 8 base outputs followed by the 8 piece-square outputs. Every equation holds on all extended
  reals.
-/
import proofs.«405585_j71511205479094_3_alg».proof.Proof.RefTerm
import proofs.«405585_j71511205479094_3_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.RefSide

open Cert.ReferenceIdeal Cert.ReferenceIdeal.Facts₀ Idealize.ShloMosaic Idealize.ShloMosaic.ValueIdx
open Cert.Spec (lin sel8 sel64 l1of catOf cSq)
open Idealize.ShloMosaic.StackMember (dotGeneral_plain_apply)
open scoped BigOperators

/-! ## The four dense layers -/

/-- bucket c's output j of the dense base layer of sample b: the inner product of the sample's row with row 8c+j of the weights, plus that bias -/
theorem rL1b_apply (x : FVec Ideal S131072x257 .f32) (qw : FVec Ideal S80x257 .f32) (qb : FVec Ideal S80 .f32) (b : Fin 131072) (c : Fin 10) (j : Fin 8) :
    rL1b (F := Ideal) x qw qb (ix3 b c j) = lin (fun k : Fin 257 => x (ix2 b k)) (fun k => qw (ix2 (sel8 c j) k)) (qb (ix1 (sel8 c j))) := by
  unfold rL1b
  refine (shapeCast_apply _ _ (ix3 b c j) (ix2 b (sel8 c j)) ?_).trans ?_
  · rw [Shape.rowMajor_val_two, Shape.rowMajor_val_three]
    show b.val * 80 + (8 * c.val + j.val) = (b.val * 10 + c.val) * 8 + j.val
    omega
  · rw [addf_apply]
    unfold lin
    have hdot : Host.dotGeneral dot_S131072x257_S257x80_S131072x80_1_0_0_1_n_n none x
          (transpose S257x80 [1, 0] qw transposes_S80x257_S257x80_1_0) (ix2 b (sel8 c j))
        = ∑ k : Fin 257, x (ix2 b k) * qw (ix2 (sel8 c j) k) := by
      refine (dotGeneral_plain_apply none x _ b (sel8 c j)).trans ?_
      refine Finset.sum_congr rfl fun k _ => ?_
      exact congrArg (x (ix2 b k) * ·) (transpose_ix2_apply qw _ k (sel8 c j))
    have hbias : broadcastInDim S131072x80 ![0, 1] bcast_S1x80_S131072x80_0_1
          (broadcastInDim S1x80 ![1] bcast_S80_S1x80_1 qb) (ix2 b (sel8 c j)) = qb (ix1 (sel8 c j)) := by
      refine (broadcastInDim_apply _ _ _ (ix2 b (sel8 c j)) (ix2 (0 : Fin 1) (sel8 c j))
        fun a => match a with | ⟨0, _⟩ => rfl | ⟨1, _⟩ => rfl).trans ?_
      exact broadcastInDim_apply _ _ _ (ix2 (0 : Fin 1) (sel8 c j)) (ix1 (sel8 c j))
        fun a => match a with | ⟨0, _⟩ => rfl
    rw [hdot, hbias]

/-- bucket c's output j of the dense piece-square layer of sample b: the inner product of the sample's row with row 8c+j of the weights, plus that bias -/
theorem rL1p_apply (x : FVec Ideal S131072x128 .f32) (qw : FVec Ideal S80x128 .f32) (qb : FVec Ideal S80 .f32) (b : Fin 131072) (c : Fin 10) (j : Fin 8) :
    rL1p (F := Ideal) x qw qb (ix3 b c j) = lin (fun k : Fin 128 => x (ix2 b k)) (fun k => qw (ix2 (sel8 c j) k)) (qb (ix1 (sel8 c j))) := by
  unfold rL1p
  refine (shapeCast_apply _ _ (ix3 b c j) (ix2 b (sel8 c j)) ?_).trans ?_
  · rw [Shape.rowMajor_val_two, Shape.rowMajor_val_three]
    show b.val * 80 + (8 * c.val + j.val) = (b.val * 10 + c.val) * 8 + j.val
    omega
  · rw [addf_apply]
    unfold lin
    have hdot : Host.dotGeneral dot_S131072x128_S128x80_S131072x80_1_0_0_1_n_n none x
          (transpose S128x80 [1, 0] qw transposes_S80x128_S128x80_1_0) (ix2 b (sel8 c j))
        = ∑ k : Fin 128, x (ix2 b k) * qw (ix2 (sel8 c j) k) := by
      refine (dotGeneral_plain_apply none x _ b (sel8 c j)).trans ?_
      refine Finset.sum_congr rfl fun k _ => ?_
      exact congrArg (x (ix2 b k) * ·) (transpose_ix2_apply qw _ k (sel8 c j))
    have hbias : broadcastInDim S131072x80 ![0, 1] bcast_S1x80_S131072x80_0_1
          (broadcastInDim S1x80 ![1] bcast_S80_S1x80_1 qb) (ix2 b (sel8 c j)) = qb (ix1 (sel8 c j)) := by
      refine (broadcastInDim_apply _ _ _ (ix2 b (sel8 c j)) (ix2 (0 : Fin 1) (sel8 c j))
        fun a => match a with | ⟨0, _⟩ => rfl | ⟨1, _⟩ => rfl).trans ?_
      exact broadcastInDim_apply _ _ _ (ix2 (0 : Fin 1) (sel8 c j)) (ix1 (sel8 c j))
        fun a => match a with | ⟨0, _⟩ => rfl
    rw [hdot, hbias]

/-- bucket c's output j of the dense second layer of sample b: the inner product of the sample's row with row 64c+j of the weights, plus that bias -/
theorem rL2_apply (x : FVec Ideal S131072x32 .f32) (qw : FVec Ideal S640x32 .f32) (qb : FVec Ideal S640 .f32) (b : Fin 131072) (c : Fin 10) (j : Fin 64) :
    rL2 (F := Ideal) x qw qb (ix3 b c j) = lin (fun k : Fin 32 => x (ix2 b k)) (fun k => qw (ix2 (sel64 c j) k)) (qb (ix1 (sel64 c j))) := by
  unfold rL2
  refine (shapeCast_apply _ _ (ix3 b c j) (ix2 b (sel64 c j)) ?_).trans ?_
  · rw [Shape.rowMajor_val_two, Shape.rowMajor_val_three]
    show b.val * 640 + (64 * c.val + j.val) = (b.val * 10 + c.val) * 64 + j.val
    omega
  · rw [addf_apply]
    unfold lin
    have hdot : Host.dotGeneral dot_S131072x32_S32x640_S131072x640_1_0_0_1_n_n none x
          (transpose S32x640 [1, 0] qw transposes_S640x32_S32x640_1_0) (ix2 b (sel64 c j))
        = ∑ k : Fin 32, x (ix2 b k) * qw (ix2 (sel64 c j) k) := by
      refine (dotGeneral_plain_apply none x _ b (sel64 c j)).trans ?_
      refine Finset.sum_congr rfl fun k _ => ?_
      exact congrArg (x (ix2 b k) * ·) (transpose_ix2_apply qw _ k (sel64 c j))
    have hbias : broadcastInDim S131072x640 ![0, 1] bcast_S1x640_S131072x640_0_1
          (broadcastInDim S1x640 ![1] bcast_S640_S1x640_1 qb) (ix2 b (sel64 c j)) = qb (ix1 (sel64 c j)) := by
      refine (broadcastInDim_apply _ _ _ (ix2 b (sel64 c j)) (ix2 (0 : Fin 1) (sel64 c j))
        fun a => match a with | ⟨0, _⟩ => rfl | ⟨1, _⟩ => rfl).trans ?_
      exact broadcastInDim_apply _ _ _ (ix2 (0 : Fin 1) (sel64 c j)) (ix1 (sel64 c j))
        fun a => match a with | ⟨0, _⟩ => rfl
    rw [hdot, hbias]

/-- bucket c's output of the dense output layer of sample b: the inner product of the sample's row with row c of the weights, plus that bias -/
theorem rL3_apply (x : FVec Ideal S131072x64 .f32) (qw : FVec Ideal S10x64 .f32) (qb : FVec Ideal S10 .f32) (b : Fin 131072) (c : Fin 10) :
    rL3 (F := Ideal) x qw qb (ix3 b c (0 : Fin 1)) = lin (fun k : Fin 64 => x (ix2 b k)) (fun k => qw (ix2 c k)) (qb (ix1 c)) := by
  unfold rL3
  refine (shapeCast_apply _ _ (ix3 b c (0 : Fin 1)) (ix2 b c) ?_).trans ?_
  · rw [Shape.rowMajor_val_two, Shape.rowMajor_val_three]
    show b.val * 10 + c.val = (b.val * 10 + c.val) * 1 + 0
    omega
  · rw [addf_apply]
    unfold lin
    have hdot : Host.dotGeneral dot_S131072x64_S64x10_S131072x10_1_0_0_1_n_n none x
          (transpose S64x10 [1, 0] qw transposes_S10x64_S64x10_1_0) (ix2 b c)
        = ∑ k : Fin 64, x (ix2 b k) * qw (ix2 c k) := by
      refine (dotGeneral_plain_apply none x _ b c).trans ?_
      refine Finset.sum_congr rfl fun k _ => ?_
      exact congrArg (x (ix2 b k) * ·) (transpose_ix2_apply qw _ k c)
    have hbias : broadcastInDim S131072x10 ![0, 1] bcast_S1x10_S131072x10_0_1
          (broadcastInDim S1x10 ![1] bcast_S10_S1x10_1 qb) (ix2 b c) = qb (ix1 c) := by
      refine (broadcastInDim_apply _ _ _ (ix2 b c) (ix2 (0 : Fin 1) c)
        fun a => match a with | ⟨0, _⟩ => rfl | ⟨1, _⟩ => rfl).trans ?_
      exact broadcastInDim_apply _ _ _ (ix2 (0 : Fin 1) c) (ix1 c)
        fun a => match a with | ⟨0, _⟩ => rfl
    rw [hdot, hbias]

/-! ## The two concatenations -/

/-- the 16 first-layer activations of sample b: the 8 base outputs, then the 8 piece-square outputs -/
theorem rL1x_apply (g1 g2 : FVec Ideal S131072x8 .f32) (b : Fin 131072) (k : Fin 16) :
    rL1x (F := Ideal) g1 g2 (ix2 b k) = l1of (fun j => g1 (ix2 b j)) (fun j => g2 (ix2 b j)) k := by
  unfold rL1x l1of
  by_cases h : k.val < 8
  · rw [dif_pos h]
    exact concatenate_pair_apply_left _ g1 g2 _ (ix2 b k) rfl (ix2 b ⟨k.val, h⟩)
      fun a => match a with | ⟨0, _⟩ => rfl | ⟨1, _⟩ => rfl
  · rw [dif_neg h]
    exact concatenate_pair_apply_right _ g1 g2 _ (ix2 b k) rfl rfl (ix2 b ⟨k.val - 8, by omega⟩)
      (fun a => match a with | ⟨0, _⟩ => fun _ => rfl | ⟨1, _⟩ => fun hne => absurd rfl hne)
      (by show (k.val - 8) + 8 = k.val; omega)

/-- the 32 second-layer inputs of sample b before clamping -/
theorem rCat_apply (g1 g2 : FVec Ideal S131072x8 .f32) (b : Fin 131072) (k : Fin 32) :
    rCat (F := Ideal) g1 g2 (ix2 b k) = catOf (fun j => g1 (ix2 b j)) (fun j => g2 (ix2 b j)) k := by
  unfold rCat catOf
  by_cases h : k.val < 16
  · rw [dif_pos h]
    refine (concatenate_pair_apply_left (t := S131072x32) (s₁ := S131072x16) (s₂ := S131072x16) 1 _ _ _ (ix2 b k) rfl
      (ix2 b (⟨k.val, h⟩ : Fin 16)) fun a => match a with | ⟨0, _⟩ => rfl | ⟨1, _⟩ => rfl).trans ?_
    rw [mulf_apply, mulf_apply, rL1x_apply]
    rfl
  · rw [dif_neg h]
    refine (concatenate_pair_apply_right (t := S131072x32) (s₁ := S131072x16) (s₂ := S131072x16) 1 _ _ _ (ix2 b k) rfl rfl
      (ix2 b (⟨k.val - 16, by omega⟩ : Fin 16))
      (fun a => match a with | ⟨0, _⟩ => fun _ => rfl | ⟨1, _⟩ => fun hne => absurd rfl hne)
      (by show (k.val - 16) + 16 = k.val; omega)).trans ?_
    exact rL1x_apply g1 g2 b _

end Cert.RefSide

end
-- ==== Proof.RefVal.lean ====
/-
  The reference's result, read at a sample: under the precondition (the eight weight arrays real, the sample's ply
  non-negative) it is the sample's score as the shared specification states it.

  Reading the composed term from the outside in: the last straight-through floor cancels because the output layer's
  value is real; each gather reads the sample's own row at its bucket; each dense layer is an inner product plus a
  bias; the two inner straight-through floors cancel because a clamped value is real; each weight's straight-through
  quantisation cancels because the weight is real.
-/
import proofs.«405585_j71511205479094_3_alg».proof.Proof.RefTerm
import proofs.«405585_j71511205479094_3_alg».proof.Proof.RefGather
import proofs.«405585_j71511205479094_3_alg».proof.Proof.RefQuant
import proofs.«405585_j71511205479094_3_alg».proof.Proof.RefDense
import proofs.«405585_j71511205479094_3_alg».proof.Proof.Spec
import proofs.«405585_j71511205479094_3_alg».proof.Proof.Ints
import proofs.«405585_j71511205479094_3_alg».proof.Proof.LibRealArr
import Idealize.ShloMosaic.Lib.ValueIdx

noncomputable section
namespace Cert.RefSide
open Cert.ReferenceIdeal Cert.ReferenceIdeal.Facts₀ Idealize.ShloMosaic Idealize.ShloMosaic.ValueIdx Cert.Val Cert.Ints
open Cert.Spec hiding S80x257 S80 S80x128 S640x32 S640 S10x64 S10

/-- The reference's result at sample `b`. -/
theorem refTerm_apply (a0 : FVec Ideal S131072x257 .f32) (a1 : FVec Ideal S131072x128 .f32) (a2 : IVec S131072 32) (a3 : FVec Ideal S80x257 .f32)
    (a4 : FVec Ideal S80 .f32) (a5 : FVec Ideal S80x128 .f32) (a6 : FVec Ideal S80 .f32) (a7 : FVec Ideal S640x32 .f32) (a8 : FVec Ideal S640 .f32)
    (a9 : FVec Ideal S10x64 .f32) (a10 : FVec Ideal S10 .f32)
    (h3 : IsRealArr a3) (h4 : IsRealArr a4) (h5 : IsRealArr a5) (h6 : IsRealArr a6) (h7 : IsRealArr a7) (h8 : IsRealArr a8)
    (h9 : IsRealArr a9) (h10 : IsRealArr a10) (b : Fin 131072) (hb : 0 ≤ (a2 (ix1 b)).toInt) :
    refTerm (F := Ideal) a0 a1 a2 a3 a4 a5 a6 a7 a8 a9 a10 (ix2 b (0 : Fin 1))
      = Spec.outArr a0 a1 (fun b => bucket (a2 (ix1 b))) a3 a4 a5 a6 a7 a8 a9 a10 (ix2 b (0 : Fin 1)) := by
  unfold refTerm
  -- the value the last floor reads: the bucket's output of the output layer
  have key : rG1 (F := Ideal) (rL3 (rQf64 (rClip64 (rG64 (rL2 (rQf32 (rClip32 (rCat
        (rG8 (rL1b a0 (rQ80x257 a3) (rQ80 a4)) (rIdx (rLs a2)))
        (rG8 (rL1p a1 (rQ80x128 a5) (rQ80 a6)) (rIdx (rLs a2))))))
      (rQ640x32 a7) (rQ640 a8)) (rIdx (rLs a2))))) (rQ10x64 a9) (rQ10 a10)) (rIdx (rLs a2)) (ix2 b (0 : Fin 1))
      = l3of (h2of (l2of (h1of
            (l1b (fun k => a0 (ix2 b k)) (bucket (a2 (ix1 b))) (fun n k => qround c64 (a3 (ix2 n k))) (fun n => qround c8128 (a4 (ix1 n))))
            (l1p (fun k => a1 (ix2 b k)) (bucket (a2 (ix1 b))) (fun n k => qround c64 (a5 (ix2 n k))) (fun n => qround c8128 (a6 (ix1 n)))))
          (fun n k => qround c64 (a7 (ix2 n k))) (fun n => qround c8128 (a8 (ix1 n))) (bucket (a2 (ix1 b)))))
        (fun n k => qround c75 (a9 (ix2 n k))) (fun n => qround c9600 (a10 (ix1 n))) (bucket (a2 (ix1 b))) := by
    rw [rG1_apply _ a2 b hb, rL3_apply]
    simp only [rQf64_clip, rG64_apply _ a2 b hb, rL2_apply, rQf32_clip, rCat_apply, rG8_apply _ a2 b hb, rL1b_apply, rL1p_apply,
      rQ80x257_apply a3 h3, rQ80_apply a4 h4, rQ80x128_apply a5 h5, rQ80_apply a6 h6, rQ640x32_apply a7 h7, rQ640_apply a8 h8,
      rQ10x64_apply a9 h9, rQ10_apply a10 h10]
    rfl
  have hreal : IsReal (l3of (h2of (l2of (h1of
            (l1b (fun k => a0 (ix2 b k)) (bucket (a2 (ix1 b))) (fun n k => qround c64 (a3 (ix2 n k))) (fun n => qround c8128 (a4 (ix1 n))))
            (l1p (fun k => a1 (ix2 b k)) (bucket (a2 (ix1 b))) (fun n k => qround c64 (a5 (ix2 n k))) (fun n => qround c8128 (a6 (ix1 n)))))
          (fun n k => qround c64 (a7 (ix2 n k))) (fun n => qround c8128 (a8 (ix1 n))) (bucket (a2 (ix1 b)))))
        (fun n k => qround c75 (a9 (ix2 n k))) (fun n => qround c9600 (a10 (ix1 n))) (bucket (a2 (ix1 b)))) := by
    unfold l3of
    exact isReal_lin (fun k => isReal_qfloor c127_real (isReal_clip01 _)) (fun k => isReal_qround c75_real (h9 _)) (isReal_qround c9600_real (h10 _))
  rw [rQf1_apply _ _ (key ▸ hreal), key]
  rfl

/-- The reference's result: every sample's score. -/
theorem refTerm_eq (a0 : FVec Ideal S131072x257 .f32) (a1 : FVec Ideal S131072x128 .f32) (a2 : IVec S131072 32) (a3 : FVec Ideal S80x257 .f32)
    (a4 : FVec Ideal S80 .f32) (a5 : FVec Ideal S80x128 .f32) (a6 : FVec Ideal S80 .f32) (a7 : FVec Ideal S640x32 .f32) (a8 : FVec Ideal S640 .f32)
    (a9 : FVec Ideal S10x64 .f32) (a10 : FVec Ideal S10 .f32)
    (h3 : IsRealArr a3) (h4 : IsRealArr a4) (h5 : IsRealArr a5) (h6 : IsRealArr a6) (h7 : IsRealArr a7) (h8 : IsRealArr a8)
    (h9 : IsRealArr a9) (h10 : IsRealArr a10) (hp : ∀ b : Fin 131072, 0 ≤ (a2 (ix1 b)).toInt) :
    refTerm (F := Ideal) a0 a1 a2 a3 a4 a5 a6 a7 a8 a9 a10
      = Spec.outArr a0 a1 (fun b => bucket (a2 (ix1 b))) a3 a4 a5 a6 a7 a8 a9 a10 := by
  funext i
  obtain ⟨b, q, rfl⟩ : ∃ (b : Fin 131072) (q : Fin 1), i = ix2 b q := ⟨i 0, i 1, eq_ix2 i⟩
  obtain rfl : q = 0 := Subsingleton.elim _ _
  exact refTerm_apply a0 a1 a2 a3 a4 a5 a6 a7 a8 a9 a10 h3 h4 h5 h6 h7 h8 h9 h10 b (hp b)

end Cert.RefSide

end
-- ==== Proof.lean ====
/-
  The certificate of the mixture-of-buckets quantised network: the kernel (one pallas_call over 64 blocks of 2048
  samples, every bucket select done by a one-hot sum) against its reference (dense layers, the bucket read by a gather).

  Statement. The precondition is "every float input finite, and ply >= 0" (the second conjunct added: for a negative
  ply the reference reads a wrapped bucket and the kernel bucket 0).  Under it, at the extended reals:
    * each program runs to the end and leaves its arguments unchanged (the kernel's two frames are generated whole;
      the reference's frame is its run with the result dropped);
    * the idealization rewrote nothing, so the preservation conjunct is trivial;
    * both idealized programs end with the same array: sample b's score `Spec.out` of row b of the two feature
      arrays, the bucket min (ply b / 6) 9, and the quantised weights.

  The kernel side: the body's stored value at a block row is `Spec.out` of the row's data (KBody), the host code before
  the call leaves the quantised, transposed weights and the clamped bucket column in the window arrays (KHost), and
  the 64 blocks tile the output array (Blocks).  The reference side: its run ends at one composed term (RefTerm,
  RefRun), which at a sample is the same `Spec.out` (RefGather, RefDense, RefQuant, RefVal): the straight-through forms
  w + (q - w) cancel because the weights and the clamped activations are real; every one-hot select and every gather
  read the same bucket because ply is non-negative (Ints).
-/
import proofs.«405585_j71511205479094_3_alg».proof.Defs
import proofs.«405585_j71511205479094_3_alg».proof.Proof.Gen.Kernel
import proofs.«405585_j71511205479094_3_alg».proof.Proof.Gen.Kernel.Skeleton
import proofs.«405585_j71511205479094_3_alg».proof.Proof.Gen.Kernel.Launch
import proofs.«405585_j71511205479094_3_alg».proof.Proof.Gen.Kernel.Points
import proofs.«405585_j71511205479094_3_alg».proof.Proof.Gen.Kernel.Frame
import proofs.«405585_j71511205479094_3_alg».proof.Proof.Gen.KernelIdeal
import proofs.«405585_j71511205479094_3_alg».proof.Proof.Gen.KernelIdeal.Skeleton
import proofs.«405585_j71511205479094_3_alg».proof.Proof.Gen.KernelIdeal.Launch
import proofs.«405585_j71511205479094_3_alg».proof.Proof.Gen.KernelIdeal.Points
import proofs.«405585_j71511205479094_3_alg».proof.Proof.Gen.KernelIdeal.Frame
import proofs.«405585_j71511205479094_3_alg».proof.Proof.Gen.KernelIdeal.Value
import proofs.«405585_j71511205479094_3_alg».proof.Proof.Gen.ReferenceIdeal
import proofs.«405585_j71511205479094_3_alg».proof.Proof.Gen.Pre_finite_inputs
import proofs.«405585_j71511205479094_3_alg».proof.Proof.PreFacts
import proofs.«405585_j71511205479094_3_alg».proof.Proof.Blocks
import proofs.«405585_j71511205479094_3_alg».proof.Proof.RefRun
import proofs.«405585_j71511205479094_3_alg».proof.Proof.RefVal
import Idealize.ShloMosaic.Adequacy
import Idealize.ShloMosaic.Init

noncomputable section

namespace Cert.Proof

open Idealize.ShloMosaic Idealize.ShloMosaic.ValueIdx Idealize.SL.Sem

/-- The printed kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run (F := Ideal) m ρ)

/-- Both idealized programs end with every sample's score. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hf := fun c => Cert.PreFacts.of_pre _ _ _ _ _ _ _ _ _ _ _ (hpre c)
  have hply : ∀ (c : Dev Cert.KernelIdeal.nD) (b : Fin 131072),
      0 ≤ (((m ((c.tc : Thread Cert.KernelIdeal.nD Cert.KernelIdeal.τ).loc Cert.KernelIdeal.main_arg2)) : Cert.KernelIdeal.S131072.Idx → BitVec 32) (ix1 b)).toInt :=
    fun c b => (hf c).2.2.2.2.2.2.2.2 b
  refine ⟨_, Cert.KSide.kernel_run m ρ hply, ?_⟩
  refine (θ_run Cert.ReferenceIdeal.defs _ _).mono (fun r h c => ⟨(h c).1.trans ?_, (h c).2⟩)
    (Cert.RefSide.run (F := Ideal) m' ρ')
  obtain ⟨e0, e1, e2, e3, e4, e5, e6, e7, e8, e9, e10⟩ := hagree c
  obtain ⟨h3, h4, h5, h6, h7, h8, h9, h10, hp⟩ := hf c
  rw [e0, e1, e2, e3, e4, e5, e6, e7, e8, e9, e10]
  exact Cert.RefSide.refTerm_eq _ _ _ _ _ _ _ _ _ _ _ h3 h4 h5 h6 h7 h8 h9 h10 hp

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
